-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S8x64x512 : Shape := ⟨3, ![8, 64, 512]⟩
abbrev S8 : Shape := ⟨1, ![8]⟩
abbrev S_ : Shape := ⟨0, ![]⟩
abbrev S64x512 : Shape := ⟨2, ![64, 512]⟩
abbrev S1x64x512 : Shape := ⟨3, ![1, 64, 512]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .local _ .vmem, ⟨0, _⟩ => ⟨S1024x512, .f32⟩
  | .local _ .vmem, ⟨1, _⟩ => ⟨S1024x512, .bf16⟩
  | .local _ .vmem, ⟨2, _⟩ => ⟨S8x64x512, .bf16⟩
  | .local _ .vmem, ⟨3, _⟩ => ⟨S8x64x512, .bf16⟩
  | .local _ .vmem, ⟨4, _⟩ => ⟨S8x64x512, .bf16⟩
  | .local _ .vmem, ⟨5, _⟩ => ⟨S8x64x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v12 : BitVec 32 := Scalar.muli v2 c2_i32_7
  let v13 : BitVec 32 := Scalar.addi c0_i32 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v14 : BitVec 32 := Scalar.muli v6 c1_i32_8
  let v15 : BitVec 32 := Scalar.addi v13 v14
  v15.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v16 : BitVec 32 := Scalar.muli v7 c2_i32_10
  let v17 : BitVec 32 := Scalar.addi c0_i32_11 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v18 : BitVec 32 := Scalar.muli v5 c1_i32_12
  let v19 : BitVec 32 := Scalar.addi v17 v18
  v19.toNat
def k0_off1 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v20 : BitVec 32 := Scalar.addi v8 c0_i32_14
  let v21 : Index := Scalar.indexCast v20
  let c0 : Index := 0#32
  ![v21.toNat, 0]
def k0_dev3 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v28 : BitVec 32 := Scalar.muli v2 c2_i32_22
  let v29 : BitVec 32 := Scalar.addi c0_i32_23 v28
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v30 : BitVec 32 := Scalar.muli v6 c1_i32_24
  let v31 : BitVec 32 := Scalar.addi v29 v30
  v31.toNat
def k0_dev4 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v48 : BitVec 32 := Scalar.muli v2 c2_i32_36
  let v49 : BitVec 32 := Scalar.addi c0_i32_37 v48
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v50 : BitVec 32 := Scalar.muli v6 c1_i32_38
  let v51 : BitVec 32 := Scalar.addi v49 v50
  v51.toNat
def k0_dev5 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v68 : BitVec 32 := Scalar.muli v2 c2_i32_50
  let v69 : BitVec 32 := Scalar.addi c0_i32_51 v68
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_52 : BitVec 32 := 1#32
  let v70 : BitVec 32 := Scalar.muli v6 c1_i32_52
  let v71 : BitVec 32 := Scalar.addi v69 v70
  v71.toNat
def k0_dev6 (d0 : Dev nD) : Nat :=
  let c0_i32_64 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_63 : BitVec 32 := 2#32
  let v88 : BitVec 32 := Scalar.muli v2 c2_i32_63
  let v89 : BitVec 32 := Scalar.addi c0_i32_64 v88
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_65 : BitVec 32 := 1#32
  let v90 : BitVec 32 := Scalar.muli v6 c1_i32_65
  let v91 : BitVec 32 := Scalar.addi v89 v90
  v91.toNat
def k0_dev7 (d0 : Dev nD) : Nat :=
  let c0_i32_77 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_76 : BitVec 32 := 2#32
  let v108 : BitVec 32 := Scalar.muli v2 c2_i32_76
  let v109 : BitVec 32 := Scalar.addi c0_i32_77 v108
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_78 : BitVec 32 := 1#32
  let v110 : BitVec 32 := Scalar.muli v6 c1_i32_78
  let v111 : BitVec 32 := Scalar.addi v109 v110
  v111.toNat
def k0_dev8 (d0 : Dev nD) : Nat :=
  let c0_i32_90 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_89 : BitVec 32 := 2#32
  let v128 : BitVec 32 := Scalar.muli v2 c2_i32_89
  let v129 : BitVec 32 := Scalar.addi c0_i32_90 v128
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_91 : BitVec 32 := 1#32
  let v130 : BitVec 32 := Scalar.muli v6 c1_i32_91
  let v131 : BitVec 32 := Scalar.addi v129 v130
  v131.toNat
def k0_dev9 (d0 : Dev nD) : Nat :=
  let c0_i32_103 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_102 : BitVec 32 := 2#32
  let v148 : BitVec 32 := Scalar.muli v2 c2_i32_102
  let v149 : BitVec 32 := Scalar.addi c0_i32_103 v148
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_104 : BitVec 32 := 1#32
  let v150 : BitVec 32 := Scalar.muli v6 c1_i32_104
  let v151 : BitVec 32 := Scalar.addi v149 v150
  v151.toNat
def k0_dev10 (d0 : Dev nD) : Nat :=
  let c0_i32_116 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_115 : BitVec 32 := 2#32
  let v168 : BitVec 32 := Scalar.muli v2 c2_i32_115
  let v169 : BitVec 32 := Scalar.addi c0_i32_116 v168
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_117 : BitVec 32 := 1#32
  let v170 : BitVec 32 := Scalar.muli v6 c1_i32_117
  let v171 : BitVec 32 := Scalar.addi v169 v170
  v171.toNat
def k0_dev11 (d0 : Dev nD) : Nat :=
  let c0_i32_147 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_146 : BitVec 32 := 2#32
  let v198 : BitVec 32 := Scalar.muli v7 c2_i32_146
  let v199 : BitVec 32 := Scalar.addi c0_i32_147 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v200 : BitVec 32 := Scalar.muli v5 c1_i32_148
  let v201 : BitVec 32 := Scalar.addi v199 v200
  v201.toNat
def k0_dev12 (d0 : Dev nD) : Nat :=
  let c0_i32_183 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_182 : BitVec 32 := 2#32
  let v233 : BitVec 32 := Scalar.muli v7 c2_i32_182
  let v234 : BitVec 32 := Scalar.addi c0_i32_183 v233
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_184 : BitVec 32 := 1#32
  let v235 : BitVec 32 := Scalar.muli v5 c1_i32_184
  let v236 : BitVec 32 := Scalar.addi v234 v235
  v236.toNat
def k0_dev13 (d0 : Dev nD) : Nat :=
  let c0_i32_219 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_218 : BitVec 32 := 2#32
  let v268 : BitVec 32 := Scalar.muli v7 c2_i32_218
  let v269 : BitVec 32 := Scalar.addi c0_i32_219 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_220 : BitVec 32 := 1#32
  let v270 : BitVec 32 := Scalar.muli v5 c1_i32_220
  let v271 : BitVec 32 := Scalar.addi v269 v270
  v271.toNat
def k0_dev14 (d0 : Dev nD) : Nat :=
  let c0_i32_255 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_254 : BitVec 32 := 2#32
  let v303 : BitVec 32 := Scalar.muli v7 c2_i32_254
  let v304 : BitVec 32 := Scalar.addi c0_i32_255 v303
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_256 : BitVec 32 := 1#32
  let v305 : BitVec 32 := Scalar.muli v5 c1_i32_256
  let v306 : BitVec 32 := Scalar.addi v304 v305
  v306.toNat
def k0_dev15 (d0 : Dev nD) : Nat :=
  let c0_i32_291 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_290 : BitVec 32 := 2#32
  let v338 : BitVec 32 := Scalar.muli v7 c2_i32_290
  let v339 : BitVec 32 := Scalar.addi c0_i32_291 v338
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_292 : BitVec 32 := 1#32
  let v340 : BitVec 32 := Scalar.muli v5 c1_i32_292
  let v341 : BitVec 32 := Scalar.addi v339 v340
  v341.toNat
def k0_dev16 (d0 : Dev nD) : Nat :=
  let c0_i32_327 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_326 : BitVec 32 := 2#32
  let v373 : BitVec 32 := Scalar.muli v7 c2_i32_326
  let v374 : BitVec 32 := Scalar.addi c0_i32_327 v373
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_328 : BitVec 32 := 1#32
  let v375 : BitVec 32 := Scalar.muli v5 c1_i32_328
  let v376 : BitVec 32 := Scalar.addi v374 v375
  v376.toNat
def k0_dev17 (d0 : Dev nD) : Nat :=
  let c0_i32_363 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_362 : BitVec 32 := 2#32
  let v408 : BitVec 32 := Scalar.muli v7 c2_i32_362
  let v409 : BitVec 32 := Scalar.addi c0_i32_363 v408
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_364 : BitVec 32 := 1#32
  let v410 : BitVec 32 := Scalar.muli v5 c1_i32_364
  let v411 : BitVec 32 := Scalar.addi v409 v410
  v411.toNat
def k0_dev18 (d0 : Dev nD) : Nat :=
  let c0_i32_399 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_398 : BitVec 32 := 2#32
  let v443 : BitVec 32 := Scalar.muli v7 c2_i32_398
  let v444 : BitVec 32 := Scalar.addi c0_i32_399 v443
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_400 : BitVec 32 := 1#32
  let v445 : BitVec 32 := Scalar.muli v5 c1_i32_400
  let v446 : BitVec 32 := Scalar.addi v444 v445
  v446.toNat
def k0_off2 (d0 : Dev nD) (c0_i32_424 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c512_i32_5 : BitVec 32 := 512#32
  let v10 : BitVec 32 := Scalar.muli v9 c512_i32_5
  let v472 : BitVec 32 := Scalar.addi v10 c0_i32_424
  let v473 : Index := Scalar.indexCast v472
  let c0_425 : Index := 0#32
  ![v473.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  h_S64x512 : 0 < S64x512.numel
  shapeCasts_S64x512_S64x512 : S64x512.ShapeCasts S64x512
  bitsLt_bf16_f32 : FTy.bits .bf16 < FTy.bits .f32
  inb_S8x64x512_S1x64x512_0_0_0 : ∀ a, (![0, 0, 0] : Fin 3 → Nat) a + S1x64x512.size a ≤ S8x64x512.size a
  h_S1x64x512 : 0 < S1x64x512.numel
  shapeCasts_S1x64x512_S64x512 : S1x64x512.ShapeCasts S64x512
  shapeCasts_S64x512_S1x64x512 : S64x512.ShapeCasts S1x64x512
  packedbf16_S8x64x512_S1x64x512_0_0_0 : (Rect.unit (s := S8x64x512) ![0, 0, 0] S1x64x512.size inb_S8x64x512_S1x64x512_0_0_0).PackedRows (EltTy.packing .bf16)
  inb_S8_S1_0 : ∀ a, (![0] : Fin 1 → Nat) a + S1.size a ≤ S8.size a
  squeezes_S1_S_ : S1.Squeezes S_
  squeezes_S1x64x512_S64x512 : S1x64x512.Squeezes S64x512
  wordsbf16_S8x64x512_S1x64x512_0_0_0 : (Rect.unit (s := S8x64x512) ![0, 0, 0] S1x64x512.size inb_S8x64x512_S1x64x512_0_0_0).WholeWords (EltTy.packing .bf16)
  inb_S8x64x512_S1x64x512_1_0_0 : ∀ a, (![1, 0, 0] : Fin 3 → Nat) a + S1x64x512.size a ≤ S8x64x512.size a
  packedbf16_S8x64x512_S1x64x512_1_0_0 : (Rect.unit (s := S8x64x512) ![1, 0, 0] S1x64x512.size inb_S8x64x512_S1x64x512_1_0_0).PackedRows (EltTy.packing .bf16)
  inb_S8_S1_1 : ∀ a, (![1] : Fin 1 → Nat) a + S1.size a ≤ S8.size a
  wordsbf16_S8x64x512_S1x64x512_1_0_0 : (Rect.unit (s := S8x64x512) ![1, 0, 0] S1x64x512.size inb_S8x64x512_S1x64x512_1_0_0).WholeWords (EltTy.packing .bf16)
  inb_S8x64x512_S1x64x512_2_0_0 : ∀ a, (![2, 0, 0] : Fin 3 → Nat) a + S1x64x512.size a ≤ S8x64x512.size a
  packedbf16_S8x64x512_S1x64x512_2_0_0 : (Rect.unit (s := S8x64x512) ![2, 0, 0] S1x64x512.size inb_S8x64x512_S1x64x512_2_0_0).PackedRows (EltTy.packing .bf16)
  inb_S8_S1_2 : ∀ a, (![2] : Fin 1 → Nat) a + S1.size a ≤ S8.size a
  wordsbf16_S8x64x512_S1x64x512_2_0_0 : (Rect.unit (s := S8x64x512) ![2, 0, 0] S1x64x512.size inb_S8x64x512_S1x64x512_2_0_0).WholeWords (EltTy.packing .bf16)
  inb_S8x64x512_S1x64x512_3_0_0 : ∀ a, (![3, 0, 0] : Fin 3 → Nat) a + S1x64x512.size a ≤ S8x64x512.size a
  packedbf16_S8x64x512_S1x64x512_3_0_0 : (Rect.unit (s := S8x64x512) ![3, 0, 0] S1x64x512.size inb_S8x64x512_S1x64x512_3_0_0).PackedRows (EltTy.packing .bf16)
  inb_S8_S1_3 : ∀ a, (![3] : Fin 1 → Nat) a + S1.size a ≤ S8.size a
  wordsbf16_S8x64x512_S1x64x512_3_0_0 : (Rect.unit (s := S8x64x512) ![3, 0, 0] S1x64x512.size inb_S8x64x512_S1x64x512_3_0_0).WholeWords (EltTy.packing .bf16)
  inb_S8x64x512_S1x64x512_4_0_0 : ∀ a, (![4, 0, 0] : Fin 3 → Nat) a + S1x64x512.size a ≤ S8x64x512.size a
  packedbf16_S8x64x512_S1x64x512_4_0_0 : (Rect.unit (s := S8x64x512) ![4, 0, 0] S1x64x512.size inb_S8x64x512_S1x64x512_4_0_0).PackedRows (EltTy.packing .bf16)
  inb_S8_S1_4 : ∀ a, (![4] : Fin 1 → Nat) a + S1.size a ≤ S8.size a
  wordsbf16_S8x64x512_S1x64x512_4_0_0 : (Rect.unit (s := S8x64x512) ![4, 0, 0] S1x64x512.size inb_S8x64x512_S1x64x512_4_0_0).WholeWords (EltTy.packing .bf16)
  inb_S8x64x512_S1x64x512_5_0_0 : ∀ a, (![5, 0, 0] : Fin 3 → Nat) a + S1x64x512.size a ≤ S8x64x512.size a
  packedbf16_S8x64x512_S1x64x512_5_0_0 : (Rect.unit (s := S8x64x512) ![5, 0, 0] S1x64x512.size inb_S8x64x512_S1x64x512_5_0_0).PackedRows (EltTy.packing .bf16)
  inb_S8_S1_5 : ∀ a, (![5] : Fin 1 → Nat) a + S1.size a ≤ S8.size a
  wordsbf16_S8x64x512_S1x64x512_5_0_0 : (Rect.unit (s := S8x64x512) ![5, 0, 0] S1x64x512.size inb_S8x64x512_S1x64x512_5_0_0).WholeWords (EltTy.packing .bf16)
  inb_S8x64x512_S1x64x512_6_0_0 : ∀ a, (![6, 0, 0] : Fin 3 → Nat) a + S1x64x512.size a ≤ S8x64x512.size a
  packedbf16_S8x64x512_S1x64x512_6_0_0 : (Rect.unit (s := S8x64x512) ![6, 0, 0] S1x64x512.size inb_S8x64x512_S1x64x512_6_0_0).PackedRows (EltTy.packing .bf16)
  inb_S8_S1_6 : ∀ a, (![6] : Fin 1 → Nat) a + S1.size a ≤ S8.size a
  wordsbf16_S8x64x512_S1x64x512_6_0_0 : (Rect.unit (s := S8x64x512) ![6, 0, 0] S1x64x512.size inb_S8x64x512_S1x64x512_6_0_0).WholeWords (EltTy.packing .bf16)
  inb_S8x64x512_S1x64x512_7_0_0 : ∀ a, (![7, 0, 0] : Fin 3 → Nat) a + S1x64x512.size a ≤ S8x64x512.size a
  packedbf16_S8x64x512_S1x64x512_7_0_0 : (Rect.unit (s := S8x64x512) ![7, 0, 0] S1x64x512.size inb_S8x64x512_S1x64x512_7_0_0).PackedRows (EltTy.packing .bf16)
  inb_S8_S1_7 : ∀ a, (![7] : Fin 1 → Nat) a + S1.size a ≤ S8.size a
  wordsbf16_S8x64x512_S1x64x512_7_0_0 : (Rect.unit (s := S8x64x512) ![7, 0, 0] S1x64x512.size inb_S8x64x512_S1x64x512_7_0_0).WholeWords (EltTy.packing .bf16)
  hcc0_scratch4 : 2 + S8.numel ≤ 34
  hcc0_scratch5 : 10 + S8.numel ≤ 34
  hcc0_scratch6 : 18 + S8.numel ≤ 34
  hcc0_scratch7 : 26 + S8.numel ≤ 34
  k0_dev1_lt : ∀ d0 : Dev nD, (k0_dev1 d0) < nD
  k0_dev2_lt : ∀ d0 : Dev nD, (k0_dev2 d0) < nD
  k0_off1_inb : ∀ d0 : Dev nD, ∀ (r : Fin 8), ∀ a, (k0_off1 d0 (BitVec.ofNat 32 (64 * r.val))) a + S64x512.size a ≤ S1024x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off1_packedbf16 : ∀ d0 : Dev nD, ∀ (r : Fin 8), (Rect.unit (s := S1024x512) (k0_off1 d0 (BitVec.ofNat 32 (64 * r.val))) S64x512.size (k0_off1_inb d0 r)).PackedRows (EltTy.packing .bf16)
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off2_inb : ∀ d0 : Dev nD, ∀ (r : Fin 8), ∀ a, (k0_off2 d0 (BitVec.ofNat 32 (64 * r.val))) a + S64x512.size a ≤ S1024x512.size a
  k0_off2_packedbf16 : ∀ d0 : Dev nD, ∀ (r : Fin 8), (Rect.unit (s := S1024x512) (k0_off2 d0 (BitVec.ofNat 32 (64 * r.val))) S64x512.size (k0_off2_inb d0 r)).PackedRows (EltTy.packing .bf16)
  hstage0_0 : ∀ j, (stage0_0 j).IsWhole
  hstage0_1 : ∀ j, (stage0_1 j).IsWhole

variable [Facts₀]

abbrev cc0_scratch4 : DmaSems sig S8 := SemArray.consecutive 2 S8 hcc0_scratch4
abbrev cc0_scratch5 : DmaSems sig S8 := SemArray.consecutive 10 S8 hcc0_scratch5
abbrev cc0_scratch6 : DmaSems sig S8 := SemArray.consecutive 18 S8 hcc0_scratch6
abbrev cc0_scratch7 : DmaSems sig S8 := SemArray.consecutive 26 S8 hcc0_scratch7

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2x1024x512, .f32⟩
  | .hbm, ⟨2, _⟩ => ⟨S_, .f32⟩
  | .hbm, ⟨3, _⟩ => ⟨S1024x512, .f32⟩
  | .hbm, ⟨4, _⟩ => ⟨S1024x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S2048x512_S2x1024x512 : S2048x512.ShapeCasts S2x1024x512
  reducesTo_S2x1024x512_S1024x512_d0 : S2x1024x512.ReducesTo [0] S1024x512
  h_S_ : 0 < S_.numel
  bitsLt_bf16_f32 : FTy.bits .bf16 < FTy.bits .f32

variable [Facts₀]

class Facts : Prop extends Facts₀ where

variable [Facts]
-- ==== Proof.Proto.lean ====
import proofs.«900138_g7700000000000139_dist_ar_v7x_xy2x2_y_m1024_n512_bf16_1_alg».proof.Proof.Gen.KernelIdeal
import proofs.«900138_g7700000000000139_dist_ar_v7x_xy2x2_y_m1024_n512_bf16_1_alg».proof.Proof.Gen.KernelIdeal.Skeleton
import proofs.«900138_g7700000000000139_dist_ar_v7x_xy2x2_y_m1024_n512_bf16_1_alg».proof.Proof.Gen.KernelIdeal.Launch
import proofs.«900138_g7700000000000139_dist_ar_v7x_xy2x2_y_m1024_n512_bf16_1_alg».proof.Proof.Gen.KernelIdeal.Points
import Idealize.ShloMosaic.Lib.Pipeline.Launch
import Idealize.ShloMosaic.Lib.Pipeline.Kit
import Idealize.ShloMosaic.Lib.Tactic

/-! The all-reduce over the 2 × 2 mesh: devices, chunk views, semaphore cells and the contents every
buffer holds at each stage, as pure terms of the devices' argument blocks.

Device `c` has mesh coordinates `(c / 2, c % 2)`.  Its column mate `yn c` differs in the second
coordinate, its row mate `xn c` in the first.  The rows of the block are cut in two halves of eight
chunks of 64 rows; chunk `k` of the device's own half is sent to the column mate, summed with what
arrives from it, and the sum is sent to the row mate, whose own half is the other one. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's copy beside the protocol's (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The mesh -/

/-- The column mate: the other value of the second mesh coordinate. -/
def yn (c : Dev nD) : Dev nD := ⟨(2 * (c.val / 2) + 1) - (c.val % 2), by have := c.isLt; revert this; generalize c.val = v; decide +revert⟩
/-- The row mate: the other value of the first mesh coordinate. -/
def xn (c : Dev nD) : Dev nD := ⟨((c.val % 2) + 2) - 2 * (c.val / 2), by have := c.isLt; revert this; generalize c.val = v; decide +revert⟩

theorem yn_yn (c : Dev nD) : yn (yn c) = c := by revert c; decide
theorem xn_xn (c : Dev nD) : xn (xn c) = c := by revert c; decide
theorem yn_xn (c : Dev nD) : yn (xn c) = xn (yn c) := by revert c; decide

def ynE : Dev nD ≃ Dev nD := ⟨yn, yn, yn_yn, yn_yn⟩
def xnE : Dev nD ≃ Dev nD := ⟨xn, xn, xn_xn, xn_xn⟩

theorem dev1_eq (c : Dev nD) : (⟨k0_dev1 c, k0_dev1_lt c⟩ : Dev nD) = yn c := Fin.ext (k0_dev1_eq c)
theorem dev2_eq (c : Dev nD) : (⟨k0_dev2 c, k0_dev2_lt c⟩ : Dev nD) = xn c := Fin.ext (k0_dev2_eq c)
theorem dev3_eq (c : Dev nD) : (⟨k0_dev3 c, k0_dev3_lt c⟩ : Dev nD) = yn c := Fin.ext (k0_dev3_eq c)
theorem dev4_eq (c : Dev nD) : (⟨k0_dev4 c, k0_dev4_lt c⟩ : Dev nD) = yn c := Fin.ext (k0_dev4_eq c)
theorem dev5_eq (c : Dev nD) : (⟨k0_dev5 c, k0_dev5_lt c⟩ : Dev nD) = yn c := Fin.ext (k0_dev5_eq c)
theorem dev6_eq (c : Dev nD) : (⟨k0_dev6 c, k0_dev6_lt c⟩ : Dev nD) = yn c := Fin.ext (k0_dev6_eq c)
theorem dev7_eq (c : Dev nD) : (⟨k0_dev7 c, k0_dev7_lt c⟩ : Dev nD) = yn c := Fin.ext (k0_dev7_eq c)
theorem dev8_eq (c : Dev nD) : (⟨k0_dev8 c, k0_dev8_lt c⟩ : Dev nD) = yn c := Fin.ext (k0_dev8_eq c)
theorem dev9_eq (c : Dev nD) : (⟨k0_dev9 c, k0_dev9_lt c⟩ : Dev nD) = yn c := Fin.ext (k0_dev9_eq c)
theorem dev10_eq (c : Dev nD) : (⟨k0_dev10 c, k0_dev10_lt c⟩ : Dev nD) = yn c := Fin.ext (k0_dev10_eq c)
theorem dev11_eq (c : Dev nD) : (⟨k0_dev11 c, k0_dev11_lt c⟩ : Dev nD) = xn c := Fin.ext (k0_dev11_eq c)
theorem dev12_eq (c : Dev nD) : (⟨k0_dev12 c, k0_dev12_lt c⟩ : Dev nD) = xn c := Fin.ext (k0_dev12_eq c)
theorem dev13_eq (c : Dev nD) : (⟨k0_dev13 c, k0_dev13_lt c⟩ : Dev nD) = xn c := Fin.ext (k0_dev13_eq c)
theorem dev14_eq (c : Dev nD) : (⟨k0_dev14 c, k0_dev14_lt c⟩ : Dev nD) = xn c := Fin.ext (k0_dev14_eq c)
theorem dev15_eq (c : Dev nD) : (⟨k0_dev15 c, k0_dev15_lt c⟩ : Dev nD) = xn c := Fin.ext (k0_dev15_eq c)
theorem dev16_eq (c : Dev nD) : (⟨k0_dev16 c, k0_dev16_lt c⟩ : Dev nD) = xn c := Fin.ext (k0_dev16_eq c)
theorem dev17_eq (c : Dev nD) : (⟨k0_dev17 c, k0_dev17_lt c⟩ : Dev nD) = xn c := Fin.ext (k0_dev17_eq c)
theorem dev18_eq (c : Dev nD) : (⟨k0_dev18 c, k0_dev18_lt c⟩ : Dev nD) = xn c := Fin.ext (k0_dev18_eq c)

/-! ## Memrefs, chunk views, cells -/

abbrev xM : Memref sig .tc .vmem S1024x512 .f32 := Memref.whole cc0_stg0_0
abbrev oM : Memref sig .tc .vmem S1024x512 .bf16 := Memref.whole cc0_stg1_0
/-- The four chunked scratch buffers: what is sent down the column, what arrives from it, the column
    sums sent along the row, what arrives from the row mate. -/
abbrev aM : Memref sig .tc .vmem S8x64x512 .bf16 := Memref.whole cc0_scratch0
abbrev bM : Memref sig .tc .vmem S8x64x512 .bf16 := Memref.whole cc0_scratch1
abbrev pM : Memref sig .tc .vmem S8x64x512 .bf16 := Memref.whole cc0_scratch2
abbrev qM : Memref sig .tc .vmem S8x64x512 .bf16 := Memref.whole cc0_scratch3

theorem inbk (k : Fin 8) : ∀ a, (![k.val, 0, 0] : Fin 3 → Nat) a + S1x64x512.size a ≤ S8x64x512.size a := by revert k; decide
theorem inb1 (k : Fin 8) : ∀ a, (![k.val] : Fin 1 → Nat) a + S1.size a ≤ S8.size a := by revert k; decide

/-- Chunk `k` of a chunked buffer, as a rectangle. -/
abbrev rk (k : Fin 8) : Rect S8x64x512 := Rect.unit (s := S8x64x512) ![k.val, 0, 0] S1x64x512.size (inbk k)
/-- Chunk `k` as the 64 × 512 memref a transfer names. -/
abbrev sl (M : Memref sig .tc .vmem S8x64x512 .bf16) (k : Fin 8) : Memref sig .tc .vmem S64x512 .bf16 :=
  (M.slice (rk k) (fun _ => rfl)).squeeze S64x512 squeezes_S1x64x512_S64x512
/-- Semaphore `k` of an array of eight. -/
abbrev semk (A : DmaSems sig S8) (k : Fin 8) : DmaSem sig :=
  ((A.slice (Rect.unit (s := S8) ![k.val] S1.size (inb1 k))).squeeze S_ squeezes_S1_S_).sem

theorem semk4 (k : Fin 8) : (semk cc0_scratch4 k).val = 2 + k.val := by revert k; decide
theorem semk5 (k : Fin 8) : (semk cc0_scratch5 k).val = 10 + k.val := by revert k; decide
theorem semk6 (k : Fin 8) : (semk cc0_scratch6 k).val = 18 + k.val := by revert k; decide
theorem semk7 (k : Fin 8) : (semk cc0_scratch7 k).val = 26 + k.val := by revert k; decide

abbrev barS : Sem sig := (SemArray.scalar (sig.barrier 0 rfl) : Sems sig S_).sem

abbrev barC (c : Dev nD) : GSem nD τ sig := ((c : Thread nD τ), .reg barS)
abbrev s1C (c : Dev nD) (k : Fin 8) : GSem nD τ sig := ((c : Thread nD τ), .dma (semk cc0_scratch4 k))
abbrev r1C (c : Dev nD) (k : Fin 8) : GSem nD τ sig := ((c : Thread nD τ), .dma (semk cc0_scratch5 k))
abbrev s2C (c : Dev nD) (k : Fin 8) : GSem nD τ sig := ((c : Thread nD τ), .dma (semk cc0_scratch6 k))
abbrev r2C (c : Dev nD) (k : Fin 8) : GSem nD τ sig := ((c : Thread nD τ), .dma (semk cc0_scratch7 k))

/-- What one chunk's transfer credits each of its two cells. -/
abbrev NN : ℕ := (sl bM 0).view.dmaCredit
theorem NN_pos : 0 < NN := View.dmaCredit_pos _ (by decide)
theorem credit_a (k : Fin 8) : (sl aM k).view.dmaCredit = NN := by revert k; decide
theorem credit_b (k : Fin 8) : (sl bM k).view.dmaCredit = NN := by revert k; decide
theorem credit_p (k : Fin 8) : (sl pM k).view.dmaCredit = NN := by revert k; decide
theorem credit_q (k : Fin 8) : (sl qM k).view.dmaCredit = NN := by revert k; decide

/-! ## Contents

Every buffer's contents at every stage, as a pure term of the argument blocks.  A chunked buffer is held
chunk by chunk; the canonical contents of chunk `k` are the chunk's payload written over the buffer's
contents at launch (off the chunk the contents are irrelevant to the chunk's points-to). -/

/-- Device `c`'s block of `x`, as staged (the launch has one grid point, the block is the whole array). -/
def xstg (c : Dev nD) : (cc0_stg0_0 : Ref sig .tc).ty.Contents (Elt F) :=
  (win0_0.blk (0 : Fin 1)).view.read (Elt F) ((s₀ m ρ).mem ((c : Thread nD τ).loc main_arg0))

/-- Rows `64 k ..` of the device's own half of the block, and of the other half. -/
abbrev rx1 (c : Dev nD) (k : Fin 8) : Rect S1024x512 :=
  Rect.unit (s := S1024x512) (k0_off1 c (BitVec.ofNat 32 (64 * k.val))) S64x512.size (k0_off1_inb c k)
abbrev rx2 (c : Dev nD) (k : Fin 8) : Rect S1024x512 :=
  Rect.unit (s := S1024x512) (k0_off2 c (BitVec.ofNat 32 (64 * k.val))) S64x512.size (k0_off2_inb c k)

/-- Chunk `k` of the device's own half, rounded to the transfer's element type. -/
def a1 (c : Dev nD) (k : Fin 8) : FVec F S1x64x512 .bf16 :=
  k0_pay1 (xM.view.readAt (Elt F) (rx1 c k).toLoadRect (xstg m ρ c))

/-- The send buffer of the column exchange with chunk `k` stored. -/
def A1 (c : Dev nD) (k : Fin 8) : Buf (Elt F) (aM.view.loc (c : Thread nD τ)) :=
  (aM.access (rk k)).write (Elt F) (m ((c : Thread nD τ).loc cc0_scratch0)) (a1 m ρ c k) Finset.univ

/-- The receive buffer of the column exchange with the column mate's chunk `k` landed. -/
def B1 (c : Dev nD) (k : Fin 8) : Buf (Elt F) (bM.view.loc (c : Thread nD τ)) :=
  (sl bM k).view.write (Elt F) (m ((c : Thread nD τ).loc cc0_scratch1)) ((sl aM k).view.read (Elt F) (A1 m ρ (yn c) k)) Finset.univ

/-- The column sum of chunk `k`: the device's own chunk plus the column mate's. -/
def a2 (c : Dev nD) (k : Fin 8) : FVec F S1x64x512 .bf16 :=
  k0_pay10 (aM.view.readAt (Elt F) (rk k).toLoadRect (A1 m ρ c k)) (bM.view.readAt (Elt F) (rk k).toLoadRect (B1 m ρ c k))

/-- The send buffer of the row exchange with chunk `k`'s column sum stored. -/
def P1 (c : Dev nD) (k : Fin 8) : Buf (Elt F) (pM.view.loc (c : Thread nD τ)) :=
  (pM.access (rk k)).write (Elt F) (m ((c : Thread nD τ).loc cc0_scratch2)) (a2 m ρ c k) Finset.univ

/-- The receive buffer of the row exchange with the row mate's column sum of chunk `k` landed. -/
def Q1 (c : Dev nD) (k : Fin 8) : Buf (Elt F) (qM.view.loc (c : Thread nD τ)) :=
  (sl qM k).view.write (Elt F) (m ((c : Thread nD τ).loc cc0_scratch3)) ((sl pM k).view.read (Elt F) (P1 m ρ (xn c) k)) Finset.univ

/-- What is stored into the result: the device's own column sums, and the row mate's. -/
def o1 (c : Dev nD) (k : Fin 8) : FVec F S64x512 .bf16 := k0_pay11 (pM.view.readAt (Elt F) (rk k).toLoadRect (P1 m ρ c k))
def o2 (c : Dev nD) (k : Fin 8) : FVec F S64x512 .bf16 := k0_pay11 (qM.view.readAt (Elt F) (rk k).toLoadRect (Q1 m ρ c k))

/-- The sixteen stores into the result's staging buffer, the last first. -/
def outPieces (c : Dev nD) : List (View.Piece (Elt F) S1024x512 .bf16) :=
  ((List.finRange 8).map fun k => (⟨rx2 c k, o2 m ρ c k⟩ : View.Piece (Elt F) S1024x512 .bf16)).reverse
    ++ ((List.finRange 8).map fun k => (⟨rx1 c k, o1 m ρ c k⟩ : View.Piece (Elt F) S1024x512 .bf16)).reverse

omit [FloatOps F] in
/-- An unmasked write leaves, on the view's own elements, contents that do not depend on what was there. -/
theorem write_univ_congr {κ : Kind} {sp : Space} {s : Shape} {e : EltTy} (v : View sig κ sp s e) (f f' : v.ty.Contents (Elt F)) (w : s.Idx → Elt F e) :
    ∀ i ∈ v.set, v.write (Elt F) f w Finset.univ i = v.write (Elt F) f' w Finset.univ i := by
  intro i hi
  obtain ⟨x, -, rfl⟩ := Finset.mem_map.mp hi
  rw [View.write_emb_of_mem _ _ (Finset.mem_univ _), View.write_emb_of_mem _ _ (Finset.mem_univ _)]

/-- Share `q` of chunk `k` of a chunked buffer on device `c`, holding `f` there. -/
def chunkPts (M : Memref sig .tc .vmem S8x64x512 .bf16) (c : Dev nD) (k : Fin 8) (q : PosShare TreeShare)
    (f : Buf (Elt F) ((sl M k).view.loc (c : Thread nD τ))) : sProp 𝕄 :=
  (sl M k).view.loc (c : Thread nD τ) ↦[(sl M k).view.set]{q} f

omit [FloatOps F] in
instance chunkPts_storable (M) (c : Dev nD) (k : Fin 8) (q) (f) : BI.Storable (upEmb : UEmb _ 𝕄) (chunkPts (F := F) M c k q f) := by
  unfold chunkPts; infer_instance

/-- A whole chunked buffer of device `c` at some contents. -/
def wholePts (M : Memref sig .tc .vmem S8x64x512 .bf16) (c : Dev nD) : sProp 𝕄 :=
  iprop(∃ f : Buf (Elt F) (M.view.loc (c : Thread nD τ)), M.view.loc (c : Thread nD τ) ↦[M.view.set]{fullShare} f)

omit [FloatOps F] in
instance wholePts_storable (M) (c : Dev nD) : BI.Storable (upEmb : UEmb _ 𝕄) (wholePts (F := F) M c) := by
  unfold wholePts; infer_instance

/-! ## The schedule

One round.  A device's barrier cell has two duties of one unit: `false`, paid by its column mate and
handing over the mate's column-receive buffer, and `true`, paid by its row mate and handing over the
mate's row-receive buffer.  Each of the 32 transfer cells has one duty of the chunk's credit: a send cell
returns the half share of the source chunk the transfer read, a receive cell hands over the chunk landed. -/

/-- The four kinds of transfer cell's payloads, for chunk `k` on device `c`. -/
def s1Pay (c : Dev nD) (k : Fin 8) : sProp 𝕄 := chunkPts aM c k fullShare.left (A1 m ρ c k)
def r1Pay (c : Dev nD) (k : Fin 8) : sProp 𝕄 := chunkPts bM c k fullShare (B1 m ρ c k)
def s2Pay (c : Dev nD) (k : Fin 8) : sProp 𝕄 := chunkPts pM c k fullShare.left (P1 m ρ c k)
def r2Pay (c : Dev nD) (k : Fin 8) : sProp 𝕄 := chunkPts qM c k fullShare (Q1 m ρ c k)

/-- The payload of transfer cell number `n` (the DMA semaphore's index) on device `c`. -/
def dmaPay (c : Dev nD) (n : ℕ) : sProp 𝕄 :=
  if h0 : n < 2 then iprop(emp)
  else if h1 : n < 10 then s1Pay m ρ c ⟨n - 2, by omega⟩
  else if h2 : n < 18 then r1Pay m ρ c ⟨n - 10, by omega⟩
  else if h3 : n < 26 then s2Pay m ρ c ⟨n - 18, by omega⟩
  else if h4 : n < 34 then r2Pay m ρ c ⟨n - 26, by omega⟩
  else iprop(emp)

def Rd : Rounds.Schedule (GSem nD τ sig) Bool 𝕄 where
  duties g r := if r = 0 ∧ g.1.2 = .tc then (match g.2 with | .reg _ => Finset.univ | .dma s => if 2 ≤ s.val then {false} else ∅) else ∅
  unitless _ := False
  amount g _ _ := match g.2 with | .reg _ => 1 | .dma _ => NN
  payload g _ d := match g.2 with
    | .reg _ => if d then wholePts qM (xn g.1.1) else wholePts bM (yn g.1.1)
    | .dma s => dmaPay m ρ g.1.1 s.val
  amount_pos g _ _ _ := by
    rcases g with ⟨t, sm⟩
    cases sm with
    | reg _ => exact Nat.one_pos
    | dma _ => exact NN_pos

omit [FloatOps F] in
instance dmaPay_storable (c : Dev nD) (n : ℕ) : BI.Storable (upEmb : UEmb _ 𝕄) (dmaPay (F := F) m ρ c n) := by
  unfold dmaPay s1Pay r1Pay s2Pay r2Pay
  (repeat' split) <;> infer_instance

instance Rd_payload_storable (g : GSem nD τ sig) (r : ℕ) (d : Bool) :
    BI.Storable (upEmb : UEmb _ 𝕄) ((Rd (F := F) m ρ).payload g r d) := by
  rcases g with ⟨t, sm⟩
  cases sm with
  | reg s => show BI.Storable upEmb (if d then wholePts qM (xn t.1) else wholePts bM (yn t.1)); split <;> infer_instance
  | dma s => show BI.Storable upEmb (dmaPay m ρ t.1 s.val); infer_instance

/-! ## The schedule's tables -/

section Sched
variable (c : Dev nD) (k : Fin 8)

theorem duties_bar : (Rd (F := F) m ρ).duties (barC c) 0 = Finset.univ := by
  dsimp only [Rd]; rw [if_pos ⟨rfl, rfl⟩]
theorem duties_dma (s : DmaSem sig) (hs : 2 ≤ s.val) : (Rd (F := F) m ρ).duties ((c : Thread nD τ), .dma s) 0 = {false} := by
  dsimp only [Rd]; rw [if_pos ⟨rfl, rfl⟩]; exact if_pos hs
theorem duties_s1 : (Rd (F := F) m ρ).duties (s1C c k) 0 = {false} := duties_dma m ρ c _ (by rw [semk4]; omega)
theorem duties_r1 : (Rd (F := F) m ρ).duties (r1C c k) 0 = {false} := duties_dma m ρ c _ (by rw [semk5]; omega)
theorem duties_s2 : (Rd (F := F) m ρ).duties (s2C c k) 0 = {false} := duties_dma m ρ c _ (by rw [semk6]; omega)
theorem duties_r2 : (Rd (F := F) m ρ).duties (r2C c k) 0 = {false} := duties_dma m ρ c _ (by rw [semk7]; omega)
theorem duties_later (g : GSem nD τ sig) : ∀ r, 1 ≤ r → (Rd (F := F) m ρ).duties g r = ∅ :=
  fun r hr => by dsimp only [Rd]; rw [if_neg fun h => by omega]

theorem amount_bar (d : Bool) : (Rd (F := F) m ρ).amount (barC c) 0 d = 1 := rfl
theorem amount_dma (s : DmaSem sig) (d : Bool) : (Rd (F := F) m ρ).amount ((c : Thread nD τ), .dma s) 0 d = NN := rfl

theorem expect_bar : (Rd (F := F) m ρ).expect (barC c) 0 = 2 := by
  unfold Schedule.expect Schedule.amountOf
  rw [duties_bar, Finset.sum_congr rfl fun d _ => amount_bar m ρ c d, Finset.sum_const, Finset.card_univ, Fintype.card_bool, smul_eq_mul]
theorem expect_dma (s : DmaSem sig) (hs : 2 ≤ s.val) : (Rd (F := F) m ρ).expect ((c : Thread nD τ), .dma s) 0 = NN := by
  unfold Schedule.expect Schedule.amountOf; rw [duties_dma m ρ c s hs, Finset.sum_singleton, amount_dma]

theorem payload_bar_true : (Rd (F := F) m ρ).payload (barC c) 0 true = wholePts qM (xn c) := by dsimp only [Rd]; rw [if_pos rfl]
theorem payload_bar_false : (Rd (F := F) m ρ).payload (barC c) 0 false = wholePts bM (yn c) := by
  dsimp only [Rd]; exact if_neg Bool.false_ne_true
theorem payload_s1 (d : Bool) : (Rd (F := F) m ρ).payload (s1C c k) 0 d = s1Pay m ρ c k := by
  show dmaPay m ρ c (semk cc0_scratch4 k).val = _
  rw [semk4]; unfold dmaPay; rw [dif_neg (by omega), dif_pos (by omega)]
  congr 1; exact Fin.ext (by simp)
theorem payload_r1 (d : Bool) : (Rd (F := F) m ρ).payload (r1C c k) 0 d = r1Pay m ρ c k := by
  show dmaPay m ρ c (semk cc0_scratch5 k).val = _
  rw [semk5]; unfold dmaPay; rw [dif_neg (by omega), dif_neg (by omega), dif_pos (by omega)]
  congr 1; exact Fin.ext (by simp)
theorem payload_s2 (d : Bool) : (Rd (F := F) m ρ).payload (s2C c k) 0 d = s2Pay m ρ c k := by
  show dmaPay m ρ c (semk cc0_scratch6 k).val = _
  rw [semk6]; unfold dmaPay; rw [dif_neg (by omega), dif_neg (by omega), dif_neg (by omega), dif_pos (by omega)]
  congr 1; exact Fin.ext (by simp)
theorem payload_r2 (d : Bool) : (Rd (F := F) m ρ).payload (r2C c k) 0 d = r2Pay m ρ c k := by
  show dmaPay m ρ c (semk cc0_scratch7 k).val = _
  rw [semk7]; unfold dmaPay; rw [dif_neg (by omega), dif_neg (by omega), dif_neg (by omega), dif_neg (by omega), dif_pos (by omega)]
  congr 1; exact Fin.ext (by simp)

/-- The whole round of the barrier cell: the column mate's receive buffer and the row mate's. -/
theorem rest_bar : bigSep ((Rd (F := F) m ρ).duties (barC c) 0 \ ∅) (fun d => (Rd (F := F) m ρ).payload (barC c) 0 d)
    = iprop(wholePts bM (yn c) ∗ wholePts qM (xn c)) := by
  rw [Finset.sdiff_empty, duties_bar, bigSep_univ_eq_bigSepL [false, true] (by decide) (by decide), bigSepL_cons_cons, bigSepL_singleton,
    payload_bar_false, payload_bar_true]
  rfl
theorem rest_s1 : bigSep ((Rd (F := F) m ρ).duties (s1C c k) 0 \ ∅) (fun d => (Rd (F := F) m ρ).payload (s1C c k) 0 d) = s1Pay m ρ c k := by
  rw [Finset.sdiff_empty, duties_s1, bigSep_singleton, payload_s1]
theorem rest_r1 : bigSep ((Rd (F := F) m ρ).duties (r1C c k) 0 \ ∅) (fun d => (Rd (F := F) m ρ).payload (r1C c k) 0 d) = r1Pay m ρ c k := by
  rw [Finset.sdiff_empty, duties_r1, bigSep_singleton, payload_r1]
theorem rest_s2 : bigSep ((Rd (F := F) m ρ).duties (s2C c k) 0 \ ∅) (fun d => (Rd (F := F) m ρ).payload (s2C c k) 0 d) = s2Pay m ρ c k := by
  rw [Finset.sdiff_empty, duties_s2, bigSep_singleton, payload_s2]
theorem rest_r2 : bigSep ((Rd (F := F) m ρ).duties (r2C c k) 0 \ ∅) (fun d => (Rd (F := F) m ρ).payload (r2C c k) 0 d) = r2Pay m ρ c k := by
  rw [Finset.sdiff_empty, duties_r2, bigSep_singleton, payload_r2]

end Sched

/-! ## What each device owes at launch; the levels

A device owes each chunk's credit to its column mate's column-receive cells and to its row mate's
row-receive cells, and a unit to each mate's barrier cell.  The sums are nested so that what is paid
first is the last summand. -/

def T1 (c : Dev nD) (k : Fin 8) : CellTallies nD τ sig Unit := tallyAt (r1C (yn c) k) () NN
def T2 (c : Dev nD) (k : Fin 8) : CellTallies nD τ sig Unit := tallyAt (r2C (xn c) k) () NN

/-- The row debt with the last `n` chunks unpaid. -/
def own2 (c : Dev nD) : ℕ → CellTallies nD τ sig Unit
  | 0 => 0
  | n + 1 => own2 c n + T2 c ⟨7 - n, by omega⟩
/-- The row debt whole, and the column debt with the last `n` chunks unpaid. -/
def own1 (c : Dev nD) : ℕ → CellTallies nD τ sig Unit
  | 0 => own2 c 8
  | n + 1 => own1 c n + T1 c ⟨7 - n, by omega⟩
def O₁ (c : Dev nD) : CellTallies nD τ sig Unit := own1 c 8 + tallyAt (barC (xn c)) () 1
def O₀ (c : Dev nD) : CellTallies nD τ sig Unit := O₁ c + tallyAt (barC (yn c)) () 1

def L (g : GSem nD τ sig) : Finset Unit := if g.1.2 = .tc then {()} else ∅
/-- Staging and send cells at 0, barrier cells at 1, column-receive cells at 2, row-receive cells at 3. -/
def lv (g : GSem nD τ sig) (_ : Unit) : ℕ := match g.2 with
  | .reg _ => 1
  | .dma s => if 10 ≤ s.val ∧ s.val < 18 then 2 else if 26 ≤ s.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := rfl
theorem lv_r1 (c : Dev nD) (k : Fin 8) : lv (r1C c k) () = 2 := by
  show (if 10 ≤ (semk cc0_scratch5 k).val ∧ (semk cc0_scratch5 k).val < 18 then 2 else _) = 2
  rw [semk5, if_pos (by omega)]
theorem lv_r2 (c : Dev nD) (k : Fin 8) : lv (r2C c k) () = 3 := by
  show (if 10 ≤ (semk cc0_scratch7 k).val ∧ (semk cc0_scratch7 k).val < 18 then 2 else if 26 ≤ (semk cc0_scratch7 k).val then 3 else 0) = 3
  rw [semk7, if_neg (by omega), if_pos (by omega)]

theorem tallyAt_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem add_pos_cases' {A B : CellTallies nD τ sig Unit} {g : GSem nD τ sig} {u : Unit} (h : 0 < (A + B) g u) : 0 < A g u ∨ 0 < B g u := by
  rw [Pi.add_apply, Finsupp.add_apply] at h; omega

theorem own2_pos (c : Dev nD) (n : ℕ) {g : GSem nD τ sig} {u : Unit} (h : 0 < own2 c n g u) : ∃ k, g = r2C (xn c) k := by
  induction n with
  | zero => exact absurd h (by simp [own2])
  | succ n ih =>
    rcases add_pos_cases' (show 0 < (own2 c n + T2 c ⟨7 - n, by omega⟩) g u from h) with h | h
    · exact ih h
    · exact ⟨_, tallyAt_pos h⟩

theorem own1_pos (c : Dev nD) (n : ℕ) {g : GSem nD τ sig} {u : Unit} (h : 0 < own1 c n g u) :
    (∃ k, g = r1C (yn c) k) ∨ ∃ k, g = r2C (xn c) k := by
  induction n with
  | zero => exact .inr (own2_pos c 8 h)
  | succ n ih =>
    rcases add_pos_cases' (show 0 < (own1 c n + T1 c ⟨7 - n, by omega⟩) g u from h) with h | h
    · exact ih h
    · exact .inl ⟨_, tallyAt_pos h⟩

theorem O₀_pos {c : Dev nD} {g : GSem nD τ sig} {u : Unit} (h : 0 < O₀ c g u) :
    g = barC (yn c) ∨ g = barC (xn c) ∨ (∃ k, g = r1C (yn c) k) ∨ ∃ k, g = r2C (xn c) k := by
  rcases add_pos_cases' (show 0 < (O₁ c + tallyAt (barC (yn c)) () 1) g u from h) with h | h
  · rcases add_pos_cases' (show 0 < (own1 c 8 + tallyAt (barC (xn c)) () 1) g u from h) with h | h
    · exact .inr (.inr (own1_pos c 8 h))
    · exact .inr (.inl (tallyAt_pos h))
  · exact .inl (tallyAt_pos h)

omit [FloatOps F] in
/-- A wait at a cell of level at most `b` is allowed while everything owed sits above `b`. -/
theorem mayWait_cut (c : Dev nD) (sm : SemLoc sig) (b : ℕ) (O : CellTallies nD τ sig Unit) (hsm : lv ((c : Thread nD τ), sm) () ≤ b)
    (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hsm)
    (fun g u hg => (hO g u hg).2)

omit [FloatOps F] in
/-- At its barrier wait a device owes receive credit only. -/
theorem mayWait_bar (c : Dev nD) : (levAts L lv : sProp 𝕄) ⊢ MayWait (c : Thread nD τ) (.reg barS) () (own1 c 8) :=
  mayWait_cut c _ 1 _ (le_of_eq (lv_bar c)) fun g u hg => by
    rcases own1_pos c 8 hg with ⟨k, rfl⟩ | ⟨k, rfl⟩
    · exact ⟨rfl, by rw [lv_r1]; decide⟩
    · exact ⟨rfl, by rw [lv_r2]; decide⟩

omit [FloatOps F] in
/-- At a column-receive wait it owes row-receive credit only. -/
theorem mayWait_r1 (c : Dev nD) (k : Fin 8) (n : ℕ) :
    (levAts L lv : sProp 𝕄) ⊢ MayWait (c : Thread nD τ) (.dma (semk cc0_scratch5 k)) () (own2 c n) :=
  mayWait_cut c _ 2 _ (le_of_eq (lv_r1 c k)) fun g u hg => by
    obtain ⟨k', rfl⟩ := own2_pos c n hg
    exact ⟨rfl, by rw [lv_r2]; decide⟩

omit [FloatOps F] in
/-- The staging cells sit below everything a device ever owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait_cut c _ 0 _ (le_of_eq (by show (if 10 ≤ q.val ∧ q.val < 18 then 2 else if 26 ≤ q.val then 3 else 0) = 0; rw [if_neg (by omega), if_neg (by omega)])) fun g u hg => ?_
    rcases O₀_pos hg with rfl | rfl | ⟨k, rfl⟩ | ⟨k, rfl⟩
    · exact ⟨rfl, by rw [lv_bar]; decide⟩
    · exact ⟨rfl, by rw [lv_bar]; decide⟩
    · exact ⟨rfl, by rw [lv_r1]; decide⟩
    · exact ⟨rfl, by rw [lv_r2]; decide⟩
  · rw [MayWait_zero]; iintro -; iempintro

/-! ## The cells, indexed; the ghost state a device starts from -/

/-- A device's 33 cells: its barrier cell, and chunk `k`'s cell of kind `a` (send down the column,
    receive from it, send along the row, receive from it). -/
abbrev CI : Type := Unit ⊕ (Fin 4 × Fin 8)

abbrev dsem (a : Fin 4) (k : Fin 8) : DmaSem sig := ⟨2 + 8 * a.val + k.val, by have := a.isLt; have := k.isLt; show _ < 34; omega⟩
abbrev csem : CI → SemLoc sig
  | .inl _ => .reg barS
  | .inr (a, k) => .dma (dsem a k)
abbrev kcell (ck : Dev nD × CI) : GSem nD τ sig := ((ck.1 : Thread nD τ), csem ck.2)

theorem dsem_s1 (k : Fin 8) : dsem 0 k = semk cc0_scratch4 k := Fin.ext (by rw [semk4]; simp)
theorem dsem_r1 (k : Fin 8) : dsem 1 k = semk cc0_scratch5 k := Fin.ext (by rw [semk5]; simp)
theorem dsem_s2 (k : Fin 8) : dsem 2 k = semk cc0_scratch6 k := Fin.ext (by rw [semk6]; simp)
theorem dsem_r2 (k : Fin 8) : dsem 3 k = semk cc0_scratch7 k := Fin.ext (by rw [semk7]; simp)

theorem kcell_bar (c : Dev nD) : kcell (c, .inl ()) = barC c := rfl
theorem kcell_s1 (c : Dev nD) (k : Fin 8) : kcell (c, .inr (0, k)) = s1C c k := by show ((c : Thread nD τ), SemLoc.dma (dsem 0 k)) = _; rw [dsem_s1]
theorem kcell_r1 (c : Dev nD) (k : Fin 8) : kcell (c, .inr (1, k)) = r1C c k := by show ((c : Thread nD τ), SemLoc.dma (dsem 1 k)) = _; rw [dsem_r1]
theorem kcell_s2 (c : Dev nD) (k : Fin 8) : kcell (c, .inr (2, k)) = s2C c k := by show ((c : Thread nD τ), SemLoc.dma (dsem 2 k)) = _; rw [dsem_s2]
theorem kcell_r2 (c : Dev nD) (k : Fin 8) : kcell (c, .inr (3, k)) = r2C c k := by show ((c : Thread nD τ), SemLoc.dma (dsem 3 k)) = _; rw [dsem_r2]

/-- Every cell's invariant, under the names `K` the launch allocated them at, and that round 0 of every
    cell is reached: persistent, known to every device. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)

instance records_persistent (K : Dev nD × CI → ℕ) : BI.Persistent (records m ρ K) := by unfold records; infer_instance

theorem inv_at' (K : Dev nD × CI → ℕ) (ck : Dev nD × CI) :
    (bigSep Finset.univ fun ck : Dev nD × CI => (cellInv ER (Rd m ρ) (K ck) (kcell ck) : sProp 𝕄)) ⊢ cellInv ER (Rd m ρ) (K ck) (kcell ck) :=
  bigSep_elim (Finset.mem_univ ck)
omit [FloatOps F] in
theorem reached_at' (ck : Dev nD × CI) :
    (bigSep Finset.univ fun ck : Dev nD × CI => (reached ER (kcell ck) 0 : sProp 𝕄)) ⊢ reached ER (kcell ck) 0 :=
  bigSep_elim (Finset.mem_univ ck)
theorem inv_at (K : Dev nD × CI → ℕ) (ck : Dev nD × CI) : records m ρ K ⊢ cellInv ER (Rd m ρ) (K ck) (kcell ck) := by
  unfold records; iintro ⟨H, -⟩
  iapply (inv_at' m ρ K ck); iexact H
theorem reached_at (K : Dev nD × CI → ℕ) (ck : Dev nD × CI) : records m ρ K ⊢ reached ER (kcell ck) 0 := by
  unfold records; iintro ⟨-, H⟩
  iapply (reached_at' (F := F) ck); iexact H

/-- What device `c` holds of chunk `k`'s protocol state at launch: its positions at round 0 of its four
    cells, and the tokens of the four duties it pays — its two send cells' and its mates' receive cells'. -/
def chunkLin (c : Dev nD) (k : Fin 8) : sProp 𝕄 :=
  iprop(atPos ER (s1C c k) 0 ∅ 0 ∗ atPos ER (r1C c k) 0 ∅ 0 ∗ atPos ER (s2C c k) 0 ∅ 0 ∗ atPos ER (r2C c k) 0 ∅ 0
    ∗ dutyTok ER (s1C c k) 0 false ∗ dutyTok ER (r1C (yn c) k) 0 false ∗ dutyTok ER (s2C c k) 0 false ∗ dutyTok ER (r2C (xn c) k) 0 false)

/-- The device's linear protocol state at launch: its barrier position, the tokens of the barrier duties it
    pays (`false` of its column mate's cell, `true` of its row mate's), and every chunk's. -/
def lin (c : Dev nD) : sProp 𝕄 :=
  iprop(atPos ER (barC c) 0 ∅ 0 ∗ dutyTok ER (barC (yn c)) 0 false ∗ dutyTok ER (barC (xn c)) 0 true
    ∗ bigSep Finset.univ fun k : Fin 8 => chunkLin c k)

def ghost (K : Dev nD × CI → ℕ) (c : Dev nD) : sProp 𝕄 := iprop(records m ρ K ∗ lin c)

/-- The credit dealt at launch for chunk `k`'s two receive cells. -/
def chunkCred (c : Dev nD) (k : Fin 8) : sProp 𝕄 := iprop(cred (tallyAt (r1C c k) () NN) ∗ cred (tallyAt (r2C c k) () NN))

/-- What device `c`'s body starts from, beside the buffers. -/
def start (c : Dev nD) : sProp 𝕄 :=
  iprop((∃ K, ghost m ρ K c) ∗ cred (tallyAt (barC c) () 2) ∗ (bigSep Finset.univ fun k : Fin 8 => chunkCred c k) ∗ levAts L lv)

/-- A scratch buffer whole, at some contents. -/
abbrev scr (c : Dev nD) (b : Ref sig .tc) : sProp 𝕄 :=
  iprop(∃ f : Buf (Elt F) ((c : Thread nD τ).loc b), ((c : Thread nD τ).loc b) ↦{fullShare} f)

def Φ₀ (c : Dev nD) : sProp 𝕄 :=
  iprop(start m ρ c ∗ scr c cc0_scratch0 ∗ scr c cc0_scratch1 ∗ scr c cc0_scratch2 ∗ scr c cc0_scratch3)
/-- After the point: the scratch buffers back whole, the 32 transfer cells closed at zero. -/
def Φ₁ (c : Dev nD) : sProp 𝕄 :=
  iprop((scr c cc0_scratch0 ∗ scr c cc0_scratch1 ∗ scr c cc0_scratch2 ∗ scr c cc0_scratch3)
    ∗ bigSep Finset.univ fun ak : Fin 4 × Fin 8 => semVal (kcell (c, .inr ak)) 0)

/-- The result's staging buffer after the body: the sixteen chunk stores over anything. -/
def outAt (c : Dev nD) : (cc0_stg1_0 : Ref sig .tc).ty.Contents (Elt F) :=
  oM.view.writes (Elt F) (m ((c : Thread nD τ).loc cc0_stg1_0)) (outPieces m ρ c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves: the invariant after the point, nothing owed, the argument block as staged and the
    result's staging buffer at the sixteen stores. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdealProof

end
-- ==== Proof.Body.lean ====
import proofs.«900138_g7700000000000139_dist_ar_v7x_xy2x2_y_m1024_n512_bf16_1_alg».proof.Proof.Proto

/-! The body of one device, stepped from the protocol's invariant: the four phases of a chunk as four lemmas at
a symbolic chunk, the entry handshake, and the obligation the launch asks. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## Geometry of a chunk -/

omit [FloatOps F] in
theorem set_sl (M : Memref sig .tc .vmem S8x64x512 .bf16) (k : Fin 8) : (sl M k).view.set = (M.access (rk k)).set :=
  View.set_reshape _ _

/-! ## The records read at a cell -/

theorem inv_bar (K : Dev nD × CI → ℕ) (c : Dev nD) : records m ρ K ⊢ cellInv ER (Rd m ρ) (K (c, .inl ())) (barC c) := inv_at m ρ K (c, .inl ())
theorem inv_s1 (K : Dev nD × CI → ℕ) (c : Dev nD) (k : Fin 8) : records m ρ K ⊢ cellInv ER (Rd m ρ) (K (c, .inr (0, k))) (s1C c k) := by
  rw [← kcell_s1]; exact inv_at m ρ K _
theorem inv_r1 (K : Dev nD × CI → ℕ) (c : Dev nD) (k : Fin 8) : records m ρ K ⊢ cellInv ER (Rd m ρ) (K (c, .inr (1, k))) (r1C c k) := by
  rw [← kcell_r1]; exact inv_at m ρ K _
theorem inv_s2 (K : Dev nD × CI → ℕ) (c : Dev nD) (k : Fin 8) : records m ρ K ⊢ cellInv ER (Rd m ρ) (K (c, .inr (2, k))) (s2C c k) := by
  rw [← kcell_s2]; exact inv_at m ρ K _
theorem inv_r2 (K : Dev nD × CI → ℕ) (c : Dev nD) (k : Fin 8) : records m ρ K ⊢ cellInv ER (Rd m ρ) (K (c, .inr (3, k))) (r2C c k) := by
  rw [← kcell_r2]; exact inv_at m ρ K _
theorem rch_bar (K : Dev nD × CI → ℕ) (c : Dev nD) : records m ρ K ⊢ reached ER (barC c) 0 := reached_at m ρ K (c, .inl ())
theorem rch_s1 (K : Dev nD × CI → ℕ) (c : Dev nD) (k : Fin 8) : records m ρ K ⊢ reached ER (s1C c k) 0 := by
  rw [← kcell_s1]; exact reached_at m ρ K _
theorem rch_r1 (K : Dev nD × CI → ℕ) (c : Dev nD) (k : Fin 8) : records m ρ K ⊢ reached ER (r1C c k) 0 := by
  rw [← kcell_r1]; exact reached_at m ρ K _
theorem rch_s2 (K : Dev nD × CI → ℕ) (c : Dev nD) (k : Fin 8) : records m ρ K ⊢ reached ER (s2C c k) 0 := by
  rw [← kcell_s2]; exact reached_at m ρ K _
theorem rch_r2 (K : Dev nD × CI → ℕ) (c : Dev nD) (k : Fin 8) : records m ρ K ⊢ reached ER (r2C c k) 0 := by
  rw [← kcell_r2]; exact reached_at m ρ K _

/-! ## A chunk's state between the four phases -/

/-- The argument block as staged. -/
def xP (c : Dev nD) : sProp 𝕄 := (((c : Thread nD τ).loc cc0_stg0_0) ↦{fullShare} xstg m ρ c)

/-- Chunk `k` after the entry handshake: its protocol state and credit, its two send chunks and its mates'
    two receive chunks, all at some contents. -/
def St0 (c : Dev nD) (k : Fin 8) : sProp 𝕄 :=
  iprop(chunkLin c k ∗ chunkCred c k
    ∗ (∃ f, chunkPts aM c k fullShare f) ∗ (∃ f, chunkPts pM c k fullShare f)
    ∗ (∃ f, chunkPts bM (yn c) k fullShare f) ∗ (∃ f, chunkPts qM (xn c) k fullShare f))

/-- After the column send of chunk `k`: the right half of the chunk sent stays, the send cell's credit is held. -/
def St1 (c : Dev nD) (k : Fin 8) : sProp 𝕄 :=
  iprop((atPos ER (s1C c k) 0 ∅ 0 ∗ atPos ER (r1C c k) 0 ∅ 0 ∗ atPos ER (s2C c k) 0 ∅ 0 ∗ atPos ER (r2C c k) 0 ∅ 0
      ∗ dutyTok ER (s2C c k) 0 false ∗ dutyTok ER (r2C (xn c) k) 0 false)
    ∗ chunkCred c k ∗ cred (tallyAt (s1C c k) () NN)
    ∗ chunkPts aM c k fullShare.right (A1 m ρ c k) ∗ (∃ f, chunkPts pM c k fullShare f) ∗ (∃ f, chunkPts qM (xn c) k fullShare f))

/-- After the column sum and the row send of chunk `k`. -/
def St2 (c : Dev nD) (k : Fin 8) : sProp 𝕄 :=
  iprop((atPos ER (s1C c k) 0 ∅ 0 ∗ atPos ER (r1C c k) 1 ∅ 0 ∗ atPos ER (s2C c k) 0 ∅ 0 ∗ atPos ER (r2C c k) 0 ∅ 0)
    ∗ cred (tallyAt (r2C c k) () NN) ∗ cred (tallyAt (s1C c k) () NN) ∗ cred (tallyAt (s2C c k) () NN)
    ∗ chunkPts aM c k fullShare.right (A1 m ρ c k) ∗ chunkPts bM c k fullShare (B1 m ρ c k) ∗ chunkPts pM c k fullShare.right (P1 m ρ c k))

/-- After the row mate's chunk `k` has landed and been stored. -/
def St3 (c : Dev nD) (k : Fin 8) : sProp 𝕄 :=
  iprop((atPos ER (s1C c k) 0 ∅ 0 ∗ atPos ER (r1C c k) 1 ∅ 0 ∗ atPos ER (s2C c k) 0 ∅ 0 ∗ atPos ER (r2C c k) 1 ∅ 0)
    ∗ cred (tallyAt (s1C c k) () NN) ∗ cred (tallyAt (s2C c k) () NN)
    ∗ chunkPts aM c k fullShare.right (A1 m ρ c k) ∗ chunkPts bM c k fullShare (B1 m ρ c k) ∗ chunkPts pM c k fullShare.right (P1 m ρ c k)
    ∗ chunkPts qM c k fullShare (Q1 m ρ c k))

/-- After both send waits of chunk `k`: every cell past its round, every chunk whole again. -/
def St4 (c : Dev nD) (k : Fin 8) : sProp 𝕄 :=
  iprop((atPos ER (s1C c k) 1 ∅ 0 ∗ atPos ER (r1C c k) 1 ∅ 0 ∗ atPos ER (s2C c k) 1 ∅ 0 ∗ atPos ER (r2C c k) 1 ∅ 0)
    ∗ chunkPts aM c k fullShare (A1 m ρ c k) ∗ chunkPts bM c k fullShare (B1 m ρ c k) ∗ chunkPts pM c k fullShare (P1 m ρ c k)
    ∗ chunkPts qM c k fullShare (Q1 m ρ c k))

/-! ## The schedule's tables, as the executor reads them -/

theorem expect_s1 (c : Dev nD) (k : Fin 8) : (Rd (F := F) m ρ).expect (s1C c k) 0 = NN := expect_dma m ρ c _ (by rw [semk4]; omega)
theorem expect_r1 (c : Dev nD) (k : Fin 8) : (Rd (F := F) m ρ).expect (r1C c k) 0 = NN := expect_dma m ρ c _ (by rw [semk5]; omega)
theorem expect_s2 (c : Dev nD) (k : Fin 8) : (Rd (F := F) m ρ).expect (s2C c k) 0 = NN := expect_dma m ρ c _ (by rw [semk6]; omega)
theorem expect_r2 (c : Dev nD) (k : Fin 8) : (Rd (F := F) m ρ).expect (r2C c k) 0 = NN := expect_dma m ρ c _ (by rw [semk7]; omega)

theorem payload_s1' (c : Dev nD) (k : Fin 8) (d : Bool) : (Rd (F := F) m ρ).payload (s1C c k) 0 d
    = ((sl aM k).view.loc (c : Thread nD τ) ↦[(sl aM k).view.set]{fullShare.left} A1 m ρ c k : sProp 𝕄) := payload_s1 m ρ c k d
theorem payload_r1' (c : Dev nD) (k : Fin 8) (d : Bool) : (Rd (F := F) m ρ).payload (r1C c k) 0 d
    = ((sl bM k).view.loc (c : Thread nD τ) ↦[(sl bM k).view.set]{fullShare} B1 m ρ c k : sProp 𝕄) := payload_r1 m ρ c k d
theorem payload_s2' (c : Dev nD) (k : Fin 8) (d : Bool) : (Rd (F := F) m ρ).payload (s2C c k) 0 d
    = ((sl pM k).view.loc (c : Thread nD τ) ↦[(sl pM k).view.set]{fullShare.left} P1 m ρ c k : sProp 𝕄) := payload_s2 m ρ c k d
theorem payload_r2' (c : Dev nD) (k : Fin 8) (d : Bool) : (Rd (F := F) m ρ).payload (r2C c k) 0 d
    = ((sl qM k).view.loc (c : Thread nD τ) ↦[(sl qM k).view.set]{fullShare} Q1 m ρ c k : sProp 𝕄) := payload_r2 m ρ c k d

attribute [local sl_rounds] expect_s1 expect_r1 expect_s2 expect_r2 payload_s1' payload_r1' payload_s2' payload_r2'
  duties_s1 duties_r1 duties_s2 duties_r2 credit_a credit_b credit_p credit_q amount_dma

omit [FloatOps F] in
/-- A landing over any prior contents is, on the chunk's own elements, the landing over the contents at launch. -/
theorem landing_raw (M : Memref sig .tc .vmem S8x64x512 .bf16) (c : Dev nD) (k : Fin 8) (q : PosShare TreeShare)
    (f f' : Buf (Elt F) ((sl M k).view.loc (c : Thread nD τ))) (w : S64x512.Idx → Elt F .bf16) :
    ((sl M k).view.loc (c : Thread nD τ) ↦[(sl M k).view.set]{q} (sl M k).view.write (Elt F) f w Finset.univ : sProp 𝕄)
      = ((sl M k).view.loc (c : Thread nD τ) ↦[(sl M k).view.set]{q} (sl M k).view.write (Elt F) f' w Finset.univ) :=
  pointsTo_congr (write_univ_congr (sl M k).view f f' w)

omit [FloatOps F] in
/-- A chunk store over any prior contents is, on the chunk's own elements, the store over the contents at launch. -/
theorem store_raw (M : Memref sig .tc .vmem S8x64x512 .bf16) (c : Dev nD) (k : Fin 8) (q : PosShare TreeShare)
    (f f' : Buf (Elt F) (M.view.loc (c : Thread nD τ))) (w : S1x64x512.Idx → Elt F .bf16) :
    ((sl M k).view.loc (c : Thread nD τ) ↦[(sl M k).view.set]{q} (M.access (rk k)).write (Elt F) f w Finset.univ : sProp 𝕄)
      = ((sl M k).view.loc (c : Thread nD τ) ↦[(sl M k).view.set]{q} (M.access (rk k)).write (Elt F) f' w Finset.univ) :=
  pointsTo_congr fun i hi => write_univ_congr (M.access (rk k)) f f' w i (by rw [← set_sl]; exact hi)

/-- A chunk store read back is what was stored. -/
theorem readA1 (c : Dev nD) (k : Fin 8) : aM.view.readAt (Elt F) (rk k).toLoadRect (A1 m ρ c k) = a1 m ρ c k := by
  unfold A1; exact View.read_write_univ (v := aM.access (rk k)) _ _
theorem readP1 (c : Dev nD) (k : Fin 8) : pM.view.readAt (Elt F) (rk k).toLoadRect (P1 m ρ c k) = a2 m ρ c k := by
  unfold P1; exact View.read_write_univ (v := pM.access (rk k)) _ _

/-! ## Phase 1, chunk `k`: round the chunk, store it, send it down the column -/

theorem seg1 (K : Dev nD × CI → ℕ) (c : Dev nD) (k : Fin 8) (d : Dev nD) (hd : d = yn c) (O : CellTallies nD τ sig Unit) (W : Waits sig Unit)
    {α : Type} {Q : α → sProp 𝕄} {kont : PUnit → Prog (TpuEff nD τ sig (Elt F) Λ₀ .tc) α}
    {hl1 : xM.view.LoadsAt (rx1 c k).toLoadRect} {hl2 : aM.view.LoadsAt (rk k).toLoadRect}
    {hx : (aM.access (rk k)).Stores Finset.univ} {hm : Finset.univ = Finset.univ ∨ ∀ a, (rk k).stride a = 1}
    {hsc : (sl bM k : Memref sig (Dev.tc d : Thread nD τ).2.kind .vmem S64x512 .bf16).view.ref.isScScratch = false}
    {hsrc : (sl aM k).view.WordExact} {hdst : (sl bM k).view.WordExact}
    {hsem : DmaTarget.Typed .vmem (.dma (semk cc0_scratch5 k)) (.remote (Dev.tc d : Thread nD τ) (sl bM k) (.dma (semk cc0_scratch4 k)) hsc)} :
    iprop(records m ρ K ∗ xP m ρ c ∗ St0 c k ∗ owes (c : Thread nD τ) (O + T1 c k) W)
      ⊢ iprop(((xP m ρ c ∗ St1 m ρ c k ∗ owes (c : Thread nD τ) O W) -∗ wp frame (wpE (defs₀ (F := F)) 𝒱₀ c none) Set.univ (kont ⟨⟩) Q)
         -∗ wp frame (wpE (defs₀ (F := F)) 𝒱₀ c none) Set.univ
            (.op (.load xM (rx1 c k).toLoadRect hl1) fun v =>
             .op (.load aM (rk k).toLoadRect hl2) fun _ =>
             .op (.store aM (rk k) (k0_pay1 v) Finset.univ hx hm) fun _ =>
             .op (.enqueueDma (sl aM k) (.remote (Dev.tc d : Thread nD τ) (sl bM k) (.dma (semk cc0_scratch4 k)) hsc) (.dma (semk cc0_scratch5 k)) hsrc hdst hsem) kont) Q) := by
  subst hd
  unfold St0 St1 chunkLin chunkCred xP chunkPts
  iintro ⟨#HR, Hx, ⟨⟨Ha1, Har1, Ha2, Har2, Tt1, Ttr1, Tt2, Ttr2⟩, ⟨Hc1, Hc2⟩, ⟨%fa, Ha⟩, Hp, ⟨%fb, Hb⟩, Hq⟩, HO⟩ Hk
  ihave Hx := (Entails.of_eq (show (((c : Thread nD τ).loc cc0_stg0_0) ↦{fullShare} xstg m ρ c : sProp 𝕄)
    = (View.loc (c : Thread nD τ) xM.view ↦{fullShare} xstg m ρ c) from rfl)) $$ Hx
  -- the two loads and the store
  sl_exec
  sl_unfold_words
  -- on the chunk's own elements the store left the chunk's canonical contents; half of it is lent to the transfer
  ihave Ha := (Entails.of_eq ((store_raw aM c k fullShare fa (m ((c : Thread nD τ).loc cc0_scratch0))
      (k0_pay1 (xM.view.readAt (Elt F) (rx1 c k).toLoadRect (xstg m ρ c)))).trans
    (show _ = ((sl aM k).view.loc (c : Thread nD τ) ↦[(sl aM k).view.set]{fullShare} A1 m ρ c k : sProp 𝕄) from rfl))) $$ Ha
  ihave Hh := (pointsTo_share (PosShare.mem_left_op_right fullShare)).1 $$ Ha
  icases Hh with ⟨HaL, HaR⟩
  iapply (Rounds.wp_send_pointsTo 𝒱₀ ER (Rd m ρ) (c : Thread nD τ) none (c' := (Dev.tc (yn c) : Thread nD τ)) (src := sl aM k) (dst := sl bM k) (sS := .dma (semk cc0_scratch4 k)) (sem := .dma (semk cc0_scratch5 k))
      (q := fullShare.left) (fs := A1 m ρ c k) (fd := fb)
      (κ₁ := K (c, .inr (0, k))) (κ₂ := K (yn c, .inr (1, k))) (r₁ := 0) (r₂ := 0) (d₁ := false) (d₂ := false)
      (by rw [duties_s1]; exact Finset.mem_singleton_self _) (by rw [duties_r1]; exact Finset.mem_singleton_self _)
      () () NN (credit_b k) (amount_dma m ρ c _ false) (amount_dma m ρ (yn c) _ false) O rfl (W := W)
      (by rw [payload_s1'])
      (by rw [payload_r1']; unfold B1; rw [yn_yn, landing_raw bM (yn c) k fullShare fb (m (((yn c : Dev nD) : Thread nD τ).loc cc0_scratch1))]))
    $$ [HaL Hb HO Tt1 Ttr1]
  · isplitr; · iapply (inv_s1 m ρ K c k); iexact HR
    isplitr; · iapply (inv_r1 m ρ K (yn c) k); iexact HR
    isplitl [HaL]; · iexact HaL
    isplitl [Hb]; · iexact Hb
    isplitl [HO]; · iexact HO
    isplitl [Tt1]; · iexact Tt1
    isplitr; · iapply (rch_s1 m ρ K c k); iexact HR
    isplitl [Ttr1]; · iexact Ttr1
    iapply (rch_r1 m ρ K (yn c) k); iexact HR
  iintro ⟨Hcs, HO⟩
  iapply Hk
  isplitl [Hx]; · iexact Hx
  isplitr [HO]
  · isplitl [Ha1 Har1 Ha2 Har2 Tt2 Ttr2]; · iframe
    isplitl [Hc1 Hc2]; · iframe
    iframe
  · iexact HO

/-! ## Phase 2, chunk `k`: the column mate's chunk has landed; sum, send along the row, store the sum -/

/-- The result's staging buffer at a list of chunk stores over what it held. -/
def oP (c : Dev nD) (g : Buf (Elt F) (oM.view.loc (c : Thread nD τ))) (Lw : List (View.Piece (Elt F) S1024x512 .bf16)) : sProp 𝕄 :=
  (oM.view.loc (c : Thread nD τ) ↦{fullShare} oM.view.writes (Elt F) g Lw)

theorem seg2 (K : Dev nD × CI → ℕ) (c : Dev nD) (k : Fin 8) (d : Dev nD) (hd : d = xn c) (O : CellTallies nD τ sig Unit) (W : Waits sig Unit)
    (g : Buf (Elt F) (oM.view.loc (c : Thread nD τ))) (Lw : List (View.Piece (Elt F) S1024x512 .bf16))
    (hMW : (levAts L lv : sProp 𝕄) ⊢ MayWait (c : Thread nD τ) (.dma (semk cc0_scratch5 k)) () (O + T2 c k))
    {α : Type} {Q : α → sProp 𝕄} {kont : PUnit → Prog (TpuEff nD τ sig (Elt F) Λ₀ .tc) α}
    {hws : (sl aM k).view.WordExact} {hwd : (sl bM k).view.WordExact}
    {hl1 : aM.view.LoadsAt (rk k).toLoadRect} {hl2 : bM.view.LoadsAt (rk k).toLoadRect} {hl3 : pM.view.LoadsAt (rk k).toLoadRect}
    {hx : (pM.access (rk k)).Stores Finset.univ} {hm : Finset.univ = Finset.univ ∨ ∀ a, (rk k).stride a = 1}
    {hsc : (sl qM k : Memref sig (Dev.tc d : Thread nD τ).2.kind .vmem S64x512 .bf16).view.ref.isScScratch = false}
    {hsrc : (sl pM k).view.WordExact} {hdst : (sl qM k).view.WordExact}
    {hsem : DmaTarget.Typed .vmem (.dma (semk cc0_scratch7 k)) (.remote (Dev.tc d : Thread nD τ) (sl qM k) (.dma (semk cc0_scratch6 k)) hsc)}
    {hl4 : pM.view.LoadsAt (rk k).toLoadRect} {hl5 : oM.view.LoadsAt (rx1 c k).toLoadRect}
    {hxo : (oM.access (rx1 c k)).Stores Finset.univ} {hmo : Finset.univ = Finset.univ ∨ ∀ a, (rx1 c k).stride a = 1} :
    iprop(records m ρ K ∗ levAts L lv ∗ oP c g Lw ∗ St1 m ρ c k ∗ owes (c : Thread nD τ) (O + T2 c k) W)
      ⊢ iprop(((oP c g (⟨rx1 c k, o1 m ρ c k⟩ :: Lw) ∗ St2 m ρ c k ∗ owes (c : Thread nD τ) O (insert (SemLoc.dma (semk cc0_scratch5 k), ()) W))
            -∗ wp frame (wpE (defs₀ (F := F)) 𝒱₀ c none) Set.univ (kont ⟨⟩) Q)
         -∗ wp frame (wpE (defs₀ (F := F)) 𝒱₀ c none) Set.univ
            (.op (.waitDma2 (semk cc0_scratch5 k) (sl aM k) (sl bM k) hws hwd) fun _ =>
             .op (.load aM (rk k).toLoadRect hl1) fun va =>
             .op (.load bM (rk k).toLoadRect hl2) fun vb =>
             .op (.load pM (rk k).toLoadRect hl3) fun _ =>
             .op (.store pM (rk k) (k0_pay10 va vb) Finset.univ hx hm) fun _ =>
             .op (.enqueueDma (sl pM k) (.remote (Dev.tc d : Thread nD τ) (sl qM k) (.dma (semk cc0_scratch6 k)) hsc) (.dma (semk cc0_scratch7 k)) hsrc hdst hsem) fun _ =>
             .op (.load pM (rk k).toLoadRect hl4) fun vp =>
             .op (.load oM (rx1 c k).toLoadRect hl5) fun _ =>
             .op (.store oM (rx1 c k) (k0_pay11 vp) Finset.univ hxo hmo) kont) Q) := by
  subst hd
  unfold St1 St2 chunkCred oP chunkPts
  iintro ⟨#HR, #Hlev, Ho, ⟨⟨Ha1, Har1, Ha2, Har2, Tt2, Ttr2⟩, ⟨Hc1, Hc2⟩, Hcs1, HaR, ⟨%fp, Hp⟩, ⟨%fq, Hq⟩⟩, HO⟩ Hk
  ihave HI := (inv_r1 m ρ K c k) $$ HR
  ihave HM := hMW $$ Hlev
  -- the wait for the column mate's chunk, the two chunks read back, their sum stored
  sl_exec
  sl_unfold_words
  -- on the chunk's own elements the store left the chunk's canonical contents; half of it is lent to the transfer
  ihave Hp := (Entails.of_eq ((store_raw pM c k fullShare fp (m ((c : Thread nD τ).loc cc0_scratch2))
      (k0_pay10 (a1 m ρ c k) (bM.view.readAt (Elt F) (rk k).toLoadRect (B1 m ρ c k)))).trans
    (show _ = ((sl pM k).view.loc (c : Thread nD τ) ↦[(sl pM k).view.set]{fullShare} P1 m ρ c k : sProp 𝕄) from by
      rw [← readA1 m ρ c k]; rfl))) $$ Hp
  ihave Hh := (pointsTo_share (PosShare.mem_left_op_right fullShare)).1 $$ Hp
  icases Hh with ⟨HpL, HpR⟩
  iapply (Rounds.wp_send_pointsTo 𝒱₀ ER (Rd m ρ) (c : Thread nD τ) none (c' := (Dev.tc (xn c) : Thread nD τ)) (src := sl pM k) (dst := sl qM k) (sS := .dma (semk cc0_scratch6 k)) (sem := .dma (semk cc0_scratch7 k))
      (q := fullShare.left) (fs := P1 m ρ c k) (fd := fq)
      (κ₁ := K (c, .inr (2, k))) (κ₂ := K (xn c, .inr (3, k))) (r₁ := 0) (r₂ := 0) (d₁ := false) (d₂ := false)
      (by rw [duties_s2]; exact Finset.mem_singleton_self _) (by rw [duties_r2]; exact Finset.mem_singleton_self _)
      () () NN (credit_q k) (amount_dma m ρ c _ false) (amount_dma m ρ (xn c) _ false) O rfl
      (W := insert (SemLoc.dma (semk cc0_scratch5 k), ()) W)
      (by rw [payload_s2'])
      (by rw [payload_r2']; unfold Q1; rw [xn_xn, landing_raw qM (xn c) k fullShare fq (m (((xn c : Dev nD) : Thread nD τ).loc cc0_scratch3))]))
    $$ [HpL Hq HO Tt2 Ttr2]
  · isplitr; · iapply (inv_s2 m ρ K c k); iexact HR
    isplitr; · iapply (inv_r2 m ρ K (xn c) k); iexact HR
    isplitl [HpL]; · iexact HpL
    isplitl [Hq]; · iexact Hq
    isplitl [HO]; · iexact HO
    isplitl [Tt2]; · iexact Tt2
    isplitr; · iapply (rch_s2 m ρ K c k); iexact HR
    isplitl [Ttr2]; · iexact Ttr2
    iapply (rch_r2 m ρ K (xn c) k); iexact HR
  iintro ⟨Hcs2, HO⟩
  -- the sum read back and stored into the result
  sl_exec
  sl_unfold_words
  ihave Ho := (Entails.of_eq (show (oM.view.loc (c : Thread nD τ) ↦{fullShare}
        (oM.access (rx1 c k)).write (Elt F) (oM.view.writes (Elt F) g Lw) (k0_pay11 (a2 m ρ c k)) Finset.univ : sProp 𝕄)
      = (oM.view.loc (c : Thread nD τ) ↦{fullShare} oM.view.writes (Elt F) g (⟨rx1 c k, o1 m ρ c k⟩ :: Lw)) from by
    unfold o1; rw [readP1]; rfl)) $$ Ho
  iapply Hk
  isplitl [Ho]; · iexact Ho
  isplitr [HO]
  · isplitl [Ha1 Har1 Ha2 Har2]; · iframe
    iframe
  · iexact HO

/-! ## Phase 3, chunk `k`: the row mate's column sum has landed; store it -/

theorem seg3 (K : Dev nD × CI → ℕ) (c : Dev nD) (k : Fin 8) (W : Waits sig Unit)
    (g : Buf (Elt F) (oM.view.loc (c : Thread nD τ))) (Lw : List (View.Piece (Elt F) S1024x512 .bf16))
    {α : Type} {Q : α → sProp 𝕄} {kont : PUnit → Prog (TpuEff nD τ sig (Elt F) Λ₀ .tc) α}
    {hws : (sl pM k).view.WordExact} {hwd : (sl qM k).view.WordExact}
    {hl1 : qM.view.LoadsAt (rk k).toLoadRect} {hl2 : oM.view.LoadsAt (rx2 c k).toLoadRect}
    {hxo : (oM.access (rx2 c k)).Stores Finset.univ} {hmo : Finset.univ = Finset.univ ∨ ∀ a, (rx2 c k).stride a = 1} :
    iprop(records m ρ K ∗ oP c g Lw ∗ St2 m ρ c k ∗ owes (c : Thread nD τ) 0 W)
      ⊢ iprop(((oP c g (⟨rx2 c k, o2 m ρ c k⟩ :: Lw) ∗ St3 m ρ c k ∗ owes (c : Thread nD τ) 0 (insert (SemLoc.dma (semk cc0_scratch7 k), ()) W))
            -∗ wp frame (wpE (defs₀ (F := F)) 𝒱₀ c none) Set.univ (kont ⟨⟩) Q)
         -∗ wp frame (wpE (defs₀ (F := F)) 𝒱₀ c none) Set.univ
            (.op (.waitDma2 (semk cc0_scratch7 k) (sl pM k) (sl qM k) hws hwd) fun _ =>
             .op (.load qM (rk k).toLoadRect hl1) fun vq =>
             .op (.load oM (rx2 c k).toLoadRect hl2) fun _ =>
             .op (.store oM (rx2 c k) (k0_pay11 vq) Finset.univ hxo hmo) kont) Q) := by
  unfold St2 St3 oP chunkPts
  iintro ⟨#HR, Ho, ⟨⟨Ha1, Har1, Ha2, Har2⟩, Hc2, Hcs1, Hcs2, HaR, Hb, HpR⟩, HO⟩ Hk
  ihave HI := (inv_r2 m ρ K c k) $$ HR
  -- the wait for the row mate's chunk, its load, and the store into the result
  sl_exec
  sl_unfold_words
  iapply Hk
  isplitl [Ho]; · iexact Ho
  isplitr [HO]
  · isplitl [Ha1 Har1 Ha2 Har2]; · iframe
    iframe
  · iexact HO

/-! ## Phase 4, chunk `k`: both sends have read their sources; the chunks are whole again -/

theorem seg4 (K : Dev nD × CI → ℕ) (c : Dev nD) (k : Fin 8) (W : Waits sig Unit)
    {α : Type} {Q : α → sProp 𝕄} {kont : PUnit → Prog (TpuEff nD τ sig (Elt F) Λ₀ .tc) α}
    {hws1 : (sl bM k).view.WordExact} {hwd1 : (sl aM k).view.WordExact}
    {hws2 : (sl qM k).view.WordExact} {hwd2 : (sl pM k).view.WordExact} :
    iprop(records m ρ K ∗ St3 m ρ c k ∗ owes (c : Thread nD τ) 0 W)
      ⊢ iprop(((St4 m ρ c k ∗ owes (c : Thread nD τ) 0 (insert (SemLoc.dma (semk cc0_scratch6 k), ()) (insert (SemLoc.dma (semk cc0_scratch4 k), ()) W)))
            -∗ wp frame (wpE (defs₀ (F := F)) 𝒱₀ c none) Set.univ (kont ⟨⟩) Q)
         -∗ wp frame (wpE (defs₀ (F := F)) 𝒱₀ c none) Set.univ
            (.op (.waitDma2 (semk cc0_scratch4 k) (sl bM k) (sl aM k) hws1 hwd1) fun _ =>
             .op (.waitDma2 (semk cc0_scratch6 k) (sl qM k) (sl pM k) hws2 hwd2) kont) Q) := by
  unfold St3 St4 chunkPts
  iintro ⟨#HR, ⟨⟨Ha1, Har1, Ha2, Har2⟩, Hcs1, Hcs2, HaR, Hb, HpR, Hq⟩, HO⟩ Hk
  ihave HI1 := (inv_s1 m ρ K c k) $$ HR
  ihave HI2 := (inv_s2 m ρ K c k) $$ HR
  -- the two send waits: each returns the half of its source the transfer read
  sl_exec
  sl_unfold_words
  ihave Ha := (pointsTo_share (PosShare.mem_left_op_right fullShare)).2 $$ [Ha1_pay1 HaR]
  · isplitl [Ha1_pay1] <;> iassumption
  ihave Hp := (pointsTo_share (PosShare.mem_left_op_right fullShare)).2 $$ [Ha2_pay1 HpR]
  · isplitl [Ha2_pay1] <;> iassumption
  iapply Hk
  isplitr [HO]
  · isplitl [Ha1 Har1 Ha2 Har2]; · iframe
    iframe
  · iexact HO

/-! ## A chunked buffer is its eight chunks -/

omit [FloatOps F] in
theorem mem_rk (k : Fin 8) (i : S8x64x512.Idx) : i ∈ (rk k).set ↔ (i 0).val = k.val := by
  rw [Rect.mem_set_unit]
  have h1 : ((i 1 : Fin (S8x64x512.size 1)) : ℕ) < 64 := (i 1).isLt
  have h2 : ((i 2 : Fin (S8x64x512.size 2)) : ℕ) < 512 := (i 2).isLt
  constructor
  · intro h
    have h0 := h 0
    simp only [Matrix.cons_val_zero] at h0
    have : S1x64x512.size 0 = 1 := rfl
    omega
  · intro h a
    fin_cases a
    · show k.val ≤ (i 0).val ∧ (i 0).val < k.val + 1; omega
    · show 0 ≤ (i 1).val ∧ (i 1).val < 0 + 64; omega
    · show 0 ≤ (i 2).val ∧ (i 2).val < 0 + 512; omega

omit [FloatOps F] in
theorem rk_disjoint (k k' : Fin 8) (h : k ≠ k') : Disjoint (rk k).set (rk k').set :=
  Finset.disjoint_left.mpr fun i hi hi' => h (Fin.ext (((mem_rk k i).mp hi).symm.trans ((mem_rk k' i).mp hi')))

omit [FloatOps F] in
theorem rk_cover : Finset.univ.biUnion (fun k : Fin 8 => (rk k).set) = Finset.univ :=
  Finset.eq_univ_of_forall fun i => Finset.mem_biUnion.mpr ⟨⟨(i 0).val, (i 0).isLt⟩, Finset.mem_univ _, (mem_rk _ i).mpr rfl⟩

omit [FloatOps F] in
theorem set_a (k : Fin 8) : (sl aM k).view.set = (rk k).set := by rw [set_sl]; exact View.set_slice_whole cc0_scratch0 (rk k)
omit [FloatOps F] in
theorem set_b (k : Fin 8) : (sl bM k).view.set = (rk k).set := by rw [set_sl]; exact View.set_slice_whole cc0_scratch1 (rk k)
omit [FloatOps F] in
theorem set_p (k : Fin 8) : (sl pM k).view.set = (rk k).set := by rw [set_sl]; exact View.set_slice_whole cc0_scratch2 (rk k)
omit [FloatOps F] in
theorem set_q (k : Fin 8) : (sl qM k).view.set = (rk k).set := by rw [set_sl]; exact View.set_slice_whole cc0_scratch3 (rk k)

/-- Chunk `k`'s elements, among those of the buffer on device `c`. -/
abbrev cset (M : Memref sig .tc .vmem S8x64x512 .bf16) (c : Dev nD) (k : Fin 8) : Finset (Idx (M.view.loc (c : Thread nD τ))) := (sl M k).view.set

omit [FloatOps F] in
/-- A whole chunked buffer is its eight chunks, -/
theorem split_chunks (M : Memref sig .tc .vmem S8x64x512 .bf16) (c : Dev nD) (f : Buf (Elt F) (M.view.loc (c : Thread nD τ)))
    (hd : ∀ k k' : Fin 8, k ≠ k' → Disjoint (cset M c k) (cset M c k'))
    (hc : Finset.univ.biUnion (fun k : Fin 8 => cset M c k) = Finset.univ) :
    (M.view.loc (c : Thread nD τ) ↦{fullShare} f : sProp 𝕄) = bigSep Finset.univ fun k : Fin 8 => chunkPts M c k fullShare f := by
  rw [← hc, pointsTo_biUnion _ _ fun t _ t' _ h => hd t t' h]; rfl

omit [FloatOps F] in
/-- and eight chunks at any contents are the buffer whole at some contents. -/
theorem join_chunks (M : Memref sig .tc .vmem S8x64x512 .bf16) (c : Dev nD) (fs : Fin 8 → Buf (Elt F) (M.view.loc (c : Thread nD τ)))
    (hd : ∀ k k' : Fin 8, k ≠ k' → Disjoint (cset M c k) (cset M c k'))
    (hc : Finset.univ.biUnion (fun k : Fin 8 => cset M c k) = Finset.univ) :
    (bigSep Finset.univ fun k : Fin 8 => chunkPts M c k fullShare (fs k))
      ⊢ (iprop(∃ g : Buf (Elt F) (M.view.loc (c : Thread nD τ)), M.view.loc (c : Thread nD τ) ↦{fullShare} g) : sProp 𝕄) := by
  have h := pointsTo_biUnion_join (ℓ := M.view.loc (c : Thread nD τ)) (q := fullShare) (Val := Elt F) (Ix := Unit) (Name := ℕ) (U := UU) (Lvl := ℕ)
    Finset.univ (fun k : Fin 8 => cset M c k) fs (fs 0) (fun t _ t' _ h => hd t t' h)
  rw [hc] at h
  refine Entails.trans (show _ ⊢ _ from BI.Entails.refl _) (h.trans ?_)
  iintro ⟨%g, -, Hg⟩; iexists g; iexact Hg

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The eight chunks are pairwise disjoint and cover the buffer. -/
def Partitioned (M : Memref sig .tc .vmem S8x64x512 .bf16) (c : Dev nD) : Prop :=
  (∀ k k' : Fin 8, k ≠ k' → Disjoint (cset M c k) (cset M c k')) ∧ Finset.univ.biUnion (fun k : Fin 8 => cset M c k) = Finset.univ

omit [FloatOps F] in
/-- If membership in chunk `k` is decided by a coordinate of which every element has exactly one value, the
    chunks are pairwise disjoint and cover the buffer. -/
theorem chunks_partition (M : Memref sig .tc .vmem S8x64x512 .bf16) (c : Dev nD) (z : Idx (M.view.loc (c : Thread nD τ)) → Fin 8)
    (hz : ∀ k i, i ∈ cset M c k ↔ z i = k) : Partitioned M c :=
  ⟨fun k k' h => Finset.disjoint_left.mpr fun i hi hi' => h (((hz k i).mp hi).symm.trans ((hz k' i).mp hi')),
   Finset.eq_univ_of_forall fun i => Finset.mem_biUnion.mpr ⟨z i, Finset.mem_univ _, (hz _ i).mpr rfl⟩⟩

/-- The chunk an element of an 8 × 64 × 512 buffer lies in: its first coordinate. -/
abbrev chunkOf (i : S8x64x512.Idx) : Fin 8 := ⟨(i 0).val, (i 0).isLt⟩

omit [FloatOps F] in
theorem mem_rk' (k : Fin 8) (i : S8x64x512.Idx) : i ∈ (rk k).set ↔ chunkOf i = k :=
  (mem_rk k i).trans ⟨fun h => Fin.ext h, fun h => congrArg Fin.val h⟩

omit [FloatOps F] in
theorem part_a (c : Dev nD) : Partitioned aM c := chunks_partition aM c (fun i => chunkOf i) fun k i => by
  rw [show cset aM c k = (rk k).set from set_a k]; exact mem_rk' k i
omit [FloatOps F] in
theorem part_b (c : Dev nD) : Partitioned bM c := chunks_partition bM c (fun i => chunkOf i) fun k i => by
  rw [show cset bM c k = (rk k).set from set_b k]; exact mem_rk' k i
omit [FloatOps F] in
theorem part_p (c : Dev nD) : Partitioned pM c := chunks_partition pM c (fun i => chunkOf i) fun k i => by
  rw [show cset pM c k = (rk k).set from set_p k]; exact mem_rk' k i
omit [FloatOps F] in
theorem part_q (c : Dev nD) : Partitioned qM c := chunks_partition qM c (fun i => chunkOf i) fun k i => by
  rw [show cset qM c k = (rk k).set from set_q k]; exact mem_rk' k i

theorem St0_intro1 (c : Dev nD) (k : Fin 8) (fa : Buf (Elt F) (aM.view.loc (c : Thread nD τ))) (fp : Buf (Elt F) (pM.view.loc (c : Thread nD τ)))
    (fb : Buf (Elt F) (bM.view.loc ((yn c : Dev nD) : Thread nD τ))) (fq : Buf (Elt F) (qM.view.loc ((xn c : Dev nD) : Thread nD τ))) :
    iprop(chunkLin c k ∗ chunkCred c k ∗ chunkPts aM c k fullShare fa ∗ chunkPts pM c k fullShare fp
        ∗ chunkPts bM (yn c) k fullShare fb ∗ chunkPts qM (xn c) k fullShare fq)
      ⊢ St0 (F := F) c k := by
  unfold St0
  iintro ⟨H1, H2, H3, H4, H5, H6⟩
  isplitl [H1]; · iexact H1
  isplitl [H2]; · iexact H2
  isplitl [H3]; · iexists fa; iexact H3
  isplitl [H4]; · iexists fp; iexact H4
  isplitl [H5]; · iexists fb; iexact H5
  iexists fq; iexact H6

/-- Every chunk's state after the entry handshake, from the pieces. -/
theorem St0_intro (c : Dev nD) (fa : Buf (Elt F) (aM.view.loc (c : Thread nD τ))) (fp : Buf (Elt F) (pM.view.loc (c : Thread nD τ)))
    (fb : Buf (Elt F) (bM.view.loc ((yn c : Dev nD) : Thread nD τ))) (fq : Buf (Elt F) (qM.view.loc ((xn c : Dev nD) : Thread nD τ))) :
    iprop((bigSep Finset.univ fun k : Fin 8 => chunkLin c k) ∗ (bigSep Finset.univ fun k : Fin 8 => chunkCred c k)
        ∗ (bigSep Finset.univ fun k : Fin 8 => chunkPts aM c k fullShare fa) ∗ (bigSep Finset.univ fun k : Fin 8 => chunkPts pM c k fullShare fp)
        ∗ (bigSep Finset.univ fun k : Fin 8 => chunkPts bM (yn c) k fullShare fb) ∗ (bigSep Finset.univ fun k : Fin 8 => chunkPts qM (xn c) k fullShare fq))
      ⊢ (bigSep Finset.univ fun k : Fin 8 => St0 (F := F) c k) := by
  rw [← bigSep_sep', ← bigSep_sep', ← bigSep_sep', ← bigSep_sep', ← bigSep_sep']
  exact bigSep_mono fun k _ => St0_intro1 c k fa fp fb fq

/-- One chunk's four cells closed at zero. -/
def closed (c : Dev nD) (k : Fin 8) : sProp 𝕄 :=
  iprop(semVal (s1C c k) 0 ∗ semVal (r1C c k) 0 ∗ semVal (s2C c k) 0 ∗ semVal (r2C c k) 0)

theorem St4_close (K : Dev nD × CI → ℕ) (c : Dev nD) (k : Fin 8) :
    iprop(records m ρ K ∗ St4 m ρ c k)
      ⊢ |={Set.univ}=> iprop(closed c k ∗ chunkPts aM c k fullShare (A1 m ρ c k) ∗ chunkPts bM c k fullShare (B1 m ρ c k)
          ∗ chunkPts pM c k fullShare (P1 m ρ c k) ∗ chunkPts qM c k fullShare (Q1 m ρ c k)) := by
  unfold St4 closed
  iintro ⟨#HR, ⟨Ha1, Har1, Ha2, Har2⟩, Ha, Hb, Hp, Hq⟩
  imod (Rounds.cell_close ER (Rd m ρ) (Set.mem_univ (K (c, .inr (0, k)))) (fun h => h) (R := 0 + 1) (duties_later m ρ (s1C c k))) $$ [Ha1] with Hz1
  · isplitr; · iapply (inv_s1 m ρ K c k); iexact HR
    iexact Ha1
  imod (Rounds.cell_close ER (Rd m ρ) (Set.mem_univ (K (c, .inr (1, k)))) (fun h => h) (R := 0 + 1) (duties_later m ρ (r1C c k))) $$ [Har1] with Hz2
  · isplitr; · iapply (inv_r1 m ρ K c k); iexact HR
    iexact Har1
  imod (Rounds.cell_close ER (Rd m ρ) (Set.mem_univ (K (c, .inr (2, k)))) (fun h => h) (R := 0 + 1) (duties_later m ρ (s2C c k))) $$ [Ha2] with Hz3
  · isplitr; · iapply (inv_s2 m ρ K c k); iexact HR
    iexact Ha2
  imod (Rounds.cell_close ER (Rd m ρ) (Set.mem_univ (K (c, .inr (3, k)))) (fun h => h) (R := 0 + 1) (duties_later m ρ (r2C c k))) $$ [Har2] with Hz4
  · isplitr; · iapply (inv_r2 m ρ K c k); iexact HR
    iexact Har2
  imodintro
  iframe

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem closed_all (c : Dev nD) :
    (bigSep Finset.univ fun k : Fin 8 => closed (F := F) c k) = bigSep Finset.univ fun ak : Fin 4 × Fin 8 => semVal (kcell (c, .inr ak)) 0 := by
  unfold closed
  rw [bigSep_univ_prod, bigSep_fin4, bigSep_sep', bigSep_sep', bigSep_sep']
  simp only [kcell_s1, kcell_r1, kcell_s2, kcell_r2]

/-- After the last wait: the transfer cells closed, the four scratch buffers whole again. -/
theorem finish (K : Dev nD × CI → ℕ) (c : Dev nD) :
    iprop(records m ρ K ∗ bigSep Finset.univ fun k : Fin 8 => St4 m ρ c k) ⊢ |={Set.univ}=> Φ₁ (F := F) c := by
  refine ((bigSep_with_persistent (R := records m ρ K) fun k _ => St4_close m ρ K c k).trans (bigSep_fupd _ _)).trans (BI.fupd_mono ?_)
  rw [bigSep_sep', bigSep_sep', bigSep_sep', bigSep_sep', closed_all]
  unfold Φ₁ scr
  iintro ⟨Hz, Ha, Hb, Hp, Hq⟩
  ihave Ha := (join_chunks aM c (fun k => A1 m ρ c k) (part_a c).1 (part_a c).2) $$ Ha
  ihave Hb := (join_chunks bM c (fun k => B1 m ρ c k) (part_b c).1 (part_b c).2) $$ Hb
  ihave Hp := (join_chunks pM c (fun k => P1 m ρ c k) (part_p c).1 (part_p c).2) $$ Hp
  ihave Hq := (join_chunks qM c (fun k => Q1 m ρ c k) (part_q c).1 (part_q c).2) $$ Hq
  isplitr [Hz]
  · isplitl [Ha]; · iexact Ha
    isplitl [Hb]; · iexact Hb
    isplitl [Hp]; · iexact Hp
    iexact Hq
  · iexact Hz

/-! ## What is owed, one chunk's credit at a time -/

omit [FloatOps F] in
theorem owes_step1 (c : Dev nD) (n : ℕ) (k : Fin 8) (hk : k.val = 7 - n) {W : Waits sig Unit} :
    (owes (c : Thread nD τ) (own1 c (n + 1)) W : sProp 𝕄) ⊢ owes (c : Thread nD τ) (own1 c n + T1 c k) W := by
  obtain ⟨kv, hkv⟩ := k
  simp only at hk
  subst hk; exact Entails.of_eq rfl
omit [FloatOps F] in
theorem owes_step2 (c : Dev nD) (n : ℕ) (k : Fin 8) (hk : k.val = 7 - n) {W : Waits sig Unit} :
    (owes (c : Thread nD τ) (own2 c (n + 1)) W : sProp 𝕄) ⊢ owes (c : Thread nD τ) (own2 c n + T2 c k) W := by
  obtain ⟨kv, hkv⟩ := k
  simp only at hk
  subst hk; exact Entails.of_eq rfl
omit [FloatOps F] in
theorem owes_10 (c : Dev nD) {W : Waits sig Unit} : (owes (c : Thread nD τ) (own1 c 0) W : sProp 𝕄) ⊢ owes (c : Thread nD τ) (own2 c 8) W := Entails.of_eq rfl
omit [FloatOps F] in
theorem owes_20 (c : Dev nD) {W : Waits sig Unit} : (owes (c : Thread nD τ) (own2 c 0) W : sProp 𝕄) ⊢ owes (c : Thread nD τ) 0 W := Entails.of_eq rfl
omit [FloatOps F] in
theorem mayWait_r1' (c : Dev nD) (n : ℕ) (k : Fin 8) (hk : k.val = 7 - n) :
    (levAts L lv : sProp 𝕄) ⊢ MayWait (c : Thread nD τ) (.dma (semk cc0_scratch5 k)) () (own2 c n + T2 c k) := by
  obtain ⟨kv, hkv⟩ := k
  simp only at hk
  subst hk; exact mayWait_r1 c _ (n + 1)

/-! ## The body -/

omit [FloatOps F] in
theorem scr_whole_b (c : Dev nD) : (scr (F := F) c cc0_scratch1) = wholePts bM c := by
  unfold wholePts; rw [show (bM : Memref sig .tc .vmem S8x64x512 .bf16).view.set = Finset.univ from View.set_whole _]
omit [FloatOps F] in
theorem scr_whole_q (c : Dev nD) : (scr (F := F) c cc0_scratch3) = wholePts qM c := by
  unfold wholePts; rw [show (qM : Memref sig .tc .vmem S8x64x512 .bf16).view.set = Finset.univ from View.set_whole _]

omit [FloatOps F] in
/-- A whole chunked buffer handed over is its eight chunks at some contents. -/
theorem wholePts_chunks (M : Memref sig .tc .vmem S8x64x512 .bf16) (c : Dev nD) (hM : M.view.set = Finset.univ)
    (hd : ∀ k k' : Fin 8, k ≠ k' → Disjoint (cset M c k) (cset M c k'))
    (hc : Finset.univ.biUnion (fun k : Fin 8 => cset M c k) = Finset.univ) :
    wholePts (F := F) M c ⊢ iprop(∃ f : Buf (Elt F) (M.view.loc (c : Thread nD τ)), bigSep Finset.univ fun k : Fin 8 => chunkPts M c k fullShare f) := by
  unfold wholePts; rw [hM]
  iintro ⟨%f, H⟩
  iexists f
  iapply (Entails.of_eq (split_chunks M c f hd hc)); iexact H

omit [FloatOps F] in
theorem own_chunks_a (c : Dev nD) (f : Buf (Elt F) ((c : Thread nD τ).loc cc0_scratch0)) :
    (((c : Thread nD τ).loc cc0_scratch0) ↦{fullShare} f : sProp 𝕄) ⊢ bigSep Finset.univ fun k : Fin 8 => chunkPts aM c k fullShare f :=
  Entails.of_eq (split_chunks aM c f (part_a c).1 (part_a c).2)
omit [FloatOps F] in
theorem own_chunks_p (c : Dev nD) (f : Buf (Elt F) ((c : Thread nD τ).loc cc0_scratch2)) :
    (((c : Thread nD τ).loc cc0_scratch2) ↦{fullShare} f : sProp 𝕄) ⊢ bigSep Finset.univ fun k : Fin 8 => chunkPts pM c k fullShare f :=
  Entails.of_eq (split_chunks pM c f (part_p c).1 (part_p c).2)

omit [FloatOps F] in
theorem St_flat (Φ : Fin 8 → sProp 𝕄) : bigSep Finset.univ Φ ⊢ iprop(Φ 0 ∗ Φ 1 ∗ Φ 2 ∗ Φ 3 ∗ Φ 4 ∗ Φ 5 ∗ Φ 6 ∗ Φ 7) := Entails.of_eq (bigSep_fin8 Φ)
omit [FloatOps F] in
theorem St_gather (Φ : Fin 8 → sProp 𝕄) : iprop(Φ 0 ∗ Φ 1 ∗ Φ 2 ∗ Φ 3 ∗ Φ 4 ∗ Φ 5 ∗ Φ 6 ∗ Φ 7) ⊢ bigSep Finset.univ Φ := Entails.of_eq (bigSep_fin8 Φ).symm

theorem outPieces_eq (c : Dev nD) : outPieces m ρ c
    = [⟨rx2 c 7, o2 m ρ c 7⟩, ⟨rx2 c 6, o2 m ρ c 6⟩, ⟨rx2 c 5, o2 m ρ c 5⟩, ⟨rx2 c 4, o2 m ρ c 4⟩,
       ⟨rx2 c 3, o2 m ρ c 3⟩, ⟨rx2 c 2, o2 m ρ c 2⟩, ⟨rx2 c 1, o2 m ρ c 1⟩, ⟨rx2 c 0, o2 m ρ c 0⟩,
       ⟨rx1 c 7, o1 m ρ c 7⟩, ⟨rx1 c 6, o1 m ρ c 6⟩, ⟨rx1 c 5, o1 m ρ c 5⟩, ⟨rx1 c 4, o1 m ρ c 4⟩,
       ⟨rx1 c 3, o1 m ρ c 3⟩, ⟨rx1 c 2, o1 m ρ c 2⟩, ⟨rx1 c 1, o1 m ρ c 1⟩, ⟨rx1 c 0, o1 m ρ c 0⟩] := rfl

/-- Owing nothing, whatever was waited on, is what the last point asks. -/
theorem owes_last (c : Dev nD) (W' : Waits sig Unit) : (owes (c : Thread nD τ) 0 W' : sProp 𝕄) ⊢ (dats m ρ 0 c).owesAt () t₀.succ := by
  unfold Dat.owesAt Pipeline.owesWithin
  rw [show (dats m ρ 0 c).owed t₀.succ = 0 from rfl]
  iintro H
  iexists W'
  isplitr; · ipureintro; exact fun _ _ => Or.inl trivial
  iexact H

/-- What device `c`'s body starts from, the cells' names fixed. -/
def bodyPre (K : Dev nD × CI → ℕ) (c : Dev nD) : sProp 𝕄 :=
  iprop((ghost m ρ K c ∗ cred (tallyAt (barC c) () 2) ∗ (bigSep Finset.univ fun k : Fin 8 => chunkCred c k) ∗ levAts L lv
      ∗ scr c cc0_scratch0 ∗ scr c cc0_scratch1 ∗ scr c cc0_scratch2 ∗ scr c cc0_scratch3)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
set_option maxHeartbeats 8000000 in
/-- The body on device `c`: the entry handshake, then the four phases chunk by chunk. -/
theorem sound_body (hbase : ∀ (c : Dev nD) (f : (cc0_stg1_0 : Ref sig .tc).ty.Contents (Elt F)), oM.view.writes (Elt F) f (outPieces m ρ c) = outAt m ρ c)
    (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
    k0_part19_skel k0_part20_skel k0_part21_skel k0_part22_skel k0_part23_skel k0_part24_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c,
    dev11_eq c, dev12_eq c, dev13_eq c, dev14_eq c, dev15_eq c, dev16_eq c, dev17_eq c, dev18_eq c]
  unfold bodyPre ghost lin
  iintro ⟨⟨⟨⟨#HR, HatB, HtBy, HtBx, Hlin⟩, HcB, Hcr, #Hlev, ⟨%fa, Hsa⟩, Hsb, ⟨%fp, Hsp⟩, Hsq⟩, Ho, ⟨%d0, %g0, %hg0, Hx⟩, ⟨%d1, %g1, %hg1, Hout⟩⟩, Hk⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  -- the handshake: a unit to the column mate's barrier cell with this device's column-receive buffer,
  iapply (Rounds.wp_signal 𝒱₀ ER (Rd m ρ) (c : Thread nD τ) none (dst := ((yn c : Dev nD) : Thread nD τ)) (κ := K (yn c, .inl ()))
      (d := false) (by rw [duties_bar]; exact Finset.mem_univ _) ((amount_bar m ρ (yn c) false).trans (by decide)) () (O₁ c) rfl)
    $$ [HO HtBy Hsb]
  · isplitr; · iapply (inv_bar m ρ K (yn c)); iexact HR
    isplitl [HO]; · iexact HO
    isplitl [HtBy]; · iexact HtBy
    isplitl [Hsb]; · rw [payload_bar_false, yn_yn, ← scr_whole_b]; iexact Hsb
    iapply (rch_bar m ρ K (yn c)); iexact HR
  iintro HO
  unfold O₁
  -- a unit to the row mate's with its row-receive buffer,
  iapply (Rounds.wp_signal 𝒱₀ ER (Rd m ρ) (c : Thread nD τ) none (dst := ((xn c : Dev nD) : Thread nD τ)) (κ := K (xn c, .inl ()))
      (d := true) (by rw [duties_bar]; exact Finset.mem_univ _) ((amount_bar m ρ (xn c) true).trans (by decide)) () (own1 c 8) rfl)
    $$ [HO HtBx Hsq]
  · isplitr; · iapply (inv_bar m ρ K (xn c)); iexact HR
    isplitl [HO]; · iexact HO
    isplitl [HtBx]; · iexact HtBx
    isplitl [Hsq]; · rw [payload_bar_true, xn_xn, ← scr_whole_q]; iexact Hsq
    iapply (rch_bar m ρ K (xn c)); iexact HR
  iintro HO
  -- and the wait for both mates' units, which bring their receive buffers
  iapply (Rounds.wp_wait_rest_token 𝒱₀ ER (Rd m ρ) (c : Thread nD τ) none (κ := K (c, .inl ()))
      (wpE_semWait_eq 𝒱₀ (c : Thread nD τ) none Set.univ) (Set.mem_univ _) () (O := own1 c 8) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  icases Hp with ⟨Hbn, Hqn⟩
  ihave Hbn := (wholePts_chunks bM (yn c) (View.set_whole _) (part_b (yn c)).1 (part_b (yn c)).2) $$ Hbn
  icases Hbn with ⟨%fbn, Hbn⟩
  ihave Hqn := (wholePts_chunks qM (xn c) (View.set_whole _) (part_q (xn c)).1 (part_q (xn c)).2) $$ Hqn
  icases Hqn with ⟨%fqn, Hqn⟩
  ihave Hsa := (own_chunks_a c fa) $$ Hsa
  ihave Hsp := (own_chunks_p c fp) $$ Hsp
  ihave HS := (St0_intro c fa fp fbn fqn) $$ [Hlin Hcr Hsa Hsp Hbn Hqn]
  · iframe
  ihave HS := (St_flat fun k => St0 (F := F) c k) $$ HS
  icases HS with ⟨S0, S1, S2, S3, S4, S5, S6, S7⟩
  ihave Hx := (Entails.of_eq (show (((c : Thread nD τ).loc cc0_stg0_0) ↦{fullShare} xstg m ρ c : sProp 𝕄) = xP m ρ c from rfl)) $$ Hx
  -- phase 1: each chunk of the own half rounded, stored and sent down the column
  ihave HO := (owes_step1 c 7 0 rfl) $$ HO
  iapply (seg1 m ρ K c 0 _ (dev3_eq c) (own1 c 7) _) $$ [Hx S0 HO]
  · isplitr; · iexact HR
    iframe
  iintro ⟨Hx, S0, HO⟩
  ihave HO := (owes_step1 c 6 1 rfl) $$ HO
  iapply (seg1 m ρ K c 1 _ (dev4_eq c) (own1 c 6) _) $$ [Hx S1 HO]
  · isplitr; · iexact HR
    iframe
  iintro ⟨Hx, S1, HO⟩
  ihave HO := (owes_step1 c 5 2 rfl) $$ HO
  iapply (seg1 m ρ K c 2 _ (dev5_eq c) (own1 c 5) _) $$ [Hx S2 HO]
  · isplitr; · iexact HR
    iframe
  iintro ⟨Hx, S2, HO⟩
  ihave HO := (owes_step1 c 4 3 rfl) $$ HO
  iapply (seg1 m ρ K c 3 _ (dev6_eq c) (own1 c 4) _) $$ [Hx S3 HO]
  · isplitr; · iexact HR
    iframe
  iintro ⟨Hx, S3, HO⟩
  ihave HO := (owes_step1 c 3 4 rfl) $$ HO
  iapply (seg1 m ρ K c 4 _ (dev7_eq c) (own1 c 3) _) $$ [Hx S4 HO]
  · isplitr; · iexact HR
    iframe
  iintro ⟨Hx, S4, HO⟩
  ihave HO := (owes_step1 c 2 5 rfl) $$ HO
  iapply (seg1 m ρ K c 5 _ (dev8_eq c) (own1 c 2) _) $$ [Hx S5 HO]
  · isplitr; · iexact HR
    iframe
  iintro ⟨Hx, S5, HO⟩
  ihave HO := (owes_step1 c 1 6 rfl) $$ HO
  iapply (seg1 m ρ K c 6 _ (dev9_eq c) (own1 c 1) _) $$ [Hx S6 HO]
  · isplitr; · iexact HR
    iframe
  iintro ⟨Hx, S6, HO⟩
  ihave HO := (owes_step1 c 0 7 rfl) $$ HO
  iapply (seg1 m ρ K c 7 _ (dev10_eq c) (own1 c 0) _) $$ [Hx S7 HO]
  · isplitr; · iexact HR
    iframe
  iintro ⟨Hx, S7, HO⟩
  -- phase 2: each column sum formed, sent along the row and stored
  ihave HO := (owes_10 c) $$ HO
  ihave Hout := (Entails.of_eq (show (((c : Thread nD τ).loc cc0_stg1_0) ↦{fullShare} g1 : sProp 𝕄) = oP c g1 [] from rfl)) $$ Hout
  ihave HO := (owes_step2 c 7 0 rfl) $$ HO
  iapply (seg2 m ρ K c 0 _ (dev11_eq c) (own2 c 7) _ g1 _ (mayWait_r1' c 7 0 rfl)) $$ [Hout S0 HO]
  · isplitr; · iexact HR
    isplitr; · iexact Hlev
    iframe
  iintro ⟨Hout, S0, HO⟩
  ihave HO := (owes_step2 c 6 1 rfl) $$ HO
  iapply (seg2 m ρ K c 1 _ (dev12_eq c) (own2 c 6) _ g1 _ (mayWait_r1' c 6 1 rfl)) $$ [Hout S1 HO]
  · isplitr; · iexact HR
    isplitr; · iexact Hlev
    iframe
  iintro ⟨Hout, S1, HO⟩
  ihave HO := (owes_step2 c 5 2 rfl) $$ HO
  iapply (seg2 m ρ K c 2 _ (dev13_eq c) (own2 c 5) _ g1 _ (mayWait_r1' c 5 2 rfl)) $$ [Hout S2 HO]
  · isplitr; · iexact HR
    isplitr; · iexact Hlev
    iframe
  iintro ⟨Hout, S2, HO⟩
  ihave HO := (owes_step2 c 4 3 rfl) $$ HO
  iapply (seg2 m ρ K c 3 _ (dev14_eq c) (own2 c 4) _ g1 _ (mayWait_r1' c 4 3 rfl)) $$ [Hout S3 HO]
  · isplitr; · iexact HR
    isplitr; · iexact Hlev
    iframe
  iintro ⟨Hout, S3, HO⟩
  ihave HO := (owes_step2 c 3 4 rfl) $$ HO
  iapply (seg2 m ρ K c 4 _ (dev15_eq c) (own2 c 3) _ g1 _ (mayWait_r1' c 3 4 rfl)) $$ [Hout S4 HO]
  · isplitr; · iexact HR
    isplitr; · iexact Hlev
    iframe
  iintro ⟨Hout, S4, HO⟩
  ihave HO := (owes_step2 c 2 5 rfl) $$ HO
  iapply (seg2 m ρ K c 5 _ (dev16_eq c) (own2 c 2) _ g1 _ (mayWait_r1' c 2 5 rfl)) $$ [Hout S5 HO]
  · isplitr; · iexact HR
    isplitr; · iexact Hlev
    iframe
  iintro ⟨Hout, S5, HO⟩
  ihave HO := (owes_step2 c 1 6 rfl) $$ HO
  iapply (seg2 m ρ K c 6 _ (dev17_eq c) (own2 c 1) _ g1 _ (mayWait_r1' c 1 6 rfl)) $$ [Hout S6 HO]
  · isplitr; · iexact HR
    isplitr; · iexact Hlev
    iframe
  iintro ⟨Hout, S6, HO⟩
  ihave HO := (owes_step2 c 0 7 rfl) $$ HO
  iapply (seg2 m ρ K c 7 _ (dev18_eq c) (own2 c 0) _ g1 _ (mayWait_r1' c 0 7 rfl)) $$ [Hout S7 HO]
  · isplitr; · iexact HR
    isplitr; · iexact Hlev
    iframe
  iintro ⟨Hout, S7, HO⟩
  ihave HO := (owes_20 c) $$ HO
  -- phase 3: each of the row mate's column sums landed and stored
  iapply (seg3 m ρ K c 0 _ g1 _) $$ [Hout S0 HO]
  · isplitr; · iexact HR
    iframe
  iintro ⟨Hout, S0, HO⟩
  iapply (seg3 m ρ K c 1 _ g1 _) $$ [Hout S1 HO]
  · isplitr; · iexact HR
    iframe
  iintro ⟨Hout, S1, HO⟩
  iapply (seg3 m ρ K c 2 _ g1 _) $$ [Hout S2 HO]
  · isplitr; · iexact HR
    iframe
  iintro ⟨Hout, S2, HO⟩
  iapply (seg3 m ρ K c 3 _ g1 _) $$ [Hout S3 HO]
  · isplitr; · iexact HR
    iframe
  iintro ⟨Hout, S3, HO⟩
  iapply (seg3 m ρ K c 4 _ g1 _) $$ [Hout S4 HO]
  · isplitr; · iexact HR
    iframe
  iintro ⟨Hout, S4, HO⟩
  iapply (seg3 m ρ K c 5 _ g1 _) $$ [Hout S5 HO]
  · isplitr; · iexact HR
    iframe
  iintro ⟨Hout, S5, HO⟩
  iapply (seg3 m ρ K c 6 _ g1 _) $$ [Hout S6 HO]
  · isplitr; · iexact HR
    iframe
  iintro ⟨Hout, S6, HO⟩
  iapply (seg3 m ρ K c 7 _ g1 _) $$ [Hout S7 HO]
  · isplitr; · iexact HR
    iframe
  iintro ⟨Hout, S7, HO⟩
  -- phase 4: both sends of each chunk have read their sources
  iapply (seg4 m ρ K c 0 _) $$ [S0 HO]
  · isplitr; · iexact HR
    iframe
  iintro ⟨S0, HO⟩
  iapply (seg4 m ρ K c 1 _) $$ [S1 HO]
  · isplitr; · iexact HR
    iframe
  iintro ⟨S1, HO⟩
  iapply (seg4 m ρ K c 2 _) $$ [S2 HO]
  · isplitr; · iexact HR
    iframe
  iintro ⟨S2, HO⟩
  iapply (seg4 m ρ K c 3 _) $$ [S3 HO]
  · isplitr; · iexact HR
    iframe
  iintro ⟨S3, HO⟩
  iapply (seg4 m ρ K c 4 _) $$ [S4 HO]
  · isplitr; · iexact HR
    iframe
  iintro ⟨S4, HO⟩
  iapply (seg4 m ρ K c 5 _) $$ [S5 HO]
  · isplitr; · iexact HR
    iframe
  iintro ⟨S5, HO⟩
  iapply (seg4 m ρ K c 6 _) $$ [S6 HO]
  · isplitr; · iexact HR
    iframe
  iintro ⟨S6, HO⟩
  iapply (seg4 m ρ K c 7 _) $$ [S7 HO]
  · isplitr; · iexact HR
    iframe
  iintro ⟨S7, HO⟩
  -- the cells close, the scratch buffers are whole again
  ihave HS := (St_gather fun k => St4 m ρ c k) $$ [S0 S1 S2 S3 S4 S5 S6 S7]
  · iframe
  imod (finish m ρ K c) $$ [HS] with HΦ
  · isplitr; · iexact HR
    iexact HS
  rw [wp_ret]; imodintro
  iapply Hk
  unfold bodyPost
  isplitl [HΦ]; · iexact HΦ
  isplitl [HO]
  · iapply (owes_last m ρ c _); iexact HO
  isplitl [Hx]
  · iexists _; isplitr; · (ipureintro; rfl)
    unfold xP; iexact Hx
  iexists _
  isplitr
  · ipureintro
    exact (congrArg (oM.view.writes (Elt F) g1) (outPieces_eq m ρ c).symm).trans (hbase c g1)
  unfold oP; iexact Hout

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

section Obligation
attribute [local irreducible] outAt

set_option maxHeartbeats 1600000 in
set_option maxRecDepth 65536 in
/-- The body obligation on device `c`, given that the sixteen stores cover the result's staging buffer. -/
theorem body_obligation (hbase : ∀ (c : Dev nD) (f : (cc0_stg1_0 : Ref sig .tc).ty.Contents (Elt F)), oM.view.writes (Elt F) f (outPieces m ρ c) = outAt m ρ c)
    (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => bodyPost m ρ c)
  unfold bodyPre' Φ₀ start
  iintro ⟨⟨⟨⟨%K, Hg⟩, Hc, Hcr, Hlev⟩, Hs0, Hs1, Hs2, Hs3⟩, Ho, Hx, Hout⟩
  iapply (sound_body m ρ hbase K c fun _ => bodyPost m ρ c)
  unfold bodyPre
  isplitr []
  · isplitl [Hg Hc Hcr Hlev Hs0 Hs1 Hs2 Hs3]
    · iframe
    iframe
  · iintro H; iexact H

end Obligation

/-- info: 'Cert.KernelIdealProof.body_obligation' depends on axioms: [propext, Classical.choice, Quot.sound] -/
#guard_msgs in #print axioms body_obligation

end Cert.KernelIdealProof
end
-- ==== Proof.Launch.lean ====
import proofs.«900138_g7700000000000139_dist_ar_v7x_xy2x2_y_m1024_n512_bf16_1_alg».proof.Proof.Proto

/-! The launch: the protocol's ghost state allocated for all devices at once, the launch credit read off
what the devices owe, and the run of the whole mesh from the body's obligation. -/

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens the launch allocates -/

/-- The kernel's own scoped semaphores: the 32 transfer cells. -/
abbrev osem : Fin 4 × Fin 8 → SemLoc sig := fun ak => csem (.inr ak)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × CI → GSem nD τ sig) := by
  rintro ⟨c, i⟩ ⟨c', i'⟩ h
  have h1 : c = c' := by have := congrArg (fun g : GSem nD τ sig => g.1.1) h; exact this
  subst h1
  have h2 : csem i = csem i' := congrArg Prod.snd h
  rw [csem_injective h2]

def ourCells : Finset (GSem nD τ sig) := Finset.univ.map ⟨kcell, kcell_injective⟩

/-- The duty tokens minted: every cell's `false` token, and each barrier cell's `true` token. -/
abbrev tokOf (cj : Dev nD × (Unit ⊕ CI)) : GSem nD τ sig × ℕ × Bool := match cj.2 with
  | .inl _ => (barC cj.1, 0, true)
  | .inr i => (kcell (cj.1, i), 0, false)

theorem tokOf_injective : Function.Injective (tokOf : Dev nD × (Unit ⊕ CI) → GSem nD τ sig × ℕ × Bool) := by
  rintro ⟨c, j⟩ ⟨c', j'⟩ h
  have h1 : c = c' := by
    have := congrArg (fun x : GSem nD τ sig × ℕ × Bool => x.1.1.1) h
    rcases j with _ | i <;> rcases j' with _ | i' <;> exact this
  subst h1
  rcases j with ⟨⟩ | i <;> rcases j' with ⟨⟩ | i'
  · rfl
  · have h3 : true = false := congrArg (fun x : GSem nD τ sig × ℕ × Bool => x.2.2) h
    exact absurd h3 (by decide)
  · have h3 : false = true := congrArg (fun x : GSem nD τ sig × ℕ × Bool => x.2.2) h
    exact absurd h3 (by decide)
  · have h3 : kcell (c, i) = kcell (c, i') := congrArg (fun x : GSem nD τ sig × ℕ × Bool => x.1) h
    have h4 := kcell_injective h3
    cases h4; rfl

def ourToks : Finset (GSem nD τ sig × ℕ × Bool) := Finset.univ.map ⟨tokOf, tokOf_injective⟩

def u₀ : UU :=
  (initOf (Pipeline.cells cfgs cellOf_inj) (Pipeline.launchToks cfgs cellOf_inj), initOf ourCells ourToks)

/-- The duty tokens of device `c`'s own cells. -/
def toks (c : Dev nD) : sProp 𝕄 :=
  iprop(dutyTok ER (barC c) 0 true ∗ bigSep Finset.univ fun i : CI => dutyTok ER (kcell (c, i)) 0 false)

/-- What the launch element deals device `c`. -/
def G (c : Dev nD) : sProp 𝕄 :=
  iprop((bigSep Finset.univ fun i : CI => roundState ER (Rd m ρ) (kcell (c, i)) 0)
    ∗ (bigSep Finset.univ fun i : CI => iprop(atPos ER (kcell (c, i)) 0 ∅ 0 ∗ reached ER (kcell (c, i)) 0)) ∗ toks c)

/-- What the global step makes of it. -/
def G' (c : Dev nD) : sProp 𝕄 := iprop(∃ K, ghost m ρ K c)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_sum' {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

omit [FloatOps F] in
/-- A device's 33 cells, kind by kind. -/
theorem bigSep_CI (Y : CI → sProp 𝕄) : bigSep Finset.univ Y
    = iprop(Y (.inl ()) ∗ (bigSep Finset.univ fun k : Fin 8 => Y (.inr (0, k))) ∗ (bigSep Finset.univ fun k : Fin 8 => Y (.inr (1, k)))
        ∗ (bigSep Finset.univ fun k : Fin 8 => Y (.inr (2, k))) ∗ (bigSep Finset.univ fun k : Fin 8 => Y (.inr (3, k)))) := by
  rw [bigSep_sum', bigSep_univ_of_subsingleton (), bigSep_univ_prod, bigSep_fin4]

omit [FloatOps F] in
theorem bigSep_cells (X : GSem nD τ sig → sProp 𝕄) (c : Dev nD) : (bigSep Finset.univ fun i : CI => X (kcell (c, i)))
    = iprop(X (barC c) ∗ (bigSep Finset.univ fun k : Fin 8 => X (s1C c k)) ∗ (bigSep Finset.univ fun k : Fin 8 => X (r1C c k))
        ∗ (bigSep Finset.univ fun k : Fin 8 => X (s2C c k)) ∗ (bigSep Finset.univ fun k : Fin 8 => X (r2C c k))) := by
  have e0 : (fun k : Fin 8 => X (kcell (c, .inr (0, k)))) = fun k => X (s1C c k) := funext fun k => by rw [kcell_s1]
  have e1 : (fun k : Fin 8 => X (kcell (c, .inr (1, k)))) = fun k => X (r1C c k) := funext fun k => by rw [kcell_r1]
  have e2 : (fun k : Fin 8 => X (kcell (c, .inr (2, k)))) = fun k => X (s2C c k) := funext fun k => by rw [kcell_s2]
  have e3 : (fun k : Fin 8 => X (kcell (c, .inr (3, k)))) = fun k => X (r2C c k) := funext fun k => by rw [kcell_r2]
  rw [bigSep_CI, e0, e1, e2, e3]

theorem fund_ours : BI.own (ER (initOf ourCells ourToks)) ⊢ (|==> bigSep Finset.univ (G m ρ) : sProp 𝕄) := by
  have hX (Φ : GSem nD τ sig → sProp 𝕄) : bigSep ourCells Φ = bigSep Finset.univ fun c : Dev nD => bigSep Finset.univ fun i : CI => Φ (kcell (c, i)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks; rw [bigSep_map, bigSep_univ_prod]
    exact bigSep_congr fun c _ => by unfold toks; rw [bigSep_sum', bigSep_univ_of_subsingleton ()]; rfl
  iintro HX
  imod (Rounds.fund ER (Rd m ρ) ourCells ourToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The 32 transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun ak : Fin 4 × Fin 8 => semVal (kcell (c, .inr ak)) 0 := rfl
omit [FloatOps F] in
/-- the barrier semaphore the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, bigSep_sum', bigSep_univ_of_subsingleton ()]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd m ρ) (kcell (c, i)) 0)
      ⊢ (|={Set.univ}=> bigSep Finset.univ fun i : CI => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop(dutyTok ER (barC (xn c)) 0 true ∗ dutyTok ER (barC (yn c)) 0 false
    ∗ (bigSep Finset.univ fun k : Fin 8 => dutyTok ER (s1C c k) 0 false) ∗ (bigSep Finset.univ fun k : Fin 8 => dutyTok ER (r1C (yn c) k) 0 false)
    ∗ (bigSep Finset.univ fun k : Fin 8 => dutyTok ER (s2C c k) 0 false) ∗ (bigSep Finset.univ fun k : Fin 8 => dutyTok ER (r2C (xn c) k) 0 false))

/-- What stays with device `c`: its positions, and the tokens of the duties it pays. -/
def linear (c : Dev nD) : sProp 𝕄 :=
  iprop((bigSep Finset.univ fun i : CI => atPos ER (kcell (c, i)) 0 ∅ 0) ∗ payToks c)

theorem ghost_intro (K : Dev nD × CI → ℕ) (c : Dev nD) : iprop(records m ρ K ∗ linear c) ⊢ G' m ρ c := by
  unfold linear payToks G' ghost lin
  rw [bigSep_cells (fun g => atPos ER g 0 ∅ 0) c]
  simp only [chunkLin, bigSep_sep']
  iintro ⟨#HR, ⟨HaB, Ha1, Ha2, Ha3, Ha4⟩, HtT, HtF, H1, HR1, H2, HR2⟩
  iexists K
  isplitr; · iexact HR
  isplitl [HaB]; · iexact HaB
  isplitl [HtF]; · iexact HtF
  isplitl [HtT]; · iexact HtT
  isplitl [Ha1]; · iexact Ha1
  isplitl [Ha2]; · iexact Ha2
  isplitl [Ha3]; · iexact Ha3
  isplitl [Ha4]; · iexact Ha4
  isplitl [H1]; · iexact H1
  isplitl [HR1]; · iexact HR1
  isplitl [H2]; · iexact H2
  iexact HR2

omit [FloatOps F] in
/-- The tokens dealt to their payers: a barrier cell's `true` token to the row mate, its `false` token to the
    column mate; a column-receive cell's token to the column mate, a row-receive cell's to the row mate. -/
theorem toks_around : (bigSep Finset.univ fun c : Dev nD => (toks c : sProp 𝕄)) ⊢ bigSep Finset.univ fun c : Dev nD => payToks c := by
  have ht (c : Dev nD) : (toks c : sProp 𝕄) = iprop(dutyTok ER (barC c) 0 true ∗ dutyTok ER (barC c) 0 false
      ∗ (bigSep Finset.univ fun k : Fin 8 => dutyTok ER (s1C c k) 0 false) ∗ (bigSep Finset.univ fun k : Fin 8 => dutyTok ER (r1C c k) 0 false)
      ∗ (bigSep Finset.univ fun k : Fin 8 => dutyTok ER (s2C c k) 0 false) ∗ (bigSep Finset.univ fun k : Fin 8 => dutyTok ER (r2C c k) 0 false)) := by
    unfold toks; rw [bigSep_cells (fun g => dutyTok ER g 0 false) c]
  rw [bigSep_congr (s := Finset.univ) fun c _ => ht c]
  unfold payToks
  simp only [bigSep_sep']
  rw [bigSep_univ_equiv xnE (fun c : Dev nD => (dutyTok ER (barC c) 0 true : sProp 𝕄)),
    bigSep_univ_equiv ynE (fun c : Dev nD => (dutyTok ER (barC c) 0 false : sProp 𝕄)),
    bigSep_univ_equiv ynE (fun c : Dev nD => (bigSep Finset.univ fun k : Fin 8 => dutyTok ER (r1C c k) 0 false : sProp 𝕄)),
    bigSep_univ_equiv xnE (fun c : Dev nD => (bigSep Finset.univ fun k : Fin 8 => dutyTok ER (r2C c k) 0 false : sProp 𝕄))]
  iintro ⟨HT, HF, H1, HR1, H2, HR2⟩
  isplitl [HT]; · iexact HT
  isplitl [HF]; · iexact HF
  isplitl [H1]; · iexact H1
  isplitl [HR1]; · iexact HR1
  isplitl [H2]; · iexact H2
  iexact HR2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun i : CI => (atPos ER (kcell (c, i)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_inj {a b : Dev nD} (h : barC a = barC b) : a = b := Fin.ext (congrArg (fun g : GSem nD τ sig => g.1.1.val) h)

theorem cell_kind {a b : Dev nD} {p q : Fin 4} {j k : Fin 8} (h : kcell (a, .inr (p, j)) = kcell (b, .inr (q, k))) : a = b ∧ p = q ∧ j = k := by
  have h' := kcell_injective h
  simp only [Prod.mk.injEq, Sum.inr.injEq] at h'
  exact h'

theorem r1C_inj {a b : Dev nD} {j k : Fin 8} (h : r1C a j = r1C b k) : a = b ∧ j = k := by
  have := cell_kind ((kcell_r1 a j).trans (h.trans (kcell_r1 b k).symm))
  exact ⟨this.1, this.2.2⟩
theorem r2C_inj {a b : Dev nD} {j k : Fin 8} (h : r2C a j = r2C b k) : a = b ∧ j = k := by
  have := cell_kind ((kcell_r2 a j).trans (h.trans (kcell_r2 b k).symm))
  exact ⟨this.1, this.2.2⟩
theorem r1C_ne_r2C (a b : Dev nD) (j k : Fin 8) : r1C a j ≠ r2C b k := fun h => by
  have := cell_kind ((kcell_r1 a j).trans (h.trans (kcell_r2 b k).symm))
  exact absurd this.2.1 (by decide)
theorem bar_ne_r1 (a b : Dev nD) (k : Fin 8) : barC a ≠ r1C b k := fun h => by
  have h2 : (SemLoc.reg barS : SemLoc sig) = .dma (semk cc0_scratch5 k) := congrArg Prod.snd h
  cases h2
theorem bar_ne_r2 (a b : Dev nD) (k : Fin 8) : barC a ≠ r2C b k := fun h => by
  have h2 : (SemLoc.reg barS : SemLoc sig) = .dma (semk cc0_scratch7 k) := congrArg Prod.snd h
  cases h2

theorem T1_r1 (d c : Dev nD) (j k : Fin 8) : T1 d j (r1C c k) () = if d = yn c ∧ j.val = k.val then NN else 0 := by
  unfold T1; rw [tallyAt_apply]
  by_cases h : d = yn c ∧ j.val = k.val
  · obtain ⟨rfl, hjk⟩ := h
    have hjk' : j = k := Fin.ext hjk
    subst hjk'
    rw [yn_yn, if_pos ⟨rfl, rfl⟩, if_pos ⟨rfl, rfl⟩]
  · rw [if_neg h, if_neg]
    rintro ⟨h1, -⟩
    obtain ⟨rfl, rfl⟩ := r1C_inj h1
    exact h ⟨(yn_yn d).symm, rfl⟩

theorem T2_r2 (d c : Dev nD) (j k : Fin 8) : T2 d j (r2C c k) () = if d = xn c ∧ j.val = k.val then NN else 0 := by
  unfold T2; rw [tallyAt_apply]
  by_cases h : d = xn c ∧ j.val = k.val
  · obtain ⟨rfl, hjk⟩ := h
    have hjk' : j = k := Fin.ext hjk
    subst hjk'
    rw [xn_xn, if_pos ⟨rfl, rfl⟩, if_pos ⟨rfl, rfl⟩]
  · rw [if_neg h, if_neg]
    rintro ⟨h1, -⟩
    obtain ⟨rfl, rfl⟩ := r2C_inj h1
    exact h ⟨(xn_xn d).symm, rfl⟩

theorem T1_r2 (d c : Dev nD) (j k : Fin 8) : T1 d j (r2C c k) () = 0 := by
  unfold T1; rw [tallyAt_ne_cell (fun h => r1C_ne_r2C _ _ _ _ h.symm)]; rfl

/-- The row debt with the last `n` chunks unpaid, at a row-receive cell. -/
theorem own2_r2 (d c : Dev nD) (k : Fin 8) : ∀ n, n ≤ 8 → own2 d n (r2C c k) () = if d = xn c ∧ 8 ≤ k.val + n then NN else 0
  | 0, _ => by rw [if_neg (fun h => by have := k.isLt; omega)]; rfl
  | n + 1, hn => by
    have hI := own2_r2 d c k n (by omega)
    have hT := T2_r2 d c ⟨7 - n, by omega⟩ k
    have hk := k.isLt
    show (own2 d n + T2 d ⟨7 - n, by omega⟩) (r2C c k) () = _
    rw [Pi.add_apply, Finsupp.add_apply, hI, hT]
    by_cases hd : d = xn c
    · subst hd
      simp only [eq_self_iff_true, true_and, Fin.val_mk]
      split_ifs <;> omega
    · rw [if_neg (fun h => hd h.1), if_neg (fun h => hd h.1), if_neg (fun h => hd h.1)]

theorem own2_r1 (d c : Dev nD) (k : Fin 8) (n : ℕ) : own2 d n (r1C c k) () = 0 :=
  Nat.eq_zero_of_not_pos fun h => by
    obtain ⟨k', hk⟩ := own2_pos d n h
    exact r1C_ne_r2C _ _ _ _ hk

/-- The column debt with the last `n` chunks unpaid, at a column-receive cell. -/
theorem own1_r1 (d c : Dev nD) (k : Fin 8) : ∀ n, n ≤ 8 → own1 d n (r1C c k) () = if d = yn c ∧ 8 ≤ k.val + n then NN else 0
  | 0, _ => by
    rw [if_neg (fun h => by have := k.isLt; omega)]
    exact own2_r1 d c k 8
  | n + 1, hn => by
    have hI := own1_r1 d c k n (by omega)
    have hT := T1_r1 d c ⟨7 - n, by omega⟩ k
    have hk := k.isLt
    show (own1 d n + T1 d ⟨7 - n, by omega⟩) (r1C c k) () = _
    rw [Pi.add_apply, Finsupp.add_apply, hI, hT]
    by_cases hd : d = yn c
    · subst hd
      simp only [eq_self_iff_true, true_and, Fin.val_mk]
      split_ifs <;> omega
    · rw [if_neg (fun h => hd h.1), if_neg (fun h => hd h.1), if_neg (fun h => hd h.1)]

theorem own1_r2 (d c : Dev nD) (k : Fin 8) : ∀ n, own1 d n (r2C c k) () = if d = xn c then NN else 0
  | 0 => by
    show own2 d 8 (r2C c k) () = _
    rw [own2_r2 d c k 8 le_rfl]
    by_cases hd : d = xn c
    · rw [if_pos ⟨hd, by omega⟩, if_pos hd]
    · rw [if_neg (fun h => hd h.1), if_neg hd]
  | n + 1 => by
    show (own1 d n + T1 d ⟨7 - n, by omega⟩) (r2C c k) () = _
    rw [Pi.add_apply, Finsupp.add_apply, own1_r2 d c k n, T1_r2, Nat.add_zero]

theorem own1_bar (d c : Dev nD) (n : ℕ) : own1 d n (barC c) () = 0 :=
  Nat.eq_zero_of_not_pos fun h => by
    rcases own1_pos d n h with ⟨k, hk⟩ | ⟨k, hk⟩
    · exact bar_ne_r1 _ _ _ hk
    · exact bar_ne_r2 _ _ _ hk

omit [FloatOps F] in
theorem tally_bar (e : Dev nD → Dev nD) (he : ∀ c, e (e c) = c) (d c : Dev nD) :
    (tallyAt (barC (e d)) () 1 : CellTallies nD τ sig Unit) (barC c) () = if d = e c then 1 else 0 := by
  rw [tallyAt_apply]
  by_cases h : d = e c
  · subst h; rw [he, if_pos ⟨rfl, rfl⟩, if_pos rfl]
  · rw [if_neg h, if_neg]
    rintro ⟨h1, -⟩
    exact h (by rw [bar_inj h1, he])

/-- What device `d` owes device `c`'s barrier cell: a unit if it is the row mate, a unit if it is the column mate. -/
theorem owed_bar (d c : Dev nD) : O₀ d (barC c) () = (if d = xn c then 1 else 0) + (if d = yn c then 1 else 0) := by
  unfold O₀ O₁
  rw [Pi.add_apply, Finsupp.add_apply, Pi.add_apply, Finsupp.add_apply, own1_bar, Nat.zero_add, tally_bar xn xn_xn, tally_bar yn yn_yn]

theorem owed_r1 (d c : Dev nD) (k : Fin 8) : O₀ d (r1C c k) () = if d = yn c then NN else 0 := by
  unfold O₀ O₁
  rw [Pi.add_apply, Finsupp.add_apply, Pi.add_apply, Finsupp.add_apply, own1_r1 d c k 8 le_rfl,
    tallyAt_ne_cell (fun h => bar_ne_r1 _ _ _ h.symm), tallyAt_ne_cell (fun h => bar_ne_r1 _ _ _ h.symm), Finsupp.zero_apply, Nat.add_zero, Nat.add_zero]
  by_cases hd : d = yn c
  · rw [if_pos ⟨hd, by omega⟩, if_pos hd]
  · rw [if_neg (fun h => hd h.1), if_neg hd]

theorem owed_r2 (d c : Dev nD) (k : Fin 8) : O₀ d (r2C c k) () = if d = xn c then NN else 0 := by
  unfold O₀ O₁
  rw [Pi.add_apply, Finsupp.add_apply, Pi.add_apply, Finsupp.add_apply, own1_r2 d c k 8,
    tallyAt_ne_cell (fun h => bar_ne_r2 _ _ _ h.symm), tallyAt_ne_cell (fun h => bar_ne_r2 _ _ _ h.symm), Finsupp.zero_apply, Nat.add_zero, Nat.add_zero]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yn c) fun _ => 1, if_pos (Finset.mem_univ _), if_pos (Finset.mem_univ _)]

theorem launch_r1 (c : Dev nD) (k : Fin 8) :
    tallyOn (r1C c k) (launchCredit (Pipeline.owing O₀) 0 (r1C c k)) = (tallyAt (r1C c k) () NN : CellTallies nD τ sig Unit) := by
  unfold tallyAt; refine congrArg _ (Finsupp.ext fun u => ?_); cases u
  rw [Pipeline.launchCredit_owing, Finsupp.single_eq_same, Finset.sum_congr rfl fun d _ => owed_r1 d c k, Finset.sum_ite_eq' Finset.univ (yn c) fun _ => NN,
    if_pos (Finset.mem_univ _)]

theorem launch_r2 (c : Dev nD) (k : Fin 8) :
    tallyOn (r2C c k) (launchCredit (Pipeline.owing O₀) 0 (r2C c k)) = (tallyAt (r2C c k) () NN : CellTallies nD τ sig Unit) := by
  unfold tallyAt; refine congrArg _ (Finsupp.ext fun u => ?_); cases u
  rw [Pipeline.launchCredit_owing, Finsupp.single_eq_same, Finset.sum_congr rfl fun d _ => owed_r2 d c k, Finset.sum_ite_eq' Finset.univ (xn c) fun _ => NN,
    if_pos (Finset.mem_univ _)]

omit [FloatOps F] in
theorem launchCred_cells (c : Dev nD) : (Pipeline.launchCred O₀ c : sProp 𝕄)
    ⊢ bigSep Finset.univ fun i : CI => cred (tallyOn (kcell (c, i)) (launchCredit (Pipeline.owing O₀) 0 (kcell (c, i)))) := by
  unfold Pipeline.launchCred
  refine (bigSep_subset (t := Finset.univ.map ⟨csem, csem_injective⟩) (Finset.subset_univ _)).trans ?_
  rw [bigSep_map]
  exact Entails.refl _

omit [FloatOps F] in
theorem creds (c : Dev nD) :
    (Pipeline.launchCred O₀ c : sProp 𝕄) ⊢ iprop(cred (tallyAt (barC c) () 2) ∗ bigSep Finset.univ (chunkCred c)) := by
  refine (launchCred_cells (F := F) c).trans ?_
  rw [bigSep_cells (fun g => cred (tallyOn g (launchCredit (Pipeline.owing O₀) 0 g))) c]
  simp only [launch_bar, launch_r1, launch_r2]
  show _ ⊢ iprop(_ ∗ bigSep Finset.univ fun k : Fin 8 => iprop(cred (tallyAt (r1C c k) () NN) ∗ cred (tallyAt (r2C c k) () NN)))
  rw [bigSep_sep']
  iintro ⟨HB, -, H1, -, H2⟩
  isplitl [HB]; · iexact HB
  isplitl [H1]; · iexact H1
  iexact H2

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1, H2, H3⟩
  isplitl [Hs]; · iexact Hs
  isplitl [H0]; · iexact H0
  isplitl [H1]; · iexact H1
  isplitl [H2]; · iexact H2
  iexact H3

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨H0, H1, H2, H3⟩, Hz⟩
  isplitr; · iempintro
  isplitl [Hz]; · iexact Hz
  isplitl [H0]; · iexact H0
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Each window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From the body's obligation on every device: every weakly fair execution of the four devices terminates
    without fault, each window's array ending at the proof data's final contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ours m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array ends as it was. -/
theorem finalA_x (c : Dev nD) : finalA m ρ c (0 : Fin 2) = (s₀ m ρ).mem (win0_0.arr.view.loc (c : Thread nD τ)) :=
  (dats (F := F) m ρ 0 c).arrAt_in (0 : Fin 2) rfl _

omit [FloatOps F] in
/-- The result window's one block is the whole array: read through it, a buffer is itself. -/
theorem blk1_read (G : (main_v1 : Ref sig .tc).ty.Contents (Elt F)) : ((cfg0.win (1 : Fin 2)).blk t₀).view.read (Elt F) G = G :=
  Memref.read_access_unit_zero (Elt F) main_v1
    (show (fun a => (cfg0.win (1 : Fin 2)).index t₀ a * (cfg0.win (1 : Fin 2)).size a) = fun _ => 0 from funext fun a => Nat.zero_mul _) _ G

section
attribute [local irreducible] outAt
/-- What the one write-back writes: all of what the body left in the result's staging buffer. -/
theorem flushed1 (c : Dev nD) : (dats m ρ 0 c).flushed (1 : Fin 2) t₀ = outAt m ρ c := rfl
end

/-- The result array ends at the sixteen stores. -/
theorem finalA_out (c : Dev nD) : (finalA m ρ c (1 : Fin 2) : S1024x512.Idx → Elt F .bf16) = outAt m ρ c := by
  unfold finalA
  rw [show cfg0.N = (t₀ : Fin cfg0.N).val + 1 from rfl, Dat.arrAt_succ, flush0_1, if_pos rfl, flushed1]
  exact (blk1_read _).symm.trans (View.read_write_univ _ _)

/-- info: 'Cert.KernelIdealProof.finalA_out' depends on axioms: [propext, Classical.choice, Quot.sound] -/
#guard_msgs in #print axioms finalA_out

/-- info: 'Cert.KernelIdealProof.run_main' depends on axioms: [propext, Classical.choice, Quot.sound] -/
#guard_msgs in #print axioms run_main

end Cert.KernelIdealProof

end
-- ==== Proof.Value.lean ====
import proofs.«900138_g7700000000000139_dist_ar_v7x_xy2x2_y_m1024_n512_bf16_1_alg».proof.Proof.Proto
import Idealize.ShloMosaic.Shape
import Idealize.ShloMosaic.Signature.View
import Idealize.ShloMosaic.Signature.Memref
import Idealize.ShloMosaic.PureOps.ShapeOps
import Idealize.ShloMosaic.Lib.Writes
import Idealize.ShloMosaic.Lib.Pipeline.Value
import Idealize.ShloMosaic.Lib.ValueIdx
import Idealize.ShloMosaic.PureOps.Ideal.Laws

/-! The value of the result's staging buffer: the sixteen chunk stores cover it, so it does not depend on
what it held before; and at the ideal instance row `r` of it is the sum of row `r` of two devices' blocks:
the device's own and its column mate's on the device's own half of the rows, its row mate's and that
device's column mate's on the other half. -/

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

namespace ValueAux

/-! ## One chunk stored and read back; a chunk landed through the squeezed slice and read back -/

omit [FloatOps F] in
/-- The argument block as staged is the argument block: the launch's one block is the whole array. -/
theorem xstg_eq (m : (ℓ : Loc nD τ sig) → Buf (Elt F) ℓ) (ρ : Dev nD → PrngReg) (c : Dev nD) :
    xstg m ρ c = m ((c : Thread nD τ).loc main_arg0) :=
  Memref.read_access_unit_zero (Elt F) main_arg0 (funext fun a => Nat.zero_mul _) _ _

omit [FloatOps F] in
/-- A chunk stored through its rectangle reads back as stored. -/
theorem readAt_store (M : Memref sig .tc .vmem S8x64x512 .bf16) (k : Fin 8) (f : M.view.ty.Contents (Elt F)) (v : Vec F S1x64x512 .bf16) :
    M.view.readAt (Elt F) (rk k).toLoadRect ((M.access (rk k)).write (Elt F) f v Finset.univ) = v :=
  View.read_write_univ (v := M.access (rk k)) f v

omit [FloatOps F] in
/-- A 64 × 512 block landed through the squeezed chunk reads back, through the chunk's rectangle, as the block with a
    leading unit axis. -/
theorem readAt_land (M : Memref sig .tc .vmem S8x64x512 .bf16) (k : Fin 8) (f : M.view.ty.Contents (Elt F)) (w : Vec F S64x512 .bf16) :
    M.view.readAt (Elt F) (rk k).toLoadRect ((sl M k).view.write (Elt F) f w Finset.univ)
      = shapeCast S1x64x512 w shapeCasts_S64x512_S1x64x512 := by
  refine (congrArg (M.view.readAt (Elt F) (rk k).toLoadRect)
    (View.write_reshape_univ (M.view.slice (rk k)) squeezes_S1x64x512_S64x512.numel_eq f w)).trans ?_
  refine (View.read_write_univ (v := M.view.slice (rk k)) f _).trans ?_
  funext x
  unfold shapeCast
  rw [Shape.reshapeEquiv_symm]

omit [FloatOps F] in
/-- The squeezed chunk reads what the chunk's rectangle reads, without the unit axis. -/
theorem read_sl (M : Memref sig .tc .vmem S8x64x512 .bf16) (k : Fin 8) (g : M.view.ty.Contents (Elt F)) :
    (sl M k).view.read (Elt F) g = shapeCast S64x512 (M.view.readAt (Elt F) (rk k).toLoadRect g) shapeCasts_S1x64x512_S64x512 := rfl

omit [FloatOps F] in
/-- A chunk stored, sent through the squeezed slices and landed reads back as stored. -/
theorem readAt_land_store (M M' : Memref sig .tc .vmem S8x64x512 .bf16) (k : Fin 8) (f : M.view.ty.Contents (Elt F))
    (f' : M'.view.ty.Contents (Elt F)) (v : Vec F S1x64x512 .bf16) :
    M.view.readAt (Elt F) (rk k).toLoadRect
        ((sl M k).view.write (Elt F) f ((sl M' k).view.read (Elt F) ((M'.access (rk k)).write (Elt F) f' v Finset.univ)) Finset.univ) = v :=
  (readAt_land M k f _).trans <|
    (congrArg (fun u => shapeCast S1x64x512 (shapeCast S64x512 u shapeCasts_S1x64x512_S64x512) shapeCasts_S64x512_S1x64x512)
      (readAt_store M' k f' v)).trans (shapeCast_shapeCast v _ _)

/-! ## The chain of contents, chunk by chunk -/

section Chain

variable (m : (ℓ : Loc nD τ sig) → Buf (Elt F) ℓ) (ρ : Dev nD → PrngReg)

/-- Rows `64 k ..` of the device's own half of its block, as loaded. -/
def X1 (c : Dev nD) (k : Fin 8) : Vec F S64x512 .f32 := xM.view.readAt (Elt F) (rx1 c k).toLoadRect (xstg m ρ c)

theorem readA1 (c : Dev nD) (k : Fin 8) : aM.view.readAt (Elt F) (rk k).toLoadRect (A1 m ρ c k) = a1 m ρ c k :=
  readAt_store aM k _ _

theorem readB1 (c : Dev nD) (k : Fin 8) : bM.view.readAt (Elt F) (rk k).toLoadRect (B1 m ρ c k) = a1 m ρ (yn c) k :=
  readAt_land_store bM aM k _ _ _

theorem a2_eq (c : Dev nD) (k : Fin 8) : a2 m ρ c k = k0_pay10 (a1 m ρ c k) (a1 m ρ (yn c) k) := by
  unfold a2; rw [readA1, readB1]

theorem readP1 (c : Dev nD) (k : Fin 8) : pM.view.readAt (Elt F) (rk k).toLoadRect (P1 m ρ c k) = a2 m ρ c k :=
  readAt_store pM k _ _

theorem readQ1 (c : Dev nD) (k : Fin 8) : qM.view.readAt (Elt F) (rk k).toLoadRect (Q1 m ρ c k) = a2 m ρ (xn c) k :=
  readAt_land_store qM pM k _ _ _

theorem o1_eq (c : Dev nD) (k : Fin 8) : o1 m ρ c k = k0_pay11 (a2 m ρ c k) := by
  unfold o1; rw [readP1]

/-- What a device stores into the other half is what its row mate stores into its own. -/
theorem o2_eq (c : Dev nD) (k : Fin 8) : o2 m ρ c k = o1 m ρ (xn c) k := by
  unfold o2; rw [readQ1, o1_eq]

/-- A device's column sum of chunk `k`: the two devices' rows, each rounded, added. -/
theorem o1_closed (c : Dev nD) (k : Fin 8) :
    o1 m ρ c k = addf (truncf .bf16 (X1 m ρ c k) bitsLt_bf16_f32) (truncf .bf16 (X1 m ρ (yn c) k) bitsLt_bf16_f32) := by
  rw [o1_eq, a2_eq]
  unfold k0_pay11 k0_pay10 a1 k0_pay1 X1
  dsimp only
  simp only [shapeCast_shapeCast, shapeCast_self]

end Chain

/-! ## Where the sixteen pieces lie -/

theorem half_le : ∀ c : Dev nD, c.val / 2 ≤ 1 := by decide
theorem yn_half : ∀ c : Dev nD, (yn c).val / 2 = c.val / 2 := by decide
theorem xn_half : ∀ c : Dev nD, (xn c).val / 2 = 1 - c.val / 2 := by decide

theorem rx1_emb0 (c : Dev nD) (k : Fin 8) (x : S64x512.Idx) :
    ((rx1 c k).emb x 0).val = 512 * (c.val / 2) + 64 * k.val + (x 0).val := by
  rw [Rect.emb_apply]
  show k0_off1 c (BitVec.ofNat 32 (64 * k.val)) 0 + 1 * (x 0).val = _
  rw [k0_off1_eq, Nat.one_mul]; rfl

theorem rx1_emb1 (c : Dev nD) (k : Fin 8) (x : S64x512.Idx) : ((rx1 c k).emb x 1).val = (x 1).val := by
  rw [Rect.emb_apply]
  show k0_off1 c (BitVec.ofNat 32 (64 * k.val)) 1 + 1 * (x 1).val = _
  rw [k0_off1_eq, Nat.one_mul]; exact Nat.zero_add _

theorem rx2_emb0 (c : Dev nD) (k : Fin 8) (x : S64x512.Idx) :
    ((rx2 c k).emb x 0).val = (64 * k.val + 512) - 512 * (c.val / 2) + (x 0).val := by
  rw [Rect.emb_apply]
  show k0_off2 c (BitVec.ofNat 32 (64 * k.val)) 0 + 1 * (x 0).val = _
  rw [k0_off2_eq, Nat.one_mul]; rfl

theorem rx2_emb1 (c : Dev nD) (k : Fin 8) (x : S64x512.Idx) : ((rx2 c k).emb x 1).val = (x 1).val := by
  rw [Rect.emb_apply]
  show k0_off2 c (BitVec.ofNat 32 (64 * k.val)) 1 + 1 * (x 1).val = _
  rw [k0_off2_eq, Nat.one_mul]; exact Nat.zero_add _

/-- Devices in one row of the mesh cut their own half at the same rows. -/
theorem rx1_emb_congr (c c' : Dev nD) (h : c'.val / 2 = c.val / 2) (k : Fin 8) (x : S64x512.Idx) :
    (rx1 c' k).emb x = (rx1 c k).emb x :=
  Shape.idx_ext₂ (by rw [rx1_emb0, rx1_emb0, h]) (by rw [rx1_emb1, rx1_emb1])

/-- A device's other half is its row mate's own half. -/
theorem rx2_emb_eq (c : Dev nD) (k : Fin 8) (x : S64x512.Idx) : (rx2 c k).emb x = (rx1 (xn c) k).emb x :=
  Shape.idx_ext₂ (by rw [rx2_emb0, rx1_emb0, xn_half]; have := half_le c; omega) (by rw [rx2_emb1, rx1_emb1])

section Cover

variable (m : (ℓ : Loc nD τ sig) → Buf (Elt F) ℓ) (ρ : Dev nD → PrngReg)

/-- The sixteen pieces cover the result's shape: a row lies in chunk `(r % 512) / 64` of its half. -/
theorem cover (c : Dev nD) (y : S1024x512.Idx) : ∃ p ∈ outPieces m ρ c, y ∈ p.1.set := by
  have h0 : (y 0).val < 1024 := (y 0).isLt
  have h1 : (y 1).val < 512 := (y 1).isLt
  have hc := half_le c
  have hk : (y 0).val % 512 / 64 < 8 := by omega
  by_cases h : (y 0).val / 512 = c.val / 2
  · refine ⟨⟨rx1 c ⟨_, hk⟩, o1 m ρ c ⟨_, hk⟩⟩, ?_, ?_⟩
    · unfold outPieces
      exact List.mem_append_right _ (List.mem_reverse.mpr (List.mem_map.mpr ⟨_, List.mem_finRange _, rfl⟩))
    · refine (Rect.mem_set_unit (inb := k0_off1_inb c ⟨_, hk⟩)).mpr fun a => ?_
      rw [k0_off1_eq]
      match a with
      | ⟨0, _⟩ =>
        show 512 * (c.val / 2) + 64 * ((y 0).val % 512 / 64) ≤ (y 0).val
          ∧ (y 0).val < 512 * (c.val / 2) + 64 * ((y 0).val % 512 / 64) + 64
        omega
      | ⟨1, _⟩ => show 0 ≤ (y 1).val ∧ (y 1).val < 0 + 512; omega
  · refine ⟨⟨rx2 c ⟨_, hk⟩, o2 m ρ c ⟨_, hk⟩⟩, ?_, ?_⟩
    · unfold outPieces
      exact List.mem_append_left _ (List.mem_reverse.mpr (List.mem_map.mpr ⟨_, List.mem_finRange _, rfl⟩))
    · refine (Rect.mem_set_unit (inb := k0_off2_inb c ⟨_, hk⟩)).mpr fun a => ?_
      rw [k0_off2_eq]
      match a with
      | ⟨0, _⟩ =>
        show (64 * ((y 0).val % 512 / 64) + 512) - 512 * (c.val / 2) ≤ (y 0).val
          ∧ (y 0).val < (64 * ((y 0).val % 512 / 64) + 512) - 512 * (c.val / 2) + 64
        omega
      | ⟨1, _⟩ => show 0 ≤ (y 1).val ∧ (y 1).val < 0 + 512; omega

end Cover

/-! ## Writes through a whole buffer -/

omit [FloatOps F] in
/-- Writes that cover a whole buffer leave contents that do not depend on what it held. -/
theorem writes_whole_eq_of_cover {κ : Kind} (b : Ref sig κ) (f f' : b.ty.Contents (Elt F))
    (L : List (View.Piece (Elt F) b.ty.shape b.ty.elt)) (h : ∀ y, ∃ p ∈ L, y ∈ p.1.set) :
    (View.whole b).writes (Elt F) f L = (View.whole b).writes (Elt F) f' L :=
  funext fun y => View.read_writes_apply_eq (View.whole b) f (View.whole b) f' y L (h y)

omit [FloatOps F] in
/-- After writes whose pieces all agree with one function of the index, a whole buffer holds that function wherever a
    piece covers. -/
theorem writes_whole_apply_of_pieces {κ : Kind} (b : Ref sig κ) (f : b.ty.Contents (Elt F)) (G : b.ty.shape.Idx → Elt F b.ty.elt)
    (L : List (View.Piece (Elt F) b.ty.shape b.ty.elt)) (hG : ∀ p ∈ L, ∀ x : p.1.shape.Idx, p.2 x = G (p.1.emb x))
    (y : b.ty.shape.Idx) (hc : ∃ p ∈ L, y ∈ p.1.set) : (View.whole b).writes (Elt F) f L y = G y :=
  View.read_writes_apply_of_pieces (View.whole b) f G L hG y hc

omit [FloatOps F] in
/-- Pieces listed by a family: each agrees with a function of the index if every member of the family does. -/
theorem forall_mem_pieces {s : Shape} {e : EltTy} (G : s.Idx → Elt F e) {ι : Type} (l : List ι) (r : ι → Rect s)
    (w : (i : ι) → (r i).shape.Idx → Elt F e) (h : ∀ i, ∀ x, w i x = G ((r i).emb x)) :
    ∀ p ∈ (l.map fun i => (⟨r i, w i⟩ : View.Piece (Elt F) s e)).reverse, ∀ x : p.1.shape.Idx, p.2 x = G (p.1.emb x) := by
  intro p hp
  obtain ⟨i, -, rfl⟩ := List.mem_map.mp (List.mem_reverse.mp hp)
  exact h i

/-! ## The ideal instance -/

section Ideal

/-- A device's argument block, as a function of the row and the column. -/
abbrev blk (m : (ℓ : Loc nD τ sig) → Buf (Elt Ideal) ℓ) (c : Dev nD) : S1024x512.Idx → EReal :=
  m ((c : Thread nD τ).loc main_arg0)

variable (m : (ℓ : Loc nD τ sig) → Buf (Elt Ideal) ℓ) (ρ : Dev nD → PrngReg)

/-- The rows a device loads are its argument block's. -/
theorem X1_apply (c : Dev nD) (k : Fin 8) (x : S64x512.Idx) :
    (X1 (F := Ideal) m ρ c k x : EReal) = blk m c ((rx1 c k).emb x) :=
  congrFun (xstg_eq m ρ c) ((rx1 c k).emb x)

/-- At the ideal instance rounding is the identity: a device's column sum of chunk `k` is the sum of the two blocks' rows. -/
theorem o1_apply (c : Dev nD) (k : Fin 8) (x : S64x512.Idx) :
    (o1 (F := Ideal) m ρ c k x : EReal)
      = blk m c ((rx1 c k).emb x) + blk m (yn c) ((rx1 c k).emb x) := by
  rw [o1_closed]
  show (X1 m ρ c k x : EReal) + (X1 m ρ (yn c) k x : EReal) = _
  rw [X1_apply, X1_apply, rx1_emb_congr c (yn c) (yn_half c)]

/-- The result, row by row: own and column mate on the own half, row mate and its column mate on the other. -/
def G (c : Dev nD) (y : S1024x512.Idx) : EReal :=
  if (y 0).val / 512 = c.val / 2
  then blk m c y + blk m (yn c) y
  else blk m (xn c) y + blk m (yn (xn c)) y

theorem piece1 (c : Dev nD) (k : Fin 8) (x : S64x512.Idx) : (o1 (F := Ideal) m ρ c k x : EReal) = G m c ((rx1 c k).emb x) := by
  have hc := half_le c
  have hx : (x 0).val < 64 := (x 0).isLt
  refine (o1_apply m ρ c k x).trans ?_
  unfold G
  rw [if_pos (by rw [rx1_emb0]; omega)]

theorem piece2 (c : Dev nD) (k : Fin 8) (x : S64x512.Idx) : (o2 (F := Ideal) m ρ c k x : EReal) = G m c ((rx2 c k).emb x) := by
  have hc := half_le c
  have hx : (x 0).val < 64 := (x 0).isLt
  rw [o2_eq]
  refine (o1_apply m ρ (xn c) k x).trans ?_
  rw [← rx2_emb_eq]
  unfold G
  rw [if_neg (by rw [rx2_emb0]; omega)]

/-- Every piece holds the row-by-row result on its rows. -/
theorem pieces_G (c : Dev nD) :
    ∀ p ∈ outPieces (F := Ideal) m ρ c, ∀ x : p.1.shape.Idx, p.2 x = G m c (p.1.emb x) := by
  intro p hp
  rcases List.mem_append.mp hp with hp | hp
  · exact forall_mem_pieces (G m c) (List.finRange 8) (fun k => rx2 c k) (fun k => o2 m ρ c k)
      (fun k x => piece2 m ρ c k x) p hp
  · exact forall_mem_pieces (G m c) (List.finRange 8) (fun k => rx1 c k) (fun k => o1 m ρ c k)
      (fun k x => piece1 m ρ c k x) p hp

end Ideal

end ValueAux

open ValueAux

variable (m : (ℓ : Loc nD τ sig) → Buf (Elt F) ℓ) (ρ : Dev nD → PrngReg)

/-- The sixteen stores cover the staging buffer: over any prior contents they leave the same. -/
theorem outAt_base (c : Dev nD) (f : (cc0_stg1_0 : Ref sig .tc).ty.Contents (Elt F)) :
    oM.view.writes (Elt F) f (outPieces m ρ c) = outAt m ρ c :=
  writes_whole_eq_of_cover cc0_stg1_0 f _ (outPieces m ρ c) (cover m ρ c)

/-- Device `c`'s argument block, as a function of the row and the column. -/
abbrev mx (m : (ℓ : Loc nD τ sig) → Buf (Elt Ideal) ℓ) (c : Dev nD) : S1024x512.Idx → EReal :=
  m ((c : Thread nD τ).loc main_arg0)

/-- Row `r` of the result on device `c`, at the ideal instance. -/
theorem out_value (m : (ℓ : Loc nD τ sig) → Buf (Elt Ideal) ℓ) (ρ : Dev nD → PrngReg) (c : Dev nD) (r : Fin 1024) (j : Fin 512) :
    (outAt (F := Ideal) m ρ c (ValueIdx.ix2 r j) : EReal)
      = if r.val / 512 = c.val / 2 then mx m c (ValueIdx.ix2 r j) + mx m (yn c) (ValueIdx.ix2 r j)
        else mx m (xn c) (ValueIdx.ix2 r j) + mx m (yn (xn c)) (ValueIdx.ix2 r j) := by
  unfold outAt
  refine (writes_whole_apply_of_pieces cc0_stg1_0 _ (G m c) (outPieces m ρ c) (pieces_G m ρ c) (ValueIdx.ix2 r j)
    (cover m ρ c (ValueIdx.ix2 r j))).trans ?_
  rfl

end Cert.KernelIdealProof

end

/-- info: 'Cert.KernelIdealProof.outAt_base' depends on axioms: [propext, Classical.choice, Quot.sound] -/
#guard_msgs in #print axioms Cert.KernelIdealProof.outAt_base

/-- info: 'Cert.KernelIdealProof.out_value' depends on axioms: [propext, Classical.choice, Quot.sound] -/
#guard_msgs in #print axioms Cert.KernelIdealProof.out_value
-- ==== Proof.Bridge.lean ====
import proofs.«900138_g7700000000000139_dist_ar_v7x_xy2x2_y_m1024_n512_bf16_1_alg».proof.Proof.Value
import proofs.«900138_g7700000000000139_dist_ar_v7x_xy2x2_y_m1024_n512_bf16_1_alg».proof.Proof.Gen.ReferenceIdeal.Read
import Idealize.ShloMosaic.Lib.Layout
import Idealize.ShloMosaic.Lib.ValueIdx
import Idealize.ShloMosaic.PureOps.Ideal.Laws
import Mathlib.Algebra.BigOperators.Fin

/-! The kernel's result against the reference's: each device's argument block is its block of one
2048 × 512 array, device `c` holding rows `1024 (c % 2) ..`; every device's result is the sum of the
array's two blocks, which is what the reference computes. -/

noncomputable section

namespace Cert.KernelIdealProof

open Cert.KernelIdeal Cert.KernelIdeal.Gen

open Idealize.ShloMosaic
open Idealize.ShloMosaic.TcCoe
open Idealize.SL Idealize.SL.Sem

namespace BridgeAux

/-- Row `r` of block `b` of the whole array. -/
def half (X : (⟨Cert.ReferenceIdeal.S2048x512, .f32⟩ : BufTy).Contents (Elt Ideal)) (b : Fin 2) (r : Fin 1024) (j : Fin 512) : EReal :=
  X (ValueIdx.ix2 ⟨1024 * b.val + r.val, by have := b.isLt; have := r.isLt; omega⟩ j)

theorem par_lt (c : Dev nD) : c.val % 2 < 2 := Nat.mod_lt _ (by decide)

/-- A device's block coordinate along the rows is its second mesh coordinate. -/
theorem meshLin_rows : ∀ c : Dev nD, Layout.meshLin [2, 2] c.val [1] = c.val % 2 := by decide

theorem yn_par : ∀ c : Dev nD, (yn c).val % 2 = 1 - c.val % 2 := by decide
theorem xn_par : ∀ c : Dev nD, (xn c).val % 2 = c.val % 2 := by decide

section

variable (m : (ℓ : Loc nD τ sig) → Buf (Elt Ideal) ℓ)
  (X : (⟨Cert.ReferenceIdeal.S2048x512, .f32⟩ : BufTy).Contents (Elt Ideal))
  (hagree : ∀ c : Dev nD, m ((c.tc : Thread nD τ).loc main_arg0)
      = Layout.blockN ⟨2, ![1024, 512]⟩ ⟨2, ![2048, 512]⟩ (Layout.meshBlock [2, 2] ![[1], []] c) X)

include hagree in
/-- A device's argument block is its block of the whole array. -/
theorem mx_apply (c : Dev nD) (r : Fin 1024) (j : Fin 512) :
    mx m c (ValueIdx.ix2 r j) = half X ⟨c.val % 2, par_lt c⟩ r j := by
  refine (congrFun (hagree c) (ValueIdx.ix2 r j)).trans ?_
  unfold half
  refine congrArg X (funext fun a => Fin.ext ?_)
  rw [Layout.TilesN.idx_val]
  match a with
  | ⟨0, _⟩ =>
    show Layout.meshLin [2, 2] c.val [1] * 1024 + r.val = 1024 * (c.val % 2) + r.val
    rw [meshLin_rows]; omega
  | ⟨1, _⟩ =>
    show 0 * 512 + j.val = j.val
    omega

end

/-- The reference's result at a row: the two blocks' rows added. -/
theorem ref_apply (X : (⟨Cert.ReferenceIdeal.S2048x512, .f32⟩ : BufTy).Contents (Elt Ideal)) (r : Fin 1024) (j : Fin 512) :
    (Cert.ReferenceIdeal.Read.val_main_v2 (F := Ideal) X (ValueIdx.ix2 r j) : EReal) = half X 0 r j + half X 1 r j := by
  show (Cert.ReferenceIdeal.Read.val_main_v1 (F := Ideal) X (ValueIdx.ix2 r j) : EReal) = _
  rw [Cert.ReferenceIdeal.Read.val_main_v1_apply, Fin.sum_univ_two, Cert.ReferenceIdeal.Read.val_main_cst_apply,
    Cert.ReferenceIdeal.Read.val_main_v0_apply, Cert.ReferenceIdeal.Read.val_main_v0_apply]
  show (Ideal.ofBits .f32 0x00000000#32 : EReal) + _ = _
  rw [Ideal.ofBits_zero_f32, zero_add]
  have hr := r.isLt
  have hj := j.isLt
  unfold half
  refine congrArg₂ (· + ·) (congrArg X (funext fun a => Fin.ext ?_)) (congrArg X (funext fun a => Fin.ext ?_))
  · match a with
    | ⟨0, _⟩ => show ((0 * 1024 + r.val) * 512 + j.val) / 512 = 1024 * 0 + r.val; omega
    | ⟨1, _⟩ => show ((0 * 1024 + r.val) * 512 + j.val) % 512 = j.val; omega
  · match a with
    | ⟨0, _⟩ => show ((1 * 1024 + r.val) * 512 + j.val) / 512 = 1024 * 1 + r.val; omega
    | ⟨1, _⟩ => show ((1 * 1024 + r.val) * 512 + j.val) % 512 = j.val; omega

/-- Two blocks of opposite parity, in either order, are the two blocks. -/
theorem half_pair (X : (⟨Cert.ReferenceIdeal.S2048x512, .f32⟩ : BufTy).Contents (Elt Ideal)) (b b' : Fin 2) (h : b'.val = 1 - b.val)
    (r : Fin 1024) (j : Fin 512) : half X b r j + half X b' r j = half X 0 r j + half X 1 r j := by
  have hb : b.val = 0 ∨ b.val = 1 := by have := b.isLt; omega
  rcases hb with h0 | h1
  · have e : b = 0 := Fin.ext h0
    have e' : b' = 1 := Fin.ext (by rw [h, h0]; rfl)
    rw [e, e']
  · have e : b = 1 := Fin.ext h1
    have e' : b' = 0 := Fin.ext (by rw [h, h1]; rfl)
    rw [e, e', add_comm]

end BridgeAux

open BridgeAux

/-- Every device's result is the reference's, given that its argument block is its block of the reference's argument. -/
theorem out_eq_ref (m : (ℓ : Loc nD τ sig) → Buf (Elt Ideal) ℓ) (ρ : Dev nD → PrngReg)
    (X : (⟨Cert.ReferenceIdeal.S2048x512, .f32⟩ : BufTy).Contents (Elt Ideal))
    (hagree : ∀ c : Dev nD, m ((c.tc : Thread nD τ).loc main_arg0)
        = Layout.blockN ⟨2, ![1024, 512]⟩ ⟨2, ![2048, 512]⟩ (Layout.meshBlock [2, 2] ![[1], []] c) X)
    (c : Dev nD) :
    (outAt (F := Ideal) m ρ c : S1024x512.Idx → EReal) = Cert.ReferenceIdeal.Read.val_main_v2 (F := Ideal) X := by
  funext i
  obtain ⟨r, j, rfl⟩ : ∃ (r : Fin 1024) (j : Fin 512), i = ValueIdx.ix2 r j := ⟨i 0, i 1, ValueIdx.eq_ix2 i⟩
  refine (out_value m ρ c r j).trans ?_
  refine Eq.trans ?_ (ref_apply X r j).symm
  split
  · rw [mx_apply m X hagree c, mx_apply m X hagree (yn c)]
    exact half_pair X _ _ (yn_par c) _ _
  · rw [mx_apply m X hagree (xn c), mx_apply m X hagree (yn (xn c))]
    exact half_pair X _ _ (yn_par (xn c)) _ _

end Cert.KernelIdealProof

end

/-- info: 'Cert.KernelIdealProof.out_eq_ref' depends on axioms: [propext, Classical.choice, Quot.sound] -/
#guard_msgs in #print axioms Cert.KernelIdealProof.out_eq_ref
-- ==== Proof.K.Proto.lean ====
import proofs.«900138_g7700000000000139_dist_ar_v7x_xy2x2_y_m1024_n512_bf16_1_alg».proof.Proof.Gen.Kernel
import proofs.«900138_g7700000000000139_dist_ar_v7x_xy2x2_y_m1024_n512_bf16_1_alg».proof.Proof.Gen.Kernel.Skeleton
import proofs.«900138_g7700000000000139_dist_ar_v7x_xy2x2_y_m1024_n512_bf16_1_alg».proof.Proof.Gen.Kernel.Launch
import proofs.«900138_g7700000000000139_dist_ar_v7x_xy2x2_y_m1024_n512_bf16_1_alg».proof.Proof.Gen.Kernel.Points
import Idealize.ShloMosaic.Lib.Pipeline.Launch
import Idealize.ShloMosaic.Lib.Pipeline.Kit
import Idealize.ShloMosaic.Lib.Tactic

/-! The all-reduce over the 2 × 2 mesh: devices, chunk views, semaphore cells and the contents every
buffer holds at each stage, as pure terms of the devices' argument blocks.

Device `c` has mesh coordinates `(c / 2, c % 2)`.  Its column mate `yn c` differs in the second
coordinate, its row mate `xn c` in the first.  The rows of the block are cut in two halves of eight
chunks of 64 rows; chunk `k` of the device's own half is sent to the column mate, summed with what
arrives from it, and the sum is sent to the row mate, whose own half is the other one. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's copy beside the protocol's (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The mesh -/

/-- The column mate: the other value of the second mesh coordinate. -/
def yn (c : Dev nD) : Dev nD := ⟨(2 * (c.val / 2) + 1) - (c.val % 2), by have := c.isLt; revert this; generalize c.val = v; decide +revert⟩
/-- The row mate: the other value of the first mesh coordinate. -/
def xn (c : Dev nD) : Dev nD := ⟨((c.val % 2) + 2) - 2 * (c.val / 2), by have := c.isLt; revert this; generalize c.val = v; decide +revert⟩

theorem yn_yn (c : Dev nD) : yn (yn c) = c := by revert c; decide
theorem xn_xn (c : Dev nD) : xn (xn c) = c := by revert c; decide
theorem yn_xn (c : Dev nD) : yn (xn c) = xn (yn c) := by revert c; decide

def ynE : Dev nD ≃ Dev nD := ⟨yn, yn, yn_yn, yn_yn⟩
def xnE : Dev nD ≃ Dev nD := ⟨xn, xn, xn_xn, xn_xn⟩

theorem dev1_eq (c : Dev nD) : (⟨k0_dev1 c, k0_dev1_lt c⟩ : Dev nD) = yn c := Fin.ext (k0_dev1_eq c)
theorem dev2_eq (c : Dev nD) : (⟨k0_dev2 c, k0_dev2_lt c⟩ : Dev nD) = xn c := Fin.ext (k0_dev2_eq c)
theorem dev3_eq (c : Dev nD) : (⟨k0_dev3 c, k0_dev3_lt c⟩ : Dev nD) = yn c := Fin.ext (k0_dev3_eq c)
theorem dev4_eq (c : Dev nD) : (⟨k0_dev4 c, k0_dev4_lt c⟩ : Dev nD) = yn c := Fin.ext (k0_dev4_eq c)
theorem dev5_eq (c : Dev nD) : (⟨k0_dev5 c, k0_dev5_lt c⟩ : Dev nD) = yn c := Fin.ext (k0_dev5_eq c)
theorem dev6_eq (c : Dev nD) : (⟨k0_dev6 c, k0_dev6_lt c⟩ : Dev nD) = yn c := Fin.ext (k0_dev6_eq c)
theorem dev7_eq (c : Dev nD) : (⟨k0_dev7 c, k0_dev7_lt c⟩ : Dev nD) = yn c := Fin.ext (k0_dev7_eq c)
theorem dev8_eq (c : Dev nD) : (⟨k0_dev8 c, k0_dev8_lt c⟩ : Dev nD) = yn c := Fin.ext (k0_dev8_eq c)
theorem dev9_eq (c : Dev nD) : (⟨k0_dev9 c, k0_dev9_lt c⟩ : Dev nD) = yn c := Fin.ext (k0_dev9_eq c)
theorem dev10_eq (c : Dev nD) : (⟨k0_dev10 c, k0_dev10_lt c⟩ : Dev nD) = yn c := Fin.ext (k0_dev10_eq c)
theorem dev11_eq (c : Dev nD) : (⟨k0_dev11 c, k0_dev11_lt c⟩ : Dev nD) = xn c := Fin.ext (k0_dev11_eq c)
theorem dev12_eq (c : Dev nD) : (⟨k0_dev12 c, k0_dev12_lt c⟩ : Dev nD) = xn c := Fin.ext (k0_dev12_eq c)
theorem dev13_eq (c : Dev nD) : (⟨k0_dev13 c, k0_dev13_lt c⟩ : Dev nD) = xn c := Fin.ext (k0_dev13_eq c)
theorem dev14_eq (c : Dev nD) : (⟨k0_dev14 c, k0_dev14_lt c⟩ : Dev nD) = xn c := Fin.ext (k0_dev14_eq c)
theorem dev15_eq (c : Dev nD) : (⟨k0_dev15 c, k0_dev15_lt c⟩ : Dev nD) = xn c := Fin.ext (k0_dev15_eq c)
theorem dev16_eq (c : Dev nD) : (⟨k0_dev16 c, k0_dev16_lt c⟩ : Dev nD) = xn c := Fin.ext (k0_dev16_eq c)
theorem dev17_eq (c : Dev nD) : (⟨k0_dev17 c, k0_dev17_lt c⟩ : Dev nD) = xn c := Fin.ext (k0_dev17_eq c)
theorem dev18_eq (c : Dev nD) : (⟨k0_dev18 c, k0_dev18_lt c⟩ : Dev nD) = xn c := Fin.ext (k0_dev18_eq c)

/-! ## Memrefs, chunk views, cells -/

abbrev xM : Memref sig .tc .vmem S1024x512 .f32 := Memref.whole cc0_stg0_0
abbrev oM : Memref sig .tc .vmem S1024x512 .bf16 := Memref.whole cc0_stg1_0
/-- The four chunked scratch buffers: what is sent down the column, what arrives from it, the column
    sums sent along the row, what arrives from the row mate. -/
abbrev aM : Memref sig .tc .vmem S8x64x512 .bf16 := Memref.whole cc0_scratch0
abbrev bM : Memref sig .tc .vmem S8x64x512 .bf16 := Memref.whole cc0_scratch1
abbrev pM : Memref sig .tc .vmem S8x64x512 .bf16 := Memref.whole cc0_scratch2
abbrev qM : Memref sig .tc .vmem S8x64x512 .bf16 := Memref.whole cc0_scratch3

theorem inbk (k : Fin 8) : ∀ a, (![k.val, 0, 0] : Fin 3 → Nat) a + S1x64x512.size a ≤ S8x64x512.size a := by revert k; decide
theorem inb1 (k : Fin 8) : ∀ a, (![k.val] : Fin 1 → Nat) a + S1.size a ≤ S8.size a := by revert k; decide

/-- Chunk `k` of a chunked buffer, as a rectangle. -/
abbrev rk (k : Fin 8) : Rect S8x64x512 := Rect.unit (s := S8x64x512) ![k.val, 0, 0] S1x64x512.size (inbk k)
/-- Chunk `k` as the 64 × 512 memref a transfer names. -/
abbrev sl (M : Memref sig .tc .vmem S8x64x512 .bf16) (k : Fin 8) : Memref sig .tc .vmem S64x512 .bf16 :=
  (M.slice (rk k) (fun _ => rfl)).squeeze S64x512 squeezes_S1x64x512_S64x512
/-- Semaphore `k` of an array of eight. -/
abbrev semk (A : DmaSems sig S8) (k : Fin 8) : DmaSem sig :=
  ((A.slice (Rect.unit (s := S8) ![k.val] S1.size (inb1 k))).squeeze S_ squeezes_S1_S_).sem

theorem semk4 (k : Fin 8) : (semk cc0_scratch4 k).val = 2 + k.val := by revert k; decide
theorem semk5 (k : Fin 8) : (semk cc0_scratch5 k).val = 10 + k.val := by revert k; decide
theorem semk6 (k : Fin 8) : (semk cc0_scratch6 k).val = 18 + k.val := by revert k; decide
theorem semk7 (k : Fin 8) : (semk cc0_scratch7 k).val = 26 + k.val := by revert k; decide

abbrev barS : Sem sig := (SemArray.scalar (sig.barrier 0 rfl) : Sems sig S_).sem

abbrev barC (c : Dev nD) : GSem nD τ sig := ((c : Thread nD τ), .reg barS)
abbrev s1C (c : Dev nD) (k : Fin 8) : GSem nD τ sig := ((c : Thread nD τ), .dma (semk cc0_scratch4 k))
abbrev r1C (c : Dev nD) (k : Fin 8) : GSem nD τ sig := ((c : Thread nD τ), .dma (semk cc0_scratch5 k))
abbrev s2C (c : Dev nD) (k : Fin 8) : GSem nD τ sig := ((c : Thread nD τ), .dma (semk cc0_scratch6 k))
abbrev r2C (c : Dev nD) (k : Fin 8) : GSem nD τ sig := ((c : Thread nD τ), .dma (semk cc0_scratch7 k))

/-- What one chunk's transfer credits each of its two cells. -/
abbrev NN : ℕ := (sl bM 0).view.dmaCredit
theorem NN_pos : 0 < NN := View.dmaCredit_pos _ (by decide)
theorem credit_a (k : Fin 8) : (sl aM k).view.dmaCredit = NN := by revert k; decide
theorem credit_b (k : Fin 8) : (sl bM k).view.dmaCredit = NN := by revert k; decide
theorem credit_p (k : Fin 8) : (sl pM k).view.dmaCredit = NN := by revert k; decide
theorem credit_q (k : Fin 8) : (sl qM k).view.dmaCredit = NN := by revert k; decide

/-! ## Contents

Every buffer's contents at every stage, as a pure term of the argument blocks.  A chunked buffer is held
chunk by chunk; the canonical contents of chunk `k` are the chunk's payload written over the buffer's
contents at launch (off the chunk the contents are irrelevant to the chunk's points-to). -/

/-- Device `c`'s block of `x`, as staged (the launch has one grid point, the block is the whole array). -/
def xstg (c : Dev nD) : (cc0_stg0_0 : Ref sig .tc).ty.Contents (Elt F) :=
  (win0_0.blk (0 : Fin 1)).view.read (Elt F) ((s₀ m ρ).mem ((c : Thread nD τ).loc main_arg0))

/-- Rows `64 k ..` of the device's own half of the block, and of the other half. -/
abbrev rx1 (c : Dev nD) (k : Fin 8) : Rect S1024x512 :=
  Rect.unit (s := S1024x512) (k0_off1 c (BitVec.ofNat 32 (64 * k.val))) S64x512.size (k0_off1_inb c k)
abbrev rx2 (c : Dev nD) (k : Fin 8) : Rect S1024x512 :=
  Rect.unit (s := S1024x512) (k0_off2 c (BitVec.ofNat 32 (64 * k.val))) S64x512.size (k0_off2_inb c k)

/-- Chunk `k` of the device's own half, rounded to the transfer's element type. -/
def a1 (c : Dev nD) (k : Fin 8) : FVec F S1x64x512 .bf16 :=
  k0_pay1 (xM.view.readAt (Elt F) (rx1 c k).toLoadRect (xstg m ρ c))

/-- The send buffer of the column exchange with chunk `k` stored. -/
def A1 (c : Dev nD) (k : Fin 8) : Buf (Elt F) (aM.view.loc (c : Thread nD τ)) :=
  (aM.access (rk k)).write (Elt F) (m ((c : Thread nD τ).loc cc0_scratch0)) (a1 m ρ c k) Finset.univ

/-- The receive buffer of the column exchange with the column mate's chunk `k` landed. -/
def B1 (c : Dev nD) (k : Fin 8) : Buf (Elt F) (bM.view.loc (c : Thread nD τ)) :=
  (sl bM k).view.write (Elt F) (m ((c : Thread nD τ).loc cc0_scratch1)) ((sl aM k).view.read (Elt F) (A1 m ρ (yn c) k)) Finset.univ

/-- The column sum of chunk `k`: the device's own chunk plus the column mate's. -/
def a2 (c : Dev nD) (k : Fin 8) : FVec F S1x64x512 .bf16 :=
  k0_pay10 (aM.view.readAt (Elt F) (rk k).toLoadRect (A1 m ρ c k)) (bM.view.readAt (Elt F) (rk k).toLoadRect (B1 m ρ c k))

/-- The send buffer of the row exchange with chunk `k`'s column sum stored. -/
def P1 (c : Dev nD) (k : Fin 8) : Buf (Elt F) (pM.view.loc (c : Thread nD τ)) :=
  (pM.access (rk k)).write (Elt F) (m ((c : Thread nD τ).loc cc0_scratch2)) (a2 m ρ c k) Finset.univ

/-- The receive buffer of the row exchange with the row mate's column sum of chunk `k` landed. -/
def Q1 (c : Dev nD) (k : Fin 8) : Buf (Elt F) (qM.view.loc (c : Thread nD τ)) :=
  (sl qM k).view.write (Elt F) (m ((c : Thread nD τ).loc cc0_scratch3)) ((sl pM k).view.read (Elt F) (P1 m ρ (xn c) k)) Finset.univ

/-- What is stored into the result: the device's own column sums, and the row mate's. -/
def o1 (c : Dev nD) (k : Fin 8) : FVec F S64x512 .bf16 := k0_pay11 (pM.view.readAt (Elt F) (rk k).toLoadRect (P1 m ρ c k))
def o2 (c : Dev nD) (k : Fin 8) : FVec F S64x512 .bf16 := k0_pay11 (qM.view.readAt (Elt F) (rk k).toLoadRect (Q1 m ρ c k))

/-- The sixteen stores into the result's staging buffer, the last first. -/
def outPieces (c : Dev nD) : List (View.Piece (Elt F) S1024x512 .bf16) :=
  ((List.finRange 8).map fun k => (⟨rx2 c k, o2 m ρ c k⟩ : View.Piece (Elt F) S1024x512 .bf16)).reverse
    ++ ((List.finRange 8).map fun k => (⟨rx1 c k, o1 m ρ c k⟩ : View.Piece (Elt F) S1024x512 .bf16)).reverse

omit [FloatOps F] in
/-- An unmasked write leaves, on the view's own elements, contents that do not depend on what was there. -/
theorem write_univ_congr {κ : Kind} {sp : Space} {s : Shape} {e : EltTy} (v : View sig κ sp s e) (f f' : v.ty.Contents (Elt F)) (w : s.Idx → Elt F e) :
    ∀ i ∈ v.set, v.write (Elt F) f w Finset.univ i = v.write (Elt F) f' w Finset.univ i := by
  intro i hi
  obtain ⟨x, -, rfl⟩ := Finset.mem_map.mp hi
  rw [View.write_emb_of_mem _ _ (Finset.mem_univ _), View.write_emb_of_mem _ _ (Finset.mem_univ _)]

/-- Share `q` of chunk `k` of a chunked buffer on device `c`, holding `f` there. -/
def chunkPts (M : Memref sig .tc .vmem S8x64x512 .bf16) (c : Dev nD) (k : Fin 8) (q : PosShare TreeShare)
    (f : Buf (Elt F) ((sl M k).view.loc (c : Thread nD τ))) : sProp 𝕄 :=
  (sl M k).view.loc (c : Thread nD τ) ↦[(sl M k).view.set]{q} f

omit [FloatOps F] in
instance chunkPts_storable (M) (c : Dev nD) (k : Fin 8) (q) (f) : BI.Storable (upEmb : UEmb _ 𝕄) (chunkPts (F := F) M c k q f) := by
  unfold chunkPts; infer_instance

/-- A whole chunked buffer of device `c` at some contents. -/
def wholePts (M : Memref sig .tc .vmem S8x64x512 .bf16) (c : Dev nD) : sProp 𝕄 :=
  iprop(∃ f : Buf (Elt F) (M.view.loc (c : Thread nD τ)), M.view.loc (c : Thread nD τ) ↦[M.view.set]{fullShare} f)

omit [FloatOps F] in
instance wholePts_storable (M) (c : Dev nD) : BI.Storable (upEmb : UEmb _ 𝕄) (wholePts (F := F) M c) := by
  unfold wholePts; infer_instance

/-! ## The schedule

One round.  A device's barrier cell has two duties of one unit: `false`, paid by its column mate and
handing over the mate's column-receive buffer, and `true`, paid by its row mate and handing over the
mate's row-receive buffer.  Each of the 32 transfer cells has one duty of the chunk's credit: a send cell
returns the half share of the source chunk the transfer read, a receive cell hands over the chunk landed. -/

/-- The four kinds of transfer cell's payloads, for chunk `k` on device `c`. -/
def s1Pay (c : Dev nD) (k : Fin 8) : sProp 𝕄 := chunkPts aM c k fullShare.left (A1 m ρ c k)
def r1Pay (c : Dev nD) (k : Fin 8) : sProp 𝕄 := chunkPts bM c k fullShare (B1 m ρ c k)
def s2Pay (c : Dev nD) (k : Fin 8) : sProp 𝕄 := chunkPts pM c k fullShare.left (P1 m ρ c k)
def r2Pay (c : Dev nD) (k : Fin 8) : sProp 𝕄 := chunkPts qM c k fullShare (Q1 m ρ c k)

/-- The payload of transfer cell number `n` (the DMA semaphore's index) on device `c`. -/
def dmaPay (c : Dev nD) (n : ℕ) : sProp 𝕄 :=
  if h0 : n < 2 then iprop(emp)
  else if h1 : n < 10 then s1Pay m ρ c ⟨n - 2, by omega⟩
  else if h2 : n < 18 then r1Pay m ρ c ⟨n - 10, by omega⟩
  else if h3 : n < 26 then s2Pay m ρ c ⟨n - 18, by omega⟩
  else if h4 : n < 34 then r2Pay m ρ c ⟨n - 26, by omega⟩
  else iprop(emp)

def Rd : Rounds.Schedule (GSem nD τ sig) Bool 𝕄 where
  duties g r := if r = 0 ∧ g.1.2 = .tc then (match g.2 with | .reg _ => Finset.univ | .dma s => if 2 ≤ s.val then {false} else ∅) else ∅
  unitless _ := False
  amount g _ _ := match g.2 with | .reg _ => 1 | .dma _ => NN
  payload g _ d := match g.2 with
    | .reg _ => if d then wholePts qM (xn g.1.1) else wholePts bM (yn g.1.1)
    | .dma s => dmaPay m ρ g.1.1 s.val
  amount_pos g _ _ _ := by
    rcases g with ⟨t, sm⟩
    cases sm with
    | reg _ => exact Nat.one_pos
    | dma _ => exact NN_pos

omit [FloatOps F] in
instance dmaPay_storable (c : Dev nD) (n : ℕ) : BI.Storable (upEmb : UEmb _ 𝕄) (dmaPay (F := F) m ρ c n) := by
  unfold dmaPay s1Pay r1Pay s2Pay r2Pay
  (repeat' split) <;> infer_instance

instance Rd_payload_storable (g : GSem nD τ sig) (r : ℕ) (d : Bool) :
    BI.Storable (upEmb : UEmb _ 𝕄) ((Rd (F := F) m ρ).payload g r d) := by
  rcases g with ⟨t, sm⟩
  cases sm with
  | reg s => show BI.Storable upEmb (if d then wholePts qM (xn t.1) else wholePts bM (yn t.1)); split <;> infer_instance
  | dma s => show BI.Storable upEmb (dmaPay m ρ t.1 s.val); infer_instance

/-! ## The schedule's tables -/

section Sched
variable (c : Dev nD) (k : Fin 8)

theorem duties_bar : (Rd (F := F) m ρ).duties (barC c) 0 = Finset.univ := by
  dsimp only [Rd]; rw [if_pos ⟨rfl, rfl⟩]
theorem duties_dma (s : DmaSem sig) (hs : 2 ≤ s.val) : (Rd (F := F) m ρ).duties ((c : Thread nD τ), .dma s) 0 = {false} := by
  dsimp only [Rd]; rw [if_pos ⟨rfl, rfl⟩]; exact if_pos hs
theorem duties_s1 : (Rd (F := F) m ρ).duties (s1C c k) 0 = {false} := duties_dma m ρ c _ (by rw [semk4]; omega)
theorem duties_r1 : (Rd (F := F) m ρ).duties (r1C c k) 0 = {false} := duties_dma m ρ c _ (by rw [semk5]; omega)
theorem duties_s2 : (Rd (F := F) m ρ).duties (s2C c k) 0 = {false} := duties_dma m ρ c _ (by rw [semk6]; omega)
theorem duties_r2 : (Rd (F := F) m ρ).duties (r2C c k) 0 = {false} := duties_dma m ρ c _ (by rw [semk7]; omega)
theorem duties_later (g : GSem nD τ sig) : ∀ r, 1 ≤ r → (Rd (F := F) m ρ).duties g r = ∅ :=
  fun r hr => by dsimp only [Rd]; rw [if_neg fun h => by omega]

theorem amount_bar (d : Bool) : (Rd (F := F) m ρ).amount (barC c) 0 d = 1 := rfl
theorem amount_dma (s : DmaSem sig) (d : Bool) : (Rd (F := F) m ρ).amount ((c : Thread nD τ), .dma s) 0 d = NN := rfl

theorem expect_bar : (Rd (F := F) m ρ).expect (barC c) 0 = 2 := by
  unfold Schedule.expect Schedule.amountOf
  rw [duties_bar, Finset.sum_congr rfl fun d _ => amount_bar m ρ c d, Finset.sum_const, Finset.card_univ, Fintype.card_bool, smul_eq_mul]
theorem expect_dma (s : DmaSem sig) (hs : 2 ≤ s.val) : (Rd (F := F) m ρ).expect ((c : Thread nD τ), .dma s) 0 = NN := by
  unfold Schedule.expect Schedule.amountOf; rw [duties_dma m ρ c s hs, Finset.sum_singleton, amount_dma]

theorem payload_bar_true : (Rd (F := F) m ρ).payload (barC c) 0 true = wholePts qM (xn c) := by dsimp only [Rd]; rw [if_pos rfl]
theorem payload_bar_false : (Rd (F := F) m ρ).payload (barC c) 0 false = wholePts bM (yn c) := by
  dsimp only [Rd]; exact if_neg Bool.false_ne_true
theorem payload_s1 (d : Bool) : (Rd (F := F) m ρ).payload (s1C c k) 0 d = s1Pay m ρ c k := by
  show dmaPay m ρ c (semk cc0_scratch4 k).val = _
  rw [semk4]; unfold dmaPay; rw [dif_neg (by omega), dif_pos (by omega)]
  congr 1; exact Fin.ext (by simp)
theorem payload_r1 (d : Bool) : (Rd (F := F) m ρ).payload (r1C c k) 0 d = r1Pay m ρ c k := by
  show dmaPay m ρ c (semk cc0_scratch5 k).val = _
  rw [semk5]; unfold dmaPay; rw [dif_neg (by omega), dif_neg (by omega), dif_pos (by omega)]
  congr 1; exact Fin.ext (by simp)
theorem payload_s2 (d : Bool) : (Rd (F := F) m ρ).payload (s2C c k) 0 d = s2Pay m ρ c k := by
  show dmaPay m ρ c (semk cc0_scratch6 k).val = _
  rw [semk6]; unfold dmaPay; rw [dif_neg (by omega), dif_neg (by omega), dif_neg (by omega), dif_pos (by omega)]
  congr 1; exact Fin.ext (by simp)
theorem payload_r2 (d : Bool) : (Rd (F := F) m ρ).payload (r2C c k) 0 d = r2Pay m ρ c k := by
  show dmaPay m ρ c (semk cc0_scratch7 k).val = _
  rw [semk7]; unfold dmaPay; rw [dif_neg (by omega), dif_neg (by omega), dif_neg (by omega), dif_neg (by omega), dif_pos (by omega)]
  congr 1; exact Fin.ext (by simp)

/-- The whole round of the barrier cell: the column mate's receive buffer and the row mate's. -/
theorem rest_bar : bigSep ((Rd (F := F) m ρ).duties (barC c) 0 \ ∅) (fun d => (Rd (F := F) m ρ).payload (barC c) 0 d)
    = iprop(wholePts bM (yn c) ∗ wholePts qM (xn c)) := by
  rw [Finset.sdiff_empty, duties_bar, bigSep_univ_eq_bigSepL [false, true] (by decide) (by decide), bigSepL_cons_cons, bigSepL_singleton,
    payload_bar_false, payload_bar_true]
  rfl
theorem rest_s1 : bigSep ((Rd (F := F) m ρ).duties (s1C c k) 0 \ ∅) (fun d => (Rd (F := F) m ρ).payload (s1C c k) 0 d) = s1Pay m ρ c k := by
  rw [Finset.sdiff_empty, duties_s1, bigSep_singleton, payload_s1]
theorem rest_r1 : bigSep ((Rd (F := F) m ρ).duties (r1C c k) 0 \ ∅) (fun d => (Rd (F := F) m ρ).payload (r1C c k) 0 d) = r1Pay m ρ c k := by
  rw [Finset.sdiff_empty, duties_r1, bigSep_singleton, payload_r1]
theorem rest_s2 : bigSep ((Rd (F := F) m ρ).duties (s2C c k) 0 \ ∅) (fun d => (Rd (F := F) m ρ).payload (s2C c k) 0 d) = s2Pay m ρ c k := by
  rw [Finset.sdiff_empty, duties_s2, bigSep_singleton, payload_s2]
theorem rest_r2 : bigSep ((Rd (F := F) m ρ).duties (r2C c k) 0 \ ∅) (fun d => (Rd (F := F) m ρ).payload (r2C c k) 0 d) = r2Pay m ρ c k := by
  rw [Finset.sdiff_empty, duties_r2, bigSep_singleton, payload_r2]

end Sched

/-! ## What each device owes at launch; the levels

A device owes each chunk's credit to its column mate's column-receive cells and to its row mate's
row-receive cells, and a unit to each mate's barrier cell.  The sums are nested so that what is paid
first is the last summand. -/

def T1 (c : Dev nD) (k : Fin 8) : CellTallies nD τ sig Unit := tallyAt (r1C (yn c) k) () NN
def T2 (c : Dev nD) (k : Fin 8) : CellTallies nD τ sig Unit := tallyAt (r2C (xn c) k) () NN

/-- The row debt with the last `n` chunks unpaid. -/
def own2 (c : Dev nD) : ℕ → CellTallies nD τ sig Unit
  | 0 => 0
  | n + 1 => own2 c n + T2 c ⟨7 - n, by omega⟩
/-- The row debt whole, and the column debt with the last `n` chunks unpaid. -/
def own1 (c : Dev nD) : ℕ → CellTallies nD τ sig Unit
  | 0 => own2 c 8
  | n + 1 => own1 c n + T1 c ⟨7 - n, by omega⟩
def O₁ (c : Dev nD) : CellTallies nD τ sig Unit := own1 c 8 + tallyAt (barC (xn c)) () 1
def O₀ (c : Dev nD) : CellTallies nD τ sig Unit := O₁ c + tallyAt (barC (yn c)) () 1

def L (g : GSem nD τ sig) : Finset Unit := if g.1.2 = .tc then {()} else ∅
/-- Staging and send cells at 0, barrier cells at 1, column-receive cells at 2, row-receive cells at 3. -/
def lv (g : GSem nD τ sig) (_ : Unit) : ℕ := match g.2 with
  | .reg _ => 1
  | .dma s => if 10 ≤ s.val ∧ s.val < 18 then 2 else if 26 ≤ s.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := rfl
theorem lv_r1 (c : Dev nD) (k : Fin 8) : lv (r1C c k) () = 2 := by
  show (if 10 ≤ (semk cc0_scratch5 k).val ∧ (semk cc0_scratch5 k).val < 18 then 2 else _) = 2
  rw [semk5, if_pos (by omega)]
theorem lv_r2 (c : Dev nD) (k : Fin 8) : lv (r2C c k) () = 3 := by
  show (if 10 ≤ (semk cc0_scratch7 k).val ∧ (semk cc0_scratch7 k).val < 18 then 2 else if 26 ≤ (semk cc0_scratch7 k).val then 3 else 0) = 3
  rw [semk7, if_neg (by omega), if_pos (by omega)]

theorem tallyAt_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem add_pos_cases' {A B : CellTallies nD τ sig Unit} {g : GSem nD τ sig} {u : Unit} (h : 0 < (A + B) g u) : 0 < A g u ∨ 0 < B g u := by
  rw [Pi.add_apply, Finsupp.add_apply] at h; omega

theorem own2_pos (c : Dev nD) (n : ℕ) {g : GSem nD τ sig} {u : Unit} (h : 0 < own2 c n g u) : ∃ k, g = r2C (xn c) k := by
  induction n with
  | zero => exact absurd h (by simp [own2])
  | succ n ih =>
    rcases add_pos_cases' (show 0 < (own2 c n + T2 c ⟨7 - n, by omega⟩) g u from h) with h | h
    · exact ih h
    · exact ⟨_, tallyAt_pos h⟩

theorem own1_pos (c : Dev nD) (n : ℕ) {g : GSem nD τ sig} {u : Unit} (h : 0 < own1 c n g u) :
    (∃ k, g = r1C (yn c) k) ∨ ∃ k, g = r2C (xn c) k := by
  induction n with
  | zero => exact .inr (own2_pos c 8 h)
  | succ n ih =>
    rcases add_pos_cases' (show 0 < (own1 c n + T1 c ⟨7 - n, by omega⟩) g u from h) with h | h
    · exact ih h
    · exact .inl ⟨_, tallyAt_pos h⟩

theorem O₀_pos {c : Dev nD} {g : GSem nD τ sig} {u : Unit} (h : 0 < O₀ c g u) :
    g = barC (yn c) ∨ g = barC (xn c) ∨ (∃ k, g = r1C (yn c) k) ∨ ∃ k, g = r2C (xn c) k := by
  rcases add_pos_cases' (show 0 < (O₁ c + tallyAt (barC (yn c)) () 1) g u from h) with h | h
  · rcases add_pos_cases' (show 0 < (own1 c 8 + tallyAt (barC (xn c)) () 1) g u from h) with h | h
    · exact .inr (.inr (own1_pos c 8 h))
    · exact .inr (.inl (tallyAt_pos h))
  · exact .inl (tallyAt_pos h)

omit [FloatOps F] in
/-- A wait at a cell of level at most `b` is allowed while everything owed sits above `b`. -/
theorem mayWait_cut (c : Dev nD) (sm : SemLoc sig) (b : ℕ) (O : CellTallies nD τ sig Unit) (hsm : lv ((c : Thread nD τ), sm) () ≤ b)
    (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hsm)
    (fun g u hg => (hO g u hg).2)

omit [FloatOps F] in
/-- At its barrier wait a device owes receive credit only. -/
theorem mayWait_bar (c : Dev nD) : (levAts L lv : sProp 𝕄) ⊢ MayWait (c : Thread nD τ) (.reg barS) () (own1 c 8) :=
  mayWait_cut c _ 1 _ (le_of_eq (lv_bar c)) fun g u hg => by
    rcases own1_pos c 8 hg with ⟨k, rfl⟩ | ⟨k, rfl⟩
    · exact ⟨rfl, by rw [lv_r1]; decide⟩
    · exact ⟨rfl, by rw [lv_r2]; decide⟩

omit [FloatOps F] in
/-- At a column-receive wait it owes row-receive credit only. -/
theorem mayWait_r1 (c : Dev nD) (k : Fin 8) (n : ℕ) :
    (levAts L lv : sProp 𝕄) ⊢ MayWait (c : Thread nD τ) (.dma (semk cc0_scratch5 k)) () (own2 c n) :=
  mayWait_cut c _ 2 _ (le_of_eq (lv_r1 c k)) fun g u hg => by
    obtain ⟨k', rfl⟩ := own2_pos c n hg
    exact ⟨rfl, by rw [lv_r2]; decide⟩

omit [FloatOps F] in
/-- The staging cells sit below everything a device ever owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait_cut c _ 0 _ (le_of_eq (by show (if 10 ≤ q.val ∧ q.val < 18 then 2 else if 26 ≤ q.val then 3 else 0) = 0; rw [if_neg (by omega), if_neg (by omega)])) fun g u hg => ?_
    rcases O₀_pos hg with rfl | rfl | ⟨k, rfl⟩ | ⟨k, rfl⟩
    · exact ⟨rfl, by rw [lv_bar]; decide⟩
    · exact ⟨rfl, by rw [lv_bar]; decide⟩
    · exact ⟨rfl, by rw [lv_r1]; decide⟩
    · exact ⟨rfl, by rw [lv_r2]; decide⟩
  · rw [MayWait_zero]; iintro -; iempintro

/-! ## The cells, indexed; the ghost state a device starts from -/

/-- A device's 33 cells: its barrier cell, and chunk `k`'s cell of kind `a` (send down the column,
    receive from it, send along the row, receive from it). -/
abbrev CI : Type := Unit ⊕ (Fin 4 × Fin 8)

abbrev dsem (a : Fin 4) (k : Fin 8) : DmaSem sig := ⟨2 + 8 * a.val + k.val, by have := a.isLt; have := k.isLt; show _ < 34; omega⟩
abbrev csem : CI → SemLoc sig
  | .inl _ => .reg barS
  | .inr (a, k) => .dma (dsem a k)
abbrev kcell (ck : Dev nD × CI) : GSem nD τ sig := ((ck.1 : Thread nD τ), csem ck.2)

theorem dsem_s1 (k : Fin 8) : dsem 0 k = semk cc0_scratch4 k := Fin.ext (by rw [semk4]; simp)
theorem dsem_r1 (k : Fin 8) : dsem 1 k = semk cc0_scratch5 k := Fin.ext (by rw [semk5]; simp)
theorem dsem_s2 (k : Fin 8) : dsem 2 k = semk cc0_scratch6 k := Fin.ext (by rw [semk6]; simp)
theorem dsem_r2 (k : Fin 8) : dsem 3 k = semk cc0_scratch7 k := Fin.ext (by rw [semk7]; simp)

theorem kcell_bar (c : Dev nD) : kcell (c, .inl ()) = barC c := rfl
theorem kcell_s1 (c : Dev nD) (k : Fin 8) : kcell (c, .inr (0, k)) = s1C c k := by show ((c : Thread nD τ), SemLoc.dma (dsem 0 k)) = _; rw [dsem_s1]
theorem kcell_r1 (c : Dev nD) (k : Fin 8) : kcell (c, .inr (1, k)) = r1C c k := by show ((c : Thread nD τ), SemLoc.dma (dsem 1 k)) = _; rw [dsem_r1]
theorem kcell_s2 (c : Dev nD) (k : Fin 8) : kcell (c, .inr (2, k)) = s2C c k := by show ((c : Thread nD τ), SemLoc.dma (dsem 2 k)) = _; rw [dsem_s2]
theorem kcell_r2 (c : Dev nD) (k : Fin 8) : kcell (c, .inr (3, k)) = r2C c k := by show ((c : Thread nD τ), SemLoc.dma (dsem 3 k)) = _; rw [dsem_r2]

/-- Every cell's invariant, under the names `K` the launch allocated them at, and that round 0 of every
    cell is reached: persistent, known to every device. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)

instance records_persistent (K : Dev nD × CI → ℕ) : BI.Persistent (records m ρ K) := by unfold records; infer_instance

theorem inv_at' (K : Dev nD × CI → ℕ) (ck : Dev nD × CI) :
    (bigSep Finset.univ fun ck : Dev nD × CI => (cellInv ER (Rd m ρ) (K ck) (kcell ck) : sProp 𝕄)) ⊢ cellInv ER (Rd m ρ) (K ck) (kcell ck) :=
  bigSep_elim (Finset.mem_univ ck)
omit [FloatOps F] in
theorem reached_at' (ck : Dev nD × CI) :
    (bigSep Finset.univ fun ck : Dev nD × CI => (reached ER (kcell ck) 0 : sProp 𝕄)) ⊢ reached ER (kcell ck) 0 :=
  bigSep_elim (Finset.mem_univ ck)
theorem inv_at (K : Dev nD × CI → ℕ) (ck : Dev nD × CI) : records m ρ K ⊢ cellInv ER (Rd m ρ) (K ck) (kcell ck) := by
  unfold records; iintro ⟨H, -⟩
  iapply (inv_at' m ρ K ck); iexact H
theorem reached_at (K : Dev nD × CI → ℕ) (ck : Dev nD × CI) : records m ρ K ⊢ reached ER (kcell ck) 0 := by
  unfold records; iintro ⟨-, H⟩
  iapply (reached_at' (F := F) ck); iexact H

/-- What device `c` holds of chunk `k`'s protocol state at launch: its positions at round 0 of its four
    cells, and the tokens of the four duties it pays — its two send cells' and its mates' receive cells'. -/
def chunkLin (c : Dev nD) (k : Fin 8) : sProp 𝕄 :=
  iprop(atPos ER (s1C c k) 0 ∅ 0 ∗ atPos ER (r1C c k) 0 ∅ 0 ∗ atPos ER (s2C c k) 0 ∅ 0 ∗ atPos ER (r2C c k) 0 ∅ 0
    ∗ dutyTok ER (s1C c k) 0 false ∗ dutyTok ER (r1C (yn c) k) 0 false ∗ dutyTok ER (s2C c k) 0 false ∗ dutyTok ER (r2C (xn c) k) 0 false)

/-- The device's linear protocol state at launch: its barrier position, the tokens of the barrier duties it
    pays (`false` of its column mate's cell, `true` of its row mate's), and every chunk's. -/
def lin (c : Dev nD) : sProp 𝕄 :=
  iprop(atPos ER (barC c) 0 ∅ 0 ∗ dutyTok ER (barC (yn c)) 0 false ∗ dutyTok ER (barC (xn c)) 0 true
    ∗ bigSep Finset.univ fun k : Fin 8 => chunkLin c k)

def ghost (K : Dev nD × CI → ℕ) (c : Dev nD) : sProp 𝕄 := iprop(records m ρ K ∗ lin c)

/-- The credit dealt at launch for chunk `k`'s two receive cells. -/
def chunkCred (c : Dev nD) (k : Fin 8) : sProp 𝕄 := iprop(cred (tallyAt (r1C c k) () NN) ∗ cred (tallyAt (r2C c k) () NN))

/-- What device `c`'s body starts from, beside the buffers. -/
def start (c : Dev nD) : sProp 𝕄 :=
  iprop((∃ K, ghost m ρ K c) ∗ cred (tallyAt (barC c) () 2) ∗ (bigSep Finset.univ fun k : Fin 8 => chunkCred c k) ∗ levAts L lv)

/-- A scratch buffer whole, at some contents. -/
abbrev scr (c : Dev nD) (b : Ref sig .tc) : sProp 𝕄 :=
  iprop(∃ f : Buf (Elt F) ((c : Thread nD τ).loc b), ((c : Thread nD τ).loc b) ↦{fullShare} f)

def Φ₀ (c : Dev nD) : sProp 𝕄 :=
  iprop(start m ρ c ∗ scr c cc0_scratch0 ∗ scr c cc0_scratch1 ∗ scr c cc0_scratch2 ∗ scr c cc0_scratch3)
/-- After the point: the scratch buffers back whole, the 32 transfer cells closed at zero. -/
def Φ₁ (c : Dev nD) : sProp 𝕄 :=
  iprop((scr c cc0_scratch0 ∗ scr c cc0_scratch1 ∗ scr c cc0_scratch2 ∗ scr c cc0_scratch3)
    ∗ bigSep Finset.univ fun ak : Fin 4 × Fin 8 => semVal (kcell (c, .inr ak)) 0)

/-- The result's staging buffer after the body: the sixteen chunk stores over anything. -/
def outAt (c : Dev nD) : (cc0_stg1_0 : Ref sig .tc).ty.Contents (Elt F) :=
  oM.view.writes (Elt F) (m ((c : Thread nD τ).loc cc0_stg1_0)) (outPieces m ρ c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves: the invariant after the point, nothing owed, the argument block as staged and the
    result's staging buffer at the sixteen stores. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelProof

end
-- ==== Proof.K.Body.lean ====
import proofs.«900138_g7700000000000139_dist_ar_v7x_xy2x2_y_m1024_n512_bf16_1_alg».proof.Proof.K.Proto

/-! The body of one device, stepped from the protocol's invariant: the four phases of a chunk as four lemmas at
a symbolic chunk, the entry handshake, and the obligation the launch asks. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## Geometry of a chunk -/

omit [FloatOps F] in
theorem set_sl (M : Memref sig .tc .vmem S8x64x512 .bf16) (k : Fin 8) : (sl M k).view.set = (M.access (rk k)).set :=
  View.set_reshape _ _

/-! ## The records read at a cell -/

theorem inv_bar (K : Dev nD × CI → ℕ) (c : Dev nD) : records m ρ K ⊢ cellInv ER (Rd m ρ) (K (c, .inl ())) (barC c) := inv_at m ρ K (c, .inl ())
theorem inv_s1 (K : Dev nD × CI → ℕ) (c : Dev nD) (k : Fin 8) : records m ρ K ⊢ cellInv ER (Rd m ρ) (K (c, .inr (0, k))) (s1C c k) := by
  rw [← kcell_s1]; exact inv_at m ρ K _
theorem inv_r1 (K : Dev nD × CI → ℕ) (c : Dev nD) (k : Fin 8) : records m ρ K ⊢ cellInv ER (Rd m ρ) (K (c, .inr (1, k))) (r1C c k) := by
  rw [← kcell_r1]; exact inv_at m ρ K _
theorem inv_s2 (K : Dev nD × CI → ℕ) (c : Dev nD) (k : Fin 8) : records m ρ K ⊢ cellInv ER (Rd m ρ) (K (c, .inr (2, k))) (s2C c k) := by
  rw [← kcell_s2]; exact inv_at m ρ K _
theorem inv_r2 (K : Dev nD × CI → ℕ) (c : Dev nD) (k : Fin 8) : records m ρ K ⊢ cellInv ER (Rd m ρ) (K (c, .inr (3, k))) (r2C c k) := by
  rw [← kcell_r2]; exact inv_at m ρ K _
theorem rch_bar (K : Dev nD × CI → ℕ) (c : Dev nD) : records m ρ K ⊢ reached ER (barC c) 0 := reached_at m ρ K (c, .inl ())
theorem rch_s1 (K : Dev nD × CI → ℕ) (c : Dev nD) (k : Fin 8) : records m ρ K ⊢ reached ER (s1C c k) 0 := by
  rw [← kcell_s1]; exact reached_at m ρ K _
theorem rch_r1 (K : Dev nD × CI → ℕ) (c : Dev nD) (k : Fin 8) : records m ρ K ⊢ reached ER (r1C c k) 0 := by
  rw [← kcell_r1]; exact reached_at m ρ K _
theorem rch_s2 (K : Dev nD × CI → ℕ) (c : Dev nD) (k : Fin 8) : records m ρ K ⊢ reached ER (s2C c k) 0 := by
  rw [← kcell_s2]; exact reached_at m ρ K _
theorem rch_r2 (K : Dev nD × CI → ℕ) (c : Dev nD) (k : Fin 8) : records m ρ K ⊢ reached ER (r2C c k) 0 := by
  rw [← kcell_r2]; exact reached_at m ρ K _

/-! ## A chunk's state between the four phases -/

/-- The argument block as staged. -/
def xP (c : Dev nD) : sProp 𝕄 := (((c : Thread nD τ).loc cc0_stg0_0) ↦{fullShare} xstg m ρ c)

/-- Chunk `k` after the entry handshake: its protocol state and credit, its two send chunks and its mates'
    two receive chunks, all at some contents. -/
def St0 (c : Dev nD) (k : Fin 8) : sProp 𝕄 :=
  iprop(chunkLin c k ∗ chunkCred c k
    ∗ (∃ f, chunkPts aM c k fullShare f) ∗ (∃ f, chunkPts pM c k fullShare f)
    ∗ (∃ f, chunkPts bM (yn c) k fullShare f) ∗ (∃ f, chunkPts qM (xn c) k fullShare f))

/-- After the column send of chunk `k`: the right half of the chunk sent stays, the send cell's credit is held. -/
def St1 (c : Dev nD) (k : Fin 8) : sProp 𝕄 :=
  iprop((atPos ER (s1C c k) 0 ∅ 0 ∗ atPos ER (r1C c k) 0 ∅ 0 ∗ atPos ER (s2C c k) 0 ∅ 0 ∗ atPos ER (r2C c k) 0 ∅ 0
      ∗ dutyTok ER (s2C c k) 0 false ∗ dutyTok ER (r2C (xn c) k) 0 false)
    ∗ chunkCred c k ∗ cred (tallyAt (s1C c k) () NN)
    ∗ chunkPts aM c k fullShare.right (A1 m ρ c k) ∗ (∃ f, chunkPts pM c k fullShare f) ∗ (∃ f, chunkPts qM (xn c) k fullShare f))

/-- After the column sum and the row send of chunk `k`. -/
def St2 (c : Dev nD) (k : Fin 8) : sProp 𝕄 :=
  iprop((atPos ER (s1C c k) 0 ∅ 0 ∗ atPos ER (r1C c k) 1 ∅ 0 ∗ atPos ER (s2C c k) 0 ∅ 0 ∗ atPos ER (r2C c k) 0 ∅ 0)
    ∗ cred (tallyAt (r2C c k) () NN) ∗ cred (tallyAt (s1C c k) () NN) ∗ cred (tallyAt (s2C c k) () NN)
    ∗ chunkPts aM c k fullShare.right (A1 m ρ c k) ∗ chunkPts bM c k fullShare (B1 m ρ c k) ∗ chunkPts pM c k fullShare.right (P1 m ρ c k))

/-- After the row mate's chunk `k` has landed and been stored. -/
def St3 (c : Dev nD) (k : Fin 8) : sProp 𝕄 :=
  iprop((atPos ER (s1C c k) 0 ∅ 0 ∗ atPos ER (r1C c k) 1 ∅ 0 ∗ atPos ER (s2C c k) 0 ∅ 0 ∗ atPos ER (r2C c k) 1 ∅ 0)
    ∗ cred (tallyAt (s1C c k) () NN) ∗ cred (tallyAt (s2C c k) () NN)
    ∗ chunkPts aM c k fullShare.right (A1 m ρ c k) ∗ chunkPts bM c k fullShare (B1 m ρ c k) ∗ chunkPts pM c k fullShare.right (P1 m ρ c k)
    ∗ chunkPts qM c k fullShare (Q1 m ρ c k))

/-- After both send waits of chunk `k`: every cell past its round, every chunk whole again. -/
def St4 (c : Dev nD) (k : Fin 8) : sProp 𝕄 :=
  iprop((atPos ER (s1C c k) 1 ∅ 0 ∗ atPos ER (r1C c k) 1 ∅ 0 ∗ atPos ER (s2C c k) 1 ∅ 0 ∗ atPos ER (r2C c k) 1 ∅ 0)
    ∗ chunkPts aM c k fullShare (A1 m ρ c k) ∗ chunkPts bM c k fullShare (B1 m ρ c k) ∗ chunkPts pM c k fullShare (P1 m ρ c k)
    ∗ chunkPts qM c k fullShare (Q1 m ρ c k))

/-! ## The schedule's tables, as the executor reads them -/

theorem expect_s1 (c : Dev nD) (k : Fin 8) : (Rd (F := F) m ρ).expect (s1C c k) 0 = NN := expect_dma m ρ c _ (by rw [semk4]; omega)
theorem expect_r1 (c : Dev nD) (k : Fin 8) : (Rd (F := F) m ρ).expect (r1C c k) 0 = NN := expect_dma m ρ c _ (by rw [semk5]; omega)
theorem expect_s2 (c : Dev nD) (k : Fin 8) : (Rd (F := F) m ρ).expect (s2C c k) 0 = NN := expect_dma m ρ c _ (by rw [semk6]; omega)
theorem expect_r2 (c : Dev nD) (k : Fin 8) : (Rd (F := F) m ρ).expect (r2C c k) 0 = NN := expect_dma m ρ c _ (by rw [semk7]; omega)

theorem payload_s1' (c : Dev nD) (k : Fin 8) (d : Bool) : (Rd (F := F) m ρ).payload (s1C c k) 0 d
    = ((sl aM k).view.loc (c : Thread nD τ) ↦[(sl aM k).view.set]{fullShare.left} A1 m ρ c k : sProp 𝕄) := payload_s1 m ρ c k d
theorem payload_r1' (c : Dev nD) (k : Fin 8) (d : Bool) : (Rd (F := F) m ρ).payload (r1C c k) 0 d
    = ((sl bM k).view.loc (c : Thread nD τ) ↦[(sl bM k).view.set]{fullShare} B1 m ρ c k : sProp 𝕄) := payload_r1 m ρ c k d
theorem payload_s2' (c : Dev nD) (k : Fin 8) (d : Bool) : (Rd (F := F) m ρ).payload (s2C c k) 0 d
    = ((sl pM k).view.loc (c : Thread nD τ) ↦[(sl pM k).view.set]{fullShare.left} P1 m ρ c k : sProp 𝕄) := payload_s2 m ρ c k d
theorem payload_r2' (c : Dev nD) (k : Fin 8) (d : Bool) : (Rd (F := F) m ρ).payload (r2C c k) 0 d
    = ((sl qM k).view.loc (c : Thread nD τ) ↦[(sl qM k).view.set]{fullShare} Q1 m ρ c k : sProp 𝕄) := payload_r2 m ρ c k d

attribute [local sl_rounds] expect_s1 expect_r1 expect_s2 expect_r2 payload_s1' payload_r1' payload_s2' payload_r2'
  duties_s1 duties_r1 duties_s2 duties_r2 credit_a credit_b credit_p credit_q amount_dma

omit [FloatOps F] in
/-- A landing over any prior contents is, on the chunk's own elements, the landing over the contents at launch. -/
theorem landing_raw (M : Memref sig .tc .vmem S8x64x512 .bf16) (c : Dev nD) (k : Fin 8) (q : PosShare TreeShare)
    (f f' : Buf (Elt F) ((sl M k).view.loc (c : Thread nD τ))) (w : S64x512.Idx → Elt F .bf16) :
    ((sl M k).view.loc (c : Thread nD τ) ↦[(sl M k).view.set]{q} (sl M k).view.write (Elt F) f w Finset.univ : sProp 𝕄)
      = ((sl M k).view.loc (c : Thread nD τ) ↦[(sl M k).view.set]{q} (sl M k).view.write (Elt F) f' w Finset.univ) :=
  pointsTo_congr (write_univ_congr (sl M k).view f f' w)

omit [FloatOps F] in
/-- A chunk store over any prior contents is, on the chunk's own elements, the store over the contents at launch. -/
theorem store_raw (M : Memref sig .tc .vmem S8x64x512 .bf16) (c : Dev nD) (k : Fin 8) (q : PosShare TreeShare)
    (f f' : Buf (Elt F) (M.view.loc (c : Thread nD τ))) (w : S1x64x512.Idx → Elt F .bf16) :
    ((sl M k).view.loc (c : Thread nD τ) ↦[(sl M k).view.set]{q} (M.access (rk k)).write (Elt F) f w Finset.univ : sProp 𝕄)
      = ((sl M k).view.loc (c : Thread nD τ) ↦[(sl M k).view.set]{q} (M.access (rk k)).write (Elt F) f' w Finset.univ) :=
  pointsTo_congr fun i hi => write_univ_congr (M.access (rk k)) f f' w i (by rw [← set_sl]; exact hi)

/-- A chunk store read back is what was stored. -/
theorem readA1 (c : Dev nD) (k : Fin 8) : aM.view.readAt (Elt F) (rk k).toLoadRect (A1 m ρ c k) = a1 m ρ c k := by
  unfold A1; exact View.read_write_univ (v := aM.access (rk k)) _ _
theorem readP1 (c : Dev nD) (k : Fin 8) : pM.view.readAt (Elt F) (rk k).toLoadRect (P1 m ρ c k) = a2 m ρ c k := by
  unfold P1; exact View.read_write_univ (v := pM.access (rk k)) _ _

/-! ## Phase 1, chunk `k`: round the chunk, store it, send it down the column -/

theorem seg1 (K : Dev nD × CI → ℕ) (c : Dev nD) (k : Fin 8) (d : Dev nD) (hd : d = yn c) (O : CellTallies nD τ sig Unit) (W : Waits sig Unit)
    {α : Type} {Q : α → sProp 𝕄} {kont : PUnit → Prog (TpuEff nD τ sig (Elt F) Λ₀ .tc) α}
    {hl1 : xM.view.LoadsAt (rx1 c k).toLoadRect} {hl2 : aM.view.LoadsAt (rk k).toLoadRect}
    {hx : (aM.access (rk k)).Stores Finset.univ} {hm : Finset.univ = Finset.univ ∨ ∀ a, (rk k).stride a = 1}
    {hsc : (sl bM k : Memref sig (Dev.tc d : Thread nD τ).2.kind .vmem S64x512 .bf16).view.ref.isScScratch = false}
    {hsrc : (sl aM k).view.WordExact} {hdst : (sl bM k).view.WordExact}
    {hsem : DmaTarget.Typed .vmem (.dma (semk cc0_scratch5 k)) (.remote (Dev.tc d : Thread nD τ) (sl bM k) (.dma (semk cc0_scratch4 k)) hsc)} :
    iprop(records m ρ K ∗ xP m ρ c ∗ St0 c k ∗ owes (c : Thread nD τ) (O + T1 c k) W)
      ⊢ iprop(((xP m ρ c ∗ St1 m ρ c k ∗ owes (c : Thread nD τ) O W) -∗ wp frame (wpE (defs₀ (F := F)) 𝒱₀ c none) Set.univ (kont ⟨⟩) Q)
         -∗ wp frame (wpE (defs₀ (F := F)) 𝒱₀ c none) Set.univ
            (.op (.load xM (rx1 c k).toLoadRect hl1) fun v =>
             .op (.load aM (rk k).toLoadRect hl2) fun _ =>
             .op (.store aM (rk k) (k0_pay1 v) Finset.univ hx hm) fun _ =>
             .op (.enqueueDma (sl aM k) (.remote (Dev.tc d : Thread nD τ) (sl bM k) (.dma (semk cc0_scratch4 k)) hsc) (.dma (semk cc0_scratch5 k)) hsrc hdst hsem) kont) Q) := by
  subst hd
  unfold St0 St1 chunkLin chunkCred xP chunkPts
  iintro ⟨#HR, Hx, ⟨⟨Ha1, Har1, Ha2, Har2, Tt1, Ttr1, Tt2, Ttr2⟩, ⟨Hc1, Hc2⟩, ⟨%fa, Ha⟩, Hp, ⟨%fb, Hb⟩, Hq⟩, HO⟩ Hk
  ihave Hx := (Entails.of_eq (show (((c : Thread nD τ).loc cc0_stg0_0) ↦{fullShare} xstg m ρ c : sProp 𝕄)
    = (View.loc (c : Thread nD τ) xM.view ↦{fullShare} xstg m ρ c) from rfl)) $$ Hx
  -- the two loads and the store
  sl_exec
  sl_unfold_words
  -- on the chunk's own elements the store left the chunk's canonical contents; half of it is lent to the transfer
  ihave Ha := (Entails.of_eq ((store_raw aM c k fullShare fa (m ((c : Thread nD τ).loc cc0_scratch0))
      (k0_pay1 (xM.view.readAt (Elt F) (rx1 c k).toLoadRect (xstg m ρ c)))).trans
    (show _ = ((sl aM k).view.loc (c : Thread nD τ) ↦[(sl aM k).view.set]{fullShare} A1 m ρ c k : sProp 𝕄) from rfl))) $$ Ha
  ihave Hh := (pointsTo_share (PosShare.mem_left_op_right fullShare)).1 $$ Ha
  icases Hh with ⟨HaL, HaR⟩
  iapply (Rounds.wp_send_pointsTo 𝒱₀ ER (Rd m ρ) (c : Thread nD τ) none (c' := (Dev.tc (yn c) : Thread nD τ)) (src := sl aM k) (dst := sl bM k) (sS := .dma (semk cc0_scratch4 k)) (sem := .dma (semk cc0_scratch5 k))
      (q := fullShare.left) (fs := A1 m ρ c k) (fd := fb)
      (κ₁ := K (c, .inr (0, k))) (κ₂ := K (yn c, .inr (1, k))) (r₁ := 0) (r₂ := 0) (d₁ := false) (d₂ := false)
      (by rw [duties_s1]; exact Finset.mem_singleton_self _) (by rw [duties_r1]; exact Finset.mem_singleton_self _)
      () () NN (credit_b k) (amount_dma m ρ c _ false) (amount_dma m ρ (yn c) _ false) O rfl (W := W)
      (by rw [payload_s1'])
      (by rw [payload_r1']; unfold B1; rw [yn_yn, landing_raw bM (yn c) k fullShare fb (m (((yn c : Dev nD) : Thread nD τ).loc cc0_scratch1))]))
    $$ [HaL Hb HO Tt1 Ttr1]
  · isplitr; · iapply (inv_s1 m ρ K c k); iexact HR
    isplitr; · iapply (inv_r1 m ρ K (yn c) k); iexact HR
    isplitl [HaL]; · iexact HaL
    isplitl [Hb]; · iexact Hb
    isplitl [HO]; · iexact HO
    isplitl [Tt1]; · iexact Tt1
    isplitr; · iapply (rch_s1 m ρ K c k); iexact HR
    isplitl [Ttr1]; · iexact Ttr1
    iapply (rch_r1 m ρ K (yn c) k); iexact HR
  iintro ⟨Hcs, HO⟩
  iapply Hk
  isplitl [Hx]; · iexact Hx
  isplitr [HO]
  · isplitl [Ha1 Har1 Ha2 Har2 Tt2 Ttr2]; · iframe
    isplitl [Hc1 Hc2]; · iframe
    iframe
  · iexact HO

/-! ## Phase 2, chunk `k`: the column mate's chunk has landed; sum, send along the row, store the sum -/

/-- The result's staging buffer at a list of chunk stores over what it held. -/
def oP (c : Dev nD) (g : Buf (Elt F) (oM.view.loc (c : Thread nD τ))) (Lw : List (View.Piece (Elt F) S1024x512 .bf16)) : sProp 𝕄 :=
  (oM.view.loc (c : Thread nD τ) ↦{fullShare} oM.view.writes (Elt F) g Lw)

theorem seg2 (K : Dev nD × CI → ℕ) (c : Dev nD) (k : Fin 8) (d : Dev nD) (hd : d = xn c) (O : CellTallies nD τ sig Unit) (W : Waits sig Unit)
    (g : Buf (Elt F) (oM.view.loc (c : Thread nD τ))) (Lw : List (View.Piece (Elt F) S1024x512 .bf16))
    (hMW : (levAts L lv : sProp 𝕄) ⊢ MayWait (c : Thread nD τ) (.dma (semk cc0_scratch5 k)) () (O + T2 c k))
    {α : Type} {Q : α → sProp 𝕄} {kont : PUnit → Prog (TpuEff nD τ sig (Elt F) Λ₀ .tc) α}
    {hws : (sl aM k).view.WordExact} {hwd : (sl bM k).view.WordExact}
    {hl1 : aM.view.LoadsAt (rk k).toLoadRect} {hl2 : bM.view.LoadsAt (rk k).toLoadRect} {hl3 : pM.view.LoadsAt (rk k).toLoadRect}
    {hx : (pM.access (rk k)).Stores Finset.univ} {hm : Finset.univ = Finset.univ ∨ ∀ a, (rk k).stride a = 1}
    {hsc : (sl qM k : Memref sig (Dev.tc d : Thread nD τ).2.kind .vmem S64x512 .bf16).view.ref.isScScratch = false}
    {hsrc : (sl pM k).view.WordExact} {hdst : (sl qM k).view.WordExact}
    {hsem : DmaTarget.Typed .vmem (.dma (semk cc0_scratch7 k)) (.remote (Dev.tc d : Thread nD τ) (sl qM k) (.dma (semk cc0_scratch6 k)) hsc)}
    {hl4 : pM.view.LoadsAt (rk k).toLoadRect} {hl5 : oM.view.LoadsAt (rx1 c k).toLoadRect}
    {hxo : (oM.access (rx1 c k)).Stores Finset.univ} {hmo : Finset.univ = Finset.univ ∨ ∀ a, (rx1 c k).stride a = 1} :
    iprop(records m ρ K ∗ levAts L lv ∗ oP c g Lw ∗ St1 m ρ c k ∗ owes (c : Thread nD τ) (O + T2 c k) W)
      ⊢ iprop(((oP c g (⟨rx1 c k, o1 m ρ c k⟩ :: Lw) ∗ St2 m ρ c k ∗ owes (c : Thread nD τ) O (insert (SemLoc.dma (semk cc0_scratch5 k), ()) W))
            -∗ wp frame (wpE (defs₀ (F := F)) 𝒱₀ c none) Set.univ (kont ⟨⟩) Q)
         -∗ wp frame (wpE (defs₀ (F := F)) 𝒱₀ c none) Set.univ
            (.op (.waitDma2 (semk cc0_scratch5 k) (sl aM k) (sl bM k) hws hwd) fun _ =>
             .op (.load aM (rk k).toLoadRect hl1) fun va =>
             .op (.load bM (rk k).toLoadRect hl2) fun vb =>
             .op (.load pM (rk k).toLoadRect hl3) fun _ =>
             .op (.store pM (rk k) (k0_pay10 va vb) Finset.univ hx hm) fun _ =>
             .op (.enqueueDma (sl pM k) (.remote (Dev.tc d : Thread nD τ) (sl qM k) (.dma (semk cc0_scratch6 k)) hsc) (.dma (semk cc0_scratch7 k)) hsrc hdst hsem) fun _ =>
             .op (.load pM (rk k).toLoadRect hl4) fun vp =>
             .op (.load oM (rx1 c k).toLoadRect hl5) fun _ =>
             .op (.store oM (rx1 c k) (k0_pay11 vp) Finset.univ hxo hmo) kont) Q) := by
  subst hd
  unfold St1 St2 chunkCred oP chunkPts
  iintro ⟨#HR, #Hlev, Ho, ⟨⟨Ha1, Har1, Ha2, Har2, Tt2, Ttr2⟩, ⟨Hc1, Hc2⟩, Hcs1, HaR, ⟨%fp, Hp⟩, ⟨%fq, Hq⟩⟩, HO⟩ Hk
  ihave HI := (inv_r1 m ρ K c k) $$ HR
  ihave HM := hMW $$ Hlev
  -- the wait for the column mate's chunk, the two chunks read back, their sum stored
  sl_exec
  sl_unfold_words
  -- on the chunk's own elements the store left the chunk's canonical contents; half of it is lent to the transfer
  ihave Hp := (Entails.of_eq ((store_raw pM c k fullShare fp (m ((c : Thread nD τ).loc cc0_scratch2))
      (k0_pay10 (a1 m ρ c k) (bM.view.readAt (Elt F) (rk k).toLoadRect (B1 m ρ c k)))).trans
    (show _ = ((sl pM k).view.loc (c : Thread nD τ) ↦[(sl pM k).view.set]{fullShare} P1 m ρ c k : sProp 𝕄) from by
      rw [← readA1 m ρ c k]; rfl))) $$ Hp
  ihave Hh := (pointsTo_share (PosShare.mem_left_op_right fullShare)).1 $$ Hp
  icases Hh with ⟨HpL, HpR⟩
  iapply (Rounds.wp_send_pointsTo 𝒱₀ ER (Rd m ρ) (c : Thread nD τ) none (c' := (Dev.tc (xn c) : Thread nD τ)) (src := sl pM k) (dst := sl qM k) (sS := .dma (semk cc0_scratch6 k)) (sem := .dma (semk cc0_scratch7 k))
      (q := fullShare.left) (fs := P1 m ρ c k) (fd := fq)
      (κ₁ := K (c, .inr (2, k))) (κ₂ := K (xn c, .inr (3, k))) (r₁ := 0) (r₂ := 0) (d₁ := false) (d₂ := false)
      (by rw [duties_s2]; exact Finset.mem_singleton_self _) (by rw [duties_r2]; exact Finset.mem_singleton_self _)
      () () NN (credit_q k) (amount_dma m ρ c _ false) (amount_dma m ρ (xn c) _ false) O rfl
      (W := insert (SemLoc.dma (semk cc0_scratch5 k), ()) W)
      (by rw [payload_s2'])
      (by rw [payload_r2']; unfold Q1; rw [xn_xn, landing_raw qM (xn c) k fullShare fq (m (((xn c : Dev nD) : Thread nD τ).loc cc0_scratch3))]))
    $$ [HpL Hq HO Tt2 Ttr2]
  · isplitr; · iapply (inv_s2 m ρ K c k); iexact HR
    isplitr; · iapply (inv_r2 m ρ K (xn c) k); iexact HR
    isplitl [HpL]; · iexact HpL
    isplitl [Hq]; · iexact Hq
    isplitl [HO]; · iexact HO
    isplitl [Tt2]; · iexact Tt2
    isplitr; · iapply (rch_s2 m ρ K c k); iexact HR
    isplitl [Ttr2]; · iexact Ttr2
    iapply (rch_r2 m ρ K (xn c) k); iexact HR
  iintro ⟨Hcs2, HO⟩
  -- the sum read back and stored into the result
  sl_exec
  sl_unfold_words
  ihave Ho := (Entails.of_eq (show (oM.view.loc (c : Thread nD τ) ↦{fullShare}
        (oM.access (rx1 c k)).write (Elt F) (oM.view.writes (Elt F) g Lw) (k0_pay11 (a2 m ρ c k)) Finset.univ : sProp 𝕄)
      = (oM.view.loc (c : Thread nD τ) ↦{fullShare} oM.view.writes (Elt F) g (⟨rx1 c k, o1 m ρ c k⟩ :: Lw)) from by
    unfold o1; rw [readP1]; rfl)) $$ Ho
  iapply Hk
  isplitl [Ho]; · iexact Ho
  isplitr [HO]
  · isplitl [Ha1 Har1 Ha2 Har2]; · iframe
    iframe
  · iexact HO

/-! ## Phase 3, chunk `k`: the row mate's column sum has landed; store it -/

theorem seg3 (K : Dev nD × CI → ℕ) (c : Dev nD) (k : Fin 8) (W : Waits sig Unit)
    (g : Buf (Elt F) (oM.view.loc (c : Thread nD τ))) (Lw : List (View.Piece (Elt F) S1024x512 .bf16))
    {α : Type} {Q : α → sProp 𝕄} {kont : PUnit → Prog (TpuEff nD τ sig (Elt F) Λ₀ .tc) α}
    {hws : (sl pM k).view.WordExact} {hwd : (sl qM k).view.WordExact}
    {hl1 : qM.view.LoadsAt (rk k).toLoadRect} {hl2 : oM.view.LoadsAt (rx2 c k).toLoadRect}
    {hxo : (oM.access (rx2 c k)).Stores Finset.univ} {hmo : Finset.univ = Finset.univ ∨ ∀ a, (rx2 c k).stride a = 1} :
    iprop(records m ρ K ∗ oP c g Lw ∗ St2 m ρ c k ∗ owes (c : Thread nD τ) 0 W)
      ⊢ iprop(((oP c g (⟨rx2 c k, o2 m ρ c k⟩ :: Lw) ∗ St3 m ρ c k ∗ owes (c : Thread nD τ) 0 (insert (SemLoc.dma (semk cc0_scratch7 k), ()) W))
            -∗ wp frame (wpE (defs₀ (F := F)) 𝒱₀ c none) Set.univ (kont ⟨⟩) Q)
         -∗ wp frame (wpE (defs₀ (F := F)) 𝒱₀ c none) Set.univ
            (.op (.waitDma2 (semk cc0_scratch7 k) (sl pM k) (sl qM k) hws hwd) fun _ =>
             .op (.load qM (rk k).toLoadRect hl1) fun vq =>
             .op (.load oM (rx2 c k).toLoadRect hl2) fun _ =>
             .op (.store oM (rx2 c k) (k0_pay11 vq) Finset.univ hxo hmo) kont) Q) := by
  unfold St2 St3 oP chunkPts
  iintro ⟨#HR, Ho, ⟨⟨Ha1, Har1, Ha2, Har2⟩, Hc2, Hcs1, Hcs2, HaR, Hb, HpR⟩, HO⟩ Hk
  ihave HI := (inv_r2 m ρ K c k) $$ HR
  -- the wait for the row mate's chunk, its load, and the store into the result
  sl_exec
  sl_unfold_words
  iapply Hk
  isplitl [Ho]; · iexact Ho
  isplitr [HO]
  · isplitl [Ha1 Har1 Ha2 Har2]; · iframe
    iframe
  · iexact HO

/-! ## Phase 4, chunk `k`: both sends have read their sources; the chunks are whole again -/

theorem seg4 (K : Dev nD × CI → ℕ) (c : Dev nD) (k : Fin 8) (W : Waits sig Unit)
    {α : Type} {Q : α → sProp 𝕄} {kont : PUnit → Prog (TpuEff nD τ sig (Elt F) Λ₀ .tc) α}
    {hws1 : (sl bM k).view.WordExact} {hwd1 : (sl aM k).view.WordExact}
    {hws2 : (sl qM k).view.WordExact} {hwd2 : (sl pM k).view.WordExact} :
    iprop(records m ρ K ∗ St3 m ρ c k ∗ owes (c : Thread nD τ) 0 W)
      ⊢ iprop(((St4 m ρ c k ∗ owes (c : Thread nD τ) 0 (insert (SemLoc.dma (semk cc0_scratch6 k), ()) (insert (SemLoc.dma (semk cc0_scratch4 k), ()) W)))
            -∗ wp frame (wpE (defs₀ (F := F)) 𝒱₀ c none) Set.univ (kont ⟨⟩) Q)
         -∗ wp frame (wpE (defs₀ (F := F)) 𝒱₀ c none) Set.univ
            (.op (.waitDma2 (semk cc0_scratch4 k) (sl bM k) (sl aM k) hws1 hwd1) fun _ =>
             .op (.waitDma2 (semk cc0_scratch6 k) (sl qM k) (sl pM k) hws2 hwd2) kont) Q) := by
  unfold St3 St4 chunkPts
  iintro ⟨#HR, ⟨⟨Ha1, Har1, Ha2, Har2⟩, Hcs1, Hcs2, HaR, Hb, HpR, Hq⟩, HO⟩ Hk
  ihave HI1 := (inv_s1 m ρ K c k) $$ HR
  ihave HI2 := (inv_s2 m ρ K c k) $$ HR
  -- the two send waits: each returns the half of its source the transfer read
  sl_exec
  sl_unfold_words
  ihave Ha := (pointsTo_share (PosShare.mem_left_op_right fullShare)).2 $$ [Ha1_pay1 HaR]
  · isplitl [Ha1_pay1] <;> iassumption
  ihave Hp := (pointsTo_share (PosShare.mem_left_op_right fullShare)).2 $$ [Ha2_pay1 HpR]
  · isplitl [Ha2_pay1] <;> iassumption
  iapply Hk
  isplitr [HO]
  · isplitl [Ha1 Har1 Ha2 Har2]; · iframe
    iframe
  · iexact HO

/-! ## A chunked buffer is its eight chunks -/

omit [FloatOps F] in
theorem mem_rk (k : Fin 8) (i : S8x64x512.Idx) : i ∈ (rk k).set ↔ (i 0).val = k.val := by
  rw [Rect.mem_set_unit]
  have h1 : ((i 1 : Fin (S8x64x512.size 1)) : ℕ) < 64 := (i 1).isLt
  have h2 : ((i 2 : Fin (S8x64x512.size 2)) : ℕ) < 512 := (i 2).isLt
  constructor
  · intro h
    have h0 := h 0
    simp only [Matrix.cons_val_zero] at h0
    have : S1x64x512.size 0 = 1 := rfl
    omega
  · intro h a
    fin_cases a
    · show k.val ≤ (i 0).val ∧ (i 0).val < k.val + 1; omega
    · show 0 ≤ (i 1).val ∧ (i 1).val < 0 + 64; omega
    · show 0 ≤ (i 2).val ∧ (i 2).val < 0 + 512; omega

omit [FloatOps F] in
theorem rk_disjoint (k k' : Fin 8) (h : k ≠ k') : Disjoint (rk k).set (rk k').set :=
  Finset.disjoint_left.mpr fun i hi hi' => h (Fin.ext (((mem_rk k i).mp hi).symm.trans ((mem_rk k' i).mp hi')))

omit [FloatOps F] in
theorem rk_cover : Finset.univ.biUnion (fun k : Fin 8 => (rk k).set) = Finset.univ :=
  Finset.eq_univ_of_forall fun i => Finset.mem_biUnion.mpr ⟨⟨(i 0).val, (i 0).isLt⟩, Finset.mem_univ _, (mem_rk _ i).mpr rfl⟩

omit [FloatOps F] in
theorem set_a (k : Fin 8) : (sl aM k).view.set = (rk k).set := by rw [set_sl]; exact View.set_slice_whole cc0_scratch0 (rk k)
omit [FloatOps F] in
theorem set_b (k : Fin 8) : (sl bM k).view.set = (rk k).set := by rw [set_sl]; exact View.set_slice_whole cc0_scratch1 (rk k)
omit [FloatOps F] in
theorem set_p (k : Fin 8) : (sl pM k).view.set = (rk k).set := by rw [set_sl]; exact View.set_slice_whole cc0_scratch2 (rk k)
omit [FloatOps F] in
theorem set_q (k : Fin 8) : (sl qM k).view.set = (rk k).set := by rw [set_sl]; exact View.set_slice_whole cc0_scratch3 (rk k)

/-- Chunk `k`'s elements, among those of the buffer on device `c`. -/
abbrev cset (M : Memref sig .tc .vmem S8x64x512 .bf16) (c : Dev nD) (k : Fin 8) : Finset (Idx (M.view.loc (c : Thread nD τ))) := (sl M k).view.set

omit [FloatOps F] in
/-- A whole chunked buffer is its eight chunks, -/
theorem split_chunks (M : Memref sig .tc .vmem S8x64x512 .bf16) (c : Dev nD) (f : Buf (Elt F) (M.view.loc (c : Thread nD τ)))
    (hd : ∀ k k' : Fin 8, k ≠ k' → Disjoint (cset M c k) (cset M c k'))
    (hc : Finset.univ.biUnion (fun k : Fin 8 => cset M c k) = Finset.univ) :
    (M.view.loc (c : Thread nD τ) ↦{fullShare} f : sProp 𝕄) = bigSep Finset.univ fun k : Fin 8 => chunkPts M c k fullShare f := by
  rw [← hc, pointsTo_biUnion _ _ fun t _ t' _ h => hd t t' h]; rfl

omit [FloatOps F] in
/-- and eight chunks at any contents are the buffer whole at some contents. -/
theorem join_chunks (M : Memref sig .tc .vmem S8x64x512 .bf16) (c : Dev nD) (fs : Fin 8 → Buf (Elt F) (M.view.loc (c : Thread nD τ)))
    (hd : ∀ k k' : Fin 8, k ≠ k' → Disjoint (cset M c k) (cset M c k'))
    (hc : Finset.univ.biUnion (fun k : Fin 8 => cset M c k) = Finset.univ) :
    (bigSep Finset.univ fun k : Fin 8 => chunkPts M c k fullShare (fs k))
      ⊢ (iprop(∃ g : Buf (Elt F) (M.view.loc (c : Thread nD τ)), M.view.loc (c : Thread nD τ) ↦{fullShare} g) : sProp 𝕄) := by
  have h := pointsTo_biUnion_join (ℓ := M.view.loc (c : Thread nD τ)) (q := fullShare) (Val := Elt F) (Ix := Unit) (Name := ℕ) (U := UU) (Lvl := ℕ)
    Finset.univ (fun k : Fin 8 => cset M c k) fs (fs 0) (fun t _ t' _ h => hd t t' h)
  rw [hc] at h
  refine Entails.trans (show _ ⊢ _ from BI.Entails.refl _) (h.trans ?_)
  iintro ⟨%g, -, Hg⟩; iexists g; iexact Hg

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The eight chunks are pairwise disjoint and cover the buffer. -/
def Partitioned (M : Memref sig .tc .vmem S8x64x512 .bf16) (c : Dev nD) : Prop :=
  (∀ k k' : Fin 8, k ≠ k' → Disjoint (cset M c k) (cset M c k')) ∧ Finset.univ.biUnion (fun k : Fin 8 => cset M c k) = Finset.univ

omit [FloatOps F] in
/-- If membership in chunk `k` is decided by a coordinate of which every element has exactly one value, the
    chunks are pairwise disjoint and cover the buffer. -/
theorem chunks_partition (M : Memref sig .tc .vmem S8x64x512 .bf16) (c : Dev nD) (z : Idx (M.view.loc (c : Thread nD τ)) → Fin 8)
    (hz : ∀ k i, i ∈ cset M c k ↔ z i = k) : Partitioned M c :=
  ⟨fun k k' h => Finset.disjoint_left.mpr fun i hi hi' => h (((hz k i).mp hi).symm.trans ((hz k' i).mp hi')),
   Finset.eq_univ_of_forall fun i => Finset.mem_biUnion.mpr ⟨z i, Finset.mem_univ _, (hz _ i).mpr rfl⟩⟩

/-- The chunk an element of an 8 × 64 × 512 buffer lies in: its first coordinate. -/
abbrev chunkOf (i : S8x64x512.Idx) : Fin 8 := ⟨(i 0).val, (i 0).isLt⟩

omit [FloatOps F] in
theorem mem_rk' (k : Fin 8) (i : S8x64x512.Idx) : i ∈ (rk k).set ↔ chunkOf i = k :=
  (mem_rk k i).trans ⟨fun h => Fin.ext h, fun h => congrArg Fin.val h⟩

omit [FloatOps F] in
theorem part_a (c : Dev nD) : Partitioned aM c := chunks_partition aM c (fun i => chunkOf i) fun k i => by
  rw [show cset aM c k = (rk k).set from set_a k]; exact mem_rk' k i
omit [FloatOps F] in
theorem part_b (c : Dev nD) : Partitioned bM c := chunks_partition bM c (fun i => chunkOf i) fun k i => by
  rw [show cset bM c k = (rk k).set from set_b k]; exact mem_rk' k i
omit [FloatOps F] in
theorem part_p (c : Dev nD) : Partitioned pM c := chunks_partition pM c (fun i => chunkOf i) fun k i => by
  rw [show cset pM c k = (rk k).set from set_p k]; exact mem_rk' k i
omit [FloatOps F] in
theorem part_q (c : Dev nD) : Partitioned qM c := chunks_partition qM c (fun i => chunkOf i) fun k i => by
  rw [show cset qM c k = (rk k).set from set_q k]; exact mem_rk' k i

theorem St0_intro1 (c : Dev nD) (k : Fin 8) (fa : Buf (Elt F) (aM.view.loc (c : Thread nD τ))) (fp : Buf (Elt F) (pM.view.loc (c : Thread nD τ)))
    (fb : Buf (Elt F) (bM.view.loc ((yn c : Dev nD) : Thread nD τ))) (fq : Buf (Elt F) (qM.view.loc ((xn c : Dev nD) : Thread nD τ))) :
    iprop(chunkLin c k ∗ chunkCred c k ∗ chunkPts aM c k fullShare fa ∗ chunkPts pM c k fullShare fp
        ∗ chunkPts bM (yn c) k fullShare fb ∗ chunkPts qM (xn c) k fullShare fq)
      ⊢ St0 (F := F) c k := by
  unfold St0
  iintro ⟨H1, H2, H3, H4, H5, H6⟩
  isplitl [H1]; · iexact H1
  isplitl [H2]; · iexact H2
  isplitl [H3]; · iexists fa; iexact H3
  isplitl [H4]; · iexists fp; iexact H4
  isplitl [H5]; · iexists fb; iexact H5
  iexists fq; iexact H6

/-- Every chunk's state after the entry handshake, from the pieces. -/
theorem St0_intro (c : Dev nD) (fa : Buf (Elt F) (aM.view.loc (c : Thread nD τ))) (fp : Buf (Elt F) (pM.view.loc (c : Thread nD τ)))
    (fb : Buf (Elt F) (bM.view.loc ((yn c : Dev nD) : Thread nD τ))) (fq : Buf (Elt F) (qM.view.loc ((xn c : Dev nD) : Thread nD τ))) :
    iprop((bigSep Finset.univ fun k : Fin 8 => chunkLin c k) ∗ (bigSep Finset.univ fun k : Fin 8 => chunkCred c k)
        ∗ (bigSep Finset.univ fun k : Fin 8 => chunkPts aM c k fullShare fa) ∗ (bigSep Finset.univ fun k : Fin 8 => chunkPts pM c k fullShare fp)
        ∗ (bigSep Finset.univ fun k : Fin 8 => chunkPts bM (yn c) k fullShare fb) ∗ (bigSep Finset.univ fun k : Fin 8 => chunkPts qM (xn c) k fullShare fq))
      ⊢ (bigSep Finset.univ fun k : Fin 8 => St0 (F := F) c k) := by
  rw [← bigSep_sep', ← bigSep_sep', ← bigSep_sep', ← bigSep_sep', ← bigSep_sep']
  exact bigSep_mono fun k _ => St0_intro1 c k fa fp fb fq

/-- One chunk's four cells closed at zero. -/
def closed (c : Dev nD) (k : Fin 8) : sProp 𝕄 :=
  iprop(semVal (s1C c k) 0 ∗ semVal (r1C c k) 0 ∗ semVal (s2C c k) 0 ∗ semVal (r2C c k) 0)

theorem St4_close (K : Dev nD × CI → ℕ) (c : Dev nD) (k : Fin 8) :
    iprop(records m ρ K ∗ St4 m ρ c k)
      ⊢ |={Set.univ}=> iprop(closed c k ∗ chunkPts aM c k fullShare (A1 m ρ c k) ∗ chunkPts bM c k fullShare (B1 m ρ c k)
          ∗ chunkPts pM c k fullShare (P1 m ρ c k) ∗ chunkPts qM c k fullShare (Q1 m ρ c k)) := by
  unfold St4 closed
  iintro ⟨#HR, ⟨Ha1, Har1, Ha2, Har2⟩, Ha, Hb, Hp, Hq⟩
  imod (Rounds.cell_close ER (Rd m ρ) (Set.mem_univ (K (c, .inr (0, k)))) (fun h => h) (R := 0 + 1) (duties_later m ρ (s1C c k))) $$ [Ha1] with Hz1
  · isplitr; · iapply (inv_s1 m ρ K c k); iexact HR
    iexact Ha1
  imod (Rounds.cell_close ER (Rd m ρ) (Set.mem_univ (K (c, .inr (1, k)))) (fun h => h) (R := 0 + 1) (duties_later m ρ (r1C c k))) $$ [Har1] with Hz2
  · isplitr; · iapply (inv_r1 m ρ K c k); iexact HR
    iexact Har1
  imod (Rounds.cell_close ER (Rd m ρ) (Set.mem_univ (K (c, .inr (2, k)))) (fun h => h) (R := 0 + 1) (duties_later m ρ (s2C c k))) $$ [Ha2] with Hz3
  · isplitr; · iapply (inv_s2 m ρ K c k); iexact HR
    iexact Ha2
  imod (Rounds.cell_close ER (Rd m ρ) (Set.mem_univ (K (c, .inr (3, k)))) (fun h => h) (R := 0 + 1) (duties_later m ρ (r2C c k))) $$ [Har2] with Hz4
  · isplitr; · iapply (inv_r2 m ρ K c k); iexact HR
    iexact Har2
  imodintro
  iframe

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem closed_all (c : Dev nD) :
    (bigSep Finset.univ fun k : Fin 8 => closed (F := F) c k) = bigSep Finset.univ fun ak : Fin 4 × Fin 8 => semVal (kcell (c, .inr ak)) 0 := by
  unfold closed
  rw [bigSep_univ_prod, bigSep_fin4, bigSep_sep', bigSep_sep', bigSep_sep']
  simp only [kcell_s1, kcell_r1, kcell_s2, kcell_r2]

/-- After the last wait: the transfer cells closed, the four scratch buffers whole again. -/
theorem finish (K : Dev nD × CI → ℕ) (c : Dev nD) :
    iprop(records m ρ K ∗ bigSep Finset.univ fun k : Fin 8 => St4 m ρ c k) ⊢ |={Set.univ}=> Φ₁ (F := F) c := by
  refine ((bigSep_with_persistent (R := records m ρ K) fun k _ => St4_close m ρ K c k).trans (bigSep_fupd _ _)).trans (BI.fupd_mono ?_)
  rw [bigSep_sep', bigSep_sep', bigSep_sep', bigSep_sep', closed_all]
  unfold Φ₁ scr
  iintro ⟨Hz, Ha, Hb, Hp, Hq⟩
  ihave Ha := (join_chunks aM c (fun k => A1 m ρ c k) (part_a c).1 (part_a c).2) $$ Ha
  ihave Hb := (join_chunks bM c (fun k => B1 m ρ c k) (part_b c).1 (part_b c).2) $$ Hb
  ihave Hp := (join_chunks pM c (fun k => P1 m ρ c k) (part_p c).1 (part_p c).2) $$ Hp
  ihave Hq := (join_chunks qM c (fun k => Q1 m ρ c k) (part_q c).1 (part_q c).2) $$ Hq
  isplitr [Hz]
  · isplitl [Ha]; · iexact Ha
    isplitl [Hb]; · iexact Hb
    isplitl [Hp]; · iexact Hp
    iexact Hq
  · iexact Hz

/-! ## What is owed, one chunk's credit at a time -/

omit [FloatOps F] in
theorem owes_step1 (c : Dev nD) (n : ℕ) (k : Fin 8) (hk : k.val = 7 - n) {W : Waits sig Unit} :
    (owes (c : Thread nD τ) (own1 c (n + 1)) W : sProp 𝕄) ⊢ owes (c : Thread nD τ) (own1 c n + T1 c k) W := by
  obtain ⟨kv, hkv⟩ := k
  simp only at hk
  subst hk; exact Entails.of_eq rfl
omit [FloatOps F] in
theorem owes_step2 (c : Dev nD) (n : ℕ) (k : Fin 8) (hk : k.val = 7 - n) {W : Waits sig Unit} :
    (owes (c : Thread nD τ) (own2 c (n + 1)) W : sProp 𝕄) ⊢ owes (c : Thread nD τ) (own2 c n + T2 c k) W := by
  obtain ⟨kv, hkv⟩ := k
  simp only at hk
  subst hk; exact Entails.of_eq rfl
omit [FloatOps F] in
theorem owes_10 (c : Dev nD) {W : Waits sig Unit} : (owes (c : Thread nD τ) (own1 c 0) W : sProp 𝕄) ⊢ owes (c : Thread nD τ) (own2 c 8) W := Entails.of_eq rfl
omit [FloatOps F] in
theorem owes_20 (c : Dev nD) {W : Waits sig Unit} : (owes (c : Thread nD τ) (own2 c 0) W : sProp 𝕄) ⊢ owes (c : Thread nD τ) 0 W := Entails.of_eq rfl
omit [FloatOps F] in
theorem mayWait_r1' (c : Dev nD) (n : ℕ) (k : Fin 8) (hk : k.val = 7 - n) :
    (levAts L lv : sProp 𝕄) ⊢ MayWait (c : Thread nD τ) (.dma (semk cc0_scratch5 k)) () (own2 c n + T2 c k) := by
  obtain ⟨kv, hkv⟩ := k
  simp only at hk
  subst hk; exact mayWait_r1 c _ (n + 1)

/-! ## The body -/

omit [FloatOps F] in
theorem scr_whole_b (c : Dev nD) : (scr (F := F) c cc0_scratch1) = wholePts bM c := by
  unfold wholePts; rw [show (bM : Memref sig .tc .vmem S8x64x512 .bf16).view.set = Finset.univ from View.set_whole _]
omit [FloatOps F] in
theorem scr_whole_q (c : Dev nD) : (scr (F := F) c cc0_scratch3) = wholePts qM c := by
  unfold wholePts; rw [show (qM : Memref sig .tc .vmem S8x64x512 .bf16).view.set = Finset.univ from View.set_whole _]

omit [FloatOps F] in
/-- A whole chunked buffer handed over is its eight chunks at some contents. -/
theorem wholePts_chunks (M : Memref sig .tc .vmem S8x64x512 .bf16) (c : Dev nD) (hM : M.view.set = Finset.univ)
    (hd : ∀ k k' : Fin 8, k ≠ k' → Disjoint (cset M c k) (cset M c k'))
    (hc : Finset.univ.biUnion (fun k : Fin 8 => cset M c k) = Finset.univ) :
    wholePts (F := F) M c ⊢ iprop(∃ f : Buf (Elt F) (M.view.loc (c : Thread nD τ)), bigSep Finset.univ fun k : Fin 8 => chunkPts M c k fullShare f) := by
  unfold wholePts; rw [hM]
  iintro ⟨%f, H⟩
  iexists f
  iapply (Entails.of_eq (split_chunks M c f hd hc)); iexact H

omit [FloatOps F] in
theorem own_chunks_a (c : Dev nD) (f : Buf (Elt F) ((c : Thread nD τ).loc cc0_scratch0)) :
    (((c : Thread nD τ).loc cc0_scratch0) ↦{fullShare} f : sProp 𝕄) ⊢ bigSep Finset.univ fun k : Fin 8 => chunkPts aM c k fullShare f :=
  Entails.of_eq (split_chunks aM c f (part_a c).1 (part_a c).2)
omit [FloatOps F] in
theorem own_chunks_p (c : Dev nD) (f : Buf (Elt F) ((c : Thread nD τ).loc cc0_scratch2)) :
    (((c : Thread nD τ).loc cc0_scratch2) ↦{fullShare} f : sProp 𝕄) ⊢ bigSep Finset.univ fun k : Fin 8 => chunkPts pM c k fullShare f :=
  Entails.of_eq (split_chunks pM c f (part_p c).1 (part_p c).2)

omit [FloatOps F] in
theorem St_flat (Φ : Fin 8 → sProp 𝕄) : bigSep Finset.univ Φ ⊢ iprop(Φ 0 ∗ Φ 1 ∗ Φ 2 ∗ Φ 3 ∗ Φ 4 ∗ Φ 5 ∗ Φ 6 ∗ Φ 7) := Entails.of_eq (bigSep_fin8 Φ)
omit [FloatOps F] in
theorem St_gather (Φ : Fin 8 → sProp 𝕄) : iprop(Φ 0 ∗ Φ 1 ∗ Φ 2 ∗ Φ 3 ∗ Φ 4 ∗ Φ 5 ∗ Φ 6 ∗ Φ 7) ⊢ bigSep Finset.univ Φ := Entails.of_eq (bigSep_fin8 Φ).symm

theorem outPieces_eq (c : Dev nD) : outPieces m ρ c
    = [⟨rx2 c 7, o2 m ρ c 7⟩, ⟨rx2 c 6, o2 m ρ c 6⟩, ⟨rx2 c 5, o2 m ρ c 5⟩, ⟨rx2 c 4, o2 m ρ c 4⟩,
       ⟨rx2 c 3, o2 m ρ c 3⟩, ⟨rx2 c 2, o2 m ρ c 2⟩, ⟨rx2 c 1, o2 m ρ c 1⟩, ⟨rx2 c 0, o2 m ρ c 0⟩,
       ⟨rx1 c 7, o1 m ρ c 7⟩, ⟨rx1 c 6, o1 m ρ c 6⟩, ⟨rx1 c 5, o1 m ρ c 5⟩, ⟨rx1 c 4, o1 m ρ c 4⟩,
       ⟨rx1 c 3, o1 m ρ c 3⟩, ⟨rx1 c 2, o1 m ρ c 2⟩, ⟨rx1 c 1, o1 m ρ c 1⟩, ⟨rx1 c 0, o1 m ρ c 0⟩] := rfl

/-- Owing nothing, whatever was waited on, is what the last point asks. -/
theorem owes_last (c : Dev nD) (W' : Waits sig Unit) : (owes (c : Thread nD τ) 0 W' : sProp 𝕄) ⊢ (dats m ρ 0 c).owesAt () t₀.succ := by
  unfold Dat.owesAt Pipeline.owesWithin
  rw [show (dats m ρ 0 c).owed t₀.succ = 0 from rfl]
  iintro H
  iexists W'
  isplitr; · ipureintro; exact fun _ _ => Or.inl trivial
  iexact H

/-- What device `c`'s body starts from, the cells' names fixed. -/
def bodyPre (K : Dev nD × CI → ℕ) (c : Dev nD) : sProp 𝕄 :=
  iprop((ghost m ρ K c ∗ cred (tallyAt (barC c) () 2) ∗ (bigSep Finset.univ fun k : Fin 8 => chunkCred c k) ∗ levAts L lv
      ∗ scr c cc0_scratch0 ∗ scr c cc0_scratch1 ∗ scr c cc0_scratch2 ∗ scr c cc0_scratch3)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
set_option maxHeartbeats 8000000 in
/-- The body on device `c`: the entry handshake, then the four phases chunk by chunk. -/
theorem sound_body (hbase : ∀ (c : Dev nD) (f : (cc0_stg1_0 : Ref sig .tc).ty.Contents (Elt F)), oM.view.writes (Elt F) f (outPieces m ρ c) = outAt m ρ c)
    (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
    k0_part19_skel k0_part20_skel k0_part21_skel k0_part22_skel k0_part23_skel k0_part24_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c,
    dev11_eq c, dev12_eq c, dev13_eq c, dev14_eq c, dev15_eq c, dev16_eq c, dev17_eq c, dev18_eq c]
  unfold bodyPre ghost lin
  iintro ⟨⟨⟨⟨#HR, HatB, HtBy, HtBx, Hlin⟩, HcB, Hcr, #Hlev, ⟨%fa, Hsa⟩, Hsb, ⟨%fp, Hsp⟩, Hsq⟩, Ho, ⟨%d0, %g0, %hg0, Hx⟩, ⟨%d1, %g1, %hg1, Hout⟩⟩, Hk⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  -- the handshake: a unit to the column mate's barrier cell with this device's column-receive buffer,
  iapply (Rounds.wp_signal 𝒱₀ ER (Rd m ρ) (c : Thread nD τ) none (dst := ((yn c : Dev nD) : Thread nD τ)) (κ := K (yn c, .inl ()))
      (d := false) (by rw [duties_bar]; exact Finset.mem_univ _) ((amount_bar m ρ (yn c) false).trans (by decide)) () (O₁ c) rfl)
    $$ [HO HtBy Hsb]
  · isplitr; · iapply (inv_bar m ρ K (yn c)); iexact HR
    isplitl [HO]; · iexact HO
    isplitl [HtBy]; · iexact HtBy
    isplitl [Hsb]; · rw [payload_bar_false, yn_yn, ← scr_whole_b]; iexact Hsb
    iapply (rch_bar m ρ K (yn c)); iexact HR
  iintro HO
  unfold O₁
  -- a unit to the row mate's with its row-receive buffer,
  iapply (Rounds.wp_signal 𝒱₀ ER (Rd m ρ) (c : Thread nD τ) none (dst := ((xn c : Dev nD) : Thread nD τ)) (κ := K (xn c, .inl ()))
      (d := true) (by rw [duties_bar]; exact Finset.mem_univ _) ((amount_bar m ρ (xn c) true).trans (by decide)) () (own1 c 8) rfl)
    $$ [HO HtBx Hsq]
  · isplitr; · iapply (inv_bar m ρ K (xn c)); iexact HR
    isplitl [HO]; · iexact HO
    isplitl [HtBx]; · iexact HtBx
    isplitl [Hsq]; · rw [payload_bar_true, xn_xn, ← scr_whole_q]; iexact Hsq
    iapply (rch_bar m ρ K (xn c)); iexact HR
  iintro HO
  -- and the wait for both mates' units, which bring their receive buffers
  iapply (Rounds.wp_wait_rest_token 𝒱₀ ER (Rd m ρ) (c : Thread nD τ) none (κ := K (c, .inl ()))
      (wpE_semWait_eq 𝒱₀ (c : Thread nD τ) none Set.univ) (Set.mem_univ _) () (O := own1 c 8) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  icases Hp with ⟨Hbn, Hqn⟩
  ihave Hbn := (wholePts_chunks bM (yn c) (View.set_whole _) (part_b (yn c)).1 (part_b (yn c)).2) $$ Hbn
  icases Hbn with ⟨%fbn, Hbn⟩
  ihave Hqn := (wholePts_chunks qM (xn c) (View.set_whole _) (part_q (xn c)).1 (part_q (xn c)).2) $$ Hqn
  icases Hqn with ⟨%fqn, Hqn⟩
  ihave Hsa := (own_chunks_a c fa) $$ Hsa
  ihave Hsp := (own_chunks_p c fp) $$ Hsp
  ihave HS := (St0_intro c fa fp fbn fqn) $$ [Hlin Hcr Hsa Hsp Hbn Hqn]
  · iframe
  ihave HS := (St_flat fun k => St0 (F := F) c k) $$ HS
  icases HS with ⟨S0, S1, S2, S3, S4, S5, S6, S7⟩
  ihave Hx := (Entails.of_eq (show (((c : Thread nD τ).loc cc0_stg0_0) ↦{fullShare} xstg m ρ c : sProp 𝕄) = xP m ρ c from rfl)) $$ Hx
  -- phase 1: each chunk of the own half rounded, stored and sent down the column
  ihave HO := (owes_step1 c 7 0 rfl) $$ HO
  iapply (seg1 m ρ K c 0 _ (dev3_eq c) (own1 c 7) _) $$ [Hx S0 HO]
  · isplitr; · iexact HR
    iframe
  iintro ⟨Hx, S0, HO⟩
  ihave HO := (owes_step1 c 6 1 rfl) $$ HO
  iapply (seg1 m ρ K c 1 _ (dev4_eq c) (own1 c 6) _) $$ [Hx S1 HO]
  · isplitr; · iexact HR
    iframe
  iintro ⟨Hx, S1, HO⟩
  ihave HO := (owes_step1 c 5 2 rfl) $$ HO
  iapply (seg1 m ρ K c 2 _ (dev5_eq c) (own1 c 5) _) $$ [Hx S2 HO]
  · isplitr; · iexact HR
    iframe
  iintro ⟨Hx, S2, HO⟩
  ihave HO := (owes_step1 c 4 3 rfl) $$ HO
  iapply (seg1 m ρ K c 3 _ (dev6_eq c) (own1 c 4) _) $$ [Hx S3 HO]
  · isplitr; · iexact HR
    iframe
  iintro ⟨Hx, S3, HO⟩
  ihave HO := (owes_step1 c 3 4 rfl) $$ HO
  iapply (seg1 m ρ K c 4 _ (dev7_eq c) (own1 c 3) _) $$ [Hx S4 HO]
  · isplitr; · iexact HR
    iframe
  iintro ⟨Hx, S4, HO⟩
  ihave HO := (owes_step1 c 2 5 rfl) $$ HO
  iapply (seg1 m ρ K c 5 _ (dev8_eq c) (own1 c 2) _) $$ [Hx S5 HO]
  · isplitr; · iexact HR
    iframe
  iintro ⟨Hx, S5, HO⟩
  ihave HO := (owes_step1 c 1 6 rfl) $$ HO
  iapply (seg1 m ρ K c 6 _ (dev9_eq c) (own1 c 1) _) $$ [Hx S6 HO]
  · isplitr; · iexact HR
    iframe
  iintro ⟨Hx, S6, HO⟩
  ihave HO := (owes_step1 c 0 7 rfl) $$ HO
  iapply (seg1 m ρ K c 7 _ (dev10_eq c) (own1 c 0) _) $$ [Hx S7 HO]
  · isplitr; · iexact HR
    iframe
  iintro ⟨Hx, S7, HO⟩
  -- phase 2: each column sum formed, sent along the row and stored
  ihave HO := (owes_10 c) $$ HO
  ihave Hout := (Entails.of_eq (show (((c : Thread nD τ).loc cc0_stg1_0) ↦{fullShare} g1 : sProp 𝕄) = oP c g1 [] from rfl)) $$ Hout
  ihave HO := (owes_step2 c 7 0 rfl) $$ HO
  iapply (seg2 m ρ K c 0 _ (dev11_eq c) (own2 c 7) _ g1 _ (mayWait_r1' c 7 0 rfl)) $$ [Hout S0 HO]
  · isplitr; · iexact HR
    isplitr; · iexact Hlev
    iframe
  iintro ⟨Hout, S0, HO⟩
  ihave HO := (owes_step2 c 6 1 rfl) $$ HO
  iapply (seg2 m ρ K c 1 _ (dev12_eq c) (own2 c 6) _ g1 _ (mayWait_r1' c 6 1 rfl)) $$ [Hout S1 HO]
  · isplitr; · iexact HR
    isplitr; · iexact Hlev
    iframe
  iintro ⟨Hout, S1, HO⟩
  ihave HO := (owes_step2 c 5 2 rfl) $$ HO
  iapply (seg2 m ρ K c 2 _ (dev13_eq c) (own2 c 5) _ g1 _ (mayWait_r1' c 5 2 rfl)) $$ [Hout S2 HO]
  · isplitr; · iexact HR
    isplitr; · iexact Hlev
    iframe
  iintro ⟨Hout, S2, HO⟩
  ihave HO := (owes_step2 c 4 3 rfl) $$ HO
  iapply (seg2 m ρ K c 3 _ (dev14_eq c) (own2 c 4) _ g1 _ (mayWait_r1' c 4 3 rfl)) $$ [Hout S3 HO]
  · isplitr; · iexact HR
    isplitr; · iexact Hlev
    iframe
  iintro ⟨Hout, S3, HO⟩
  ihave HO := (owes_step2 c 3 4 rfl) $$ HO
  iapply (seg2 m ρ K c 4 _ (dev15_eq c) (own2 c 3) _ g1 _ (mayWait_r1' c 3 4 rfl)) $$ [Hout S4 HO]
  · isplitr; · iexact HR
    isplitr; · iexact Hlev
    iframe
  iintro ⟨Hout, S4, HO⟩
  ihave HO := (owes_step2 c 2 5 rfl) $$ HO
  iapply (seg2 m ρ K c 5 _ (dev16_eq c) (own2 c 2) _ g1 _ (mayWait_r1' c 2 5 rfl)) $$ [Hout S5 HO]
  · isplitr; · iexact HR
    isplitr; · iexact Hlev
    iframe
  iintro ⟨Hout, S5, HO⟩
  ihave HO := (owes_step2 c 1 6 rfl) $$ HO
  iapply (seg2 m ρ K c 6 _ (dev17_eq c) (own2 c 1) _ g1 _ (mayWait_r1' c 1 6 rfl)) $$ [Hout S6 HO]
  · isplitr; · iexact HR
    isplitr; · iexact Hlev
    iframe
  iintro ⟨Hout, S6, HO⟩
  ihave HO := (owes_step2 c 0 7 rfl) $$ HO
  iapply (seg2 m ρ K c 7 _ (dev18_eq c) (own2 c 0) _ g1 _ (mayWait_r1' c 0 7 rfl)) $$ [Hout S7 HO]
  · isplitr; · iexact HR
    isplitr; · iexact Hlev
    iframe
  iintro ⟨Hout, S7, HO⟩
  ihave HO := (owes_20 c) $$ HO
  -- phase 3: each of the row mate's column sums landed and stored
  iapply (seg3 m ρ K c 0 _ g1 _) $$ [Hout S0 HO]
  · isplitr; · iexact HR
    iframe
  iintro ⟨Hout, S0, HO⟩
  iapply (seg3 m ρ K c 1 _ g1 _) $$ [Hout S1 HO]
  · isplitr; · iexact HR
    iframe
  iintro ⟨Hout, S1, HO⟩
  iapply (seg3 m ρ K c 2 _ g1 _) $$ [Hout S2 HO]
  · isplitr; · iexact HR
    iframe
  iintro ⟨Hout, S2, HO⟩
  iapply (seg3 m ρ K c 3 _ g1 _) $$ [Hout S3 HO]
  · isplitr; · iexact HR
    iframe
  iintro ⟨Hout, S3, HO⟩
  iapply (seg3 m ρ K c 4 _ g1 _) $$ [Hout S4 HO]
  · isplitr; · iexact HR
    iframe
  iintro ⟨Hout, S4, HO⟩
  iapply (seg3 m ρ K c 5 _ g1 _) $$ [Hout S5 HO]
  · isplitr; · iexact HR
    iframe
  iintro ⟨Hout, S5, HO⟩
  iapply (seg3 m ρ K c 6 _ g1 _) $$ [Hout S6 HO]
  · isplitr; · iexact HR
    iframe
  iintro ⟨Hout, S6, HO⟩
  iapply (seg3 m ρ K c 7 _ g1 _) $$ [Hout S7 HO]
  · isplitr; · iexact HR
    iframe
  iintro ⟨Hout, S7, HO⟩
  -- phase 4: both sends of each chunk have read their sources
  iapply (seg4 m ρ K c 0 _) $$ [S0 HO]
  · isplitr; · iexact HR
    iframe
  iintro ⟨S0, HO⟩
  iapply (seg4 m ρ K c 1 _) $$ [S1 HO]
  · isplitr; · iexact HR
    iframe
  iintro ⟨S1, HO⟩
  iapply (seg4 m ρ K c 2 _) $$ [S2 HO]
  · isplitr; · iexact HR
    iframe
  iintro ⟨S2, HO⟩
  iapply (seg4 m ρ K c 3 _) $$ [S3 HO]
  · isplitr; · iexact HR
    iframe
  iintro ⟨S3, HO⟩
  iapply (seg4 m ρ K c 4 _) $$ [S4 HO]
  · isplitr; · iexact HR
    iframe
  iintro ⟨S4, HO⟩
  iapply (seg4 m ρ K c 5 _) $$ [S5 HO]
  · isplitr; · iexact HR
    iframe
  iintro ⟨S5, HO⟩
  iapply (seg4 m ρ K c 6 _) $$ [S6 HO]
  · isplitr; · iexact HR
    iframe
  iintro ⟨S6, HO⟩
  iapply (seg4 m ρ K c 7 _) $$ [S7 HO]
  · isplitr; · iexact HR
    iframe
  iintro ⟨S7, HO⟩
  -- the cells close, the scratch buffers are whole again
  ihave HS := (St_gather fun k => St4 m ρ c k) $$ [S0 S1 S2 S3 S4 S5 S6 S7]
  · iframe
  imod (finish m ρ K c) $$ [HS] with HΦ
  · isplitr; · iexact HR
    iexact HS
  rw [wp_ret]; imodintro
  iapply Hk
  unfold bodyPost
  isplitl [HΦ]; · iexact HΦ
  isplitl [HO]
  · iapply (owes_last m ρ c _); iexact HO
  isplitl [Hx]
  · iexists _; isplitr; · (ipureintro; rfl)
    unfold xP; iexact Hx
  iexists _
  isplitr
  · ipureintro
    exact (congrArg (oM.view.writes (Elt F) g1) (outPieces_eq m ρ c).symm).trans (hbase c g1)
  unfold oP; iexact Hout

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

section Obligation
attribute [local irreducible] outAt

set_option maxHeartbeats 1600000 in
set_option maxRecDepth 65536 in
/-- The body obligation on device `c`, given that the sixteen stores cover the result's staging buffer. -/
theorem body_obligation (hbase : ∀ (c : Dev nD) (f : (cc0_stg1_0 : Ref sig .tc).ty.Contents (Elt F)), oM.view.writes (Elt F) f (outPieces m ρ c) = outAt m ρ c)
    (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7) (fun _ => bodyPost m ρ c)
  unfold bodyPre' Φ₀ start
  iintro ⟨⟨⟨⟨%K, Hg⟩, Hc, Hcr, Hlev⟩, Hs0, Hs1, Hs2, Hs3⟩, Ho, Hx, Hout⟩
  iapply (sound_body m ρ hbase K c fun _ => bodyPost m ρ c)
  unfold bodyPre
  isplitr []
  · isplitl [Hg Hc Hcr Hlev Hs0 Hs1 Hs2 Hs3]
    · iframe
    iframe
  · iintro H; iexact H

end Obligation

/-- info: 'Cert.KernelProof.body_obligation' depends on axioms: [propext, Classical.choice, Quot.sound] -/
#guard_msgs in #print axioms body_obligation

end Cert.KernelProof
end
-- ==== Proof.K.Launch.lean ====
import proofs.«900138_g7700000000000139_dist_ar_v7x_xy2x2_y_m1024_n512_bf16_1_alg».proof.Proof.K.Proto

/-! The launch: the protocol's ghost state allocated for all devices at once, the launch credit read off
what the devices owe, and the run of the whole mesh from the body's obligation. -/

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens the launch allocates -/

/-- The kernel's own scoped semaphores: the 32 transfer cells. -/
abbrev osem : Fin 4 × Fin 8 → SemLoc sig := fun ak => csem (.inr ak)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × CI → GSem nD τ sig) := by
  rintro ⟨c, i⟩ ⟨c', i'⟩ h
  have h1 : c = c' := by have := congrArg (fun g : GSem nD τ sig => g.1.1) h; exact this
  subst h1
  have h2 : csem i = csem i' := congrArg Prod.snd h
  rw [csem_injective h2]

def ourCells : Finset (GSem nD τ sig) := Finset.univ.map ⟨kcell, kcell_injective⟩

/-- The duty tokens minted: every cell's `false` token, and each barrier cell's `true` token. -/
abbrev tokOf (cj : Dev nD × (Unit ⊕ CI)) : GSem nD τ sig × ℕ × Bool := match cj.2 with
  | .inl _ => (barC cj.1, 0, true)
  | .inr i => (kcell (cj.1, i), 0, false)

theorem tokOf_injective : Function.Injective (tokOf : Dev nD × (Unit ⊕ CI) → GSem nD τ sig × ℕ × Bool) := by
  rintro ⟨c, j⟩ ⟨c', j'⟩ h
  have h1 : c = c' := by
    have := congrArg (fun x : GSem nD τ sig × ℕ × Bool => x.1.1.1) h
    rcases j with _ | i <;> rcases j' with _ | i' <;> exact this
  subst h1
  rcases j with ⟨⟩ | i <;> rcases j' with ⟨⟩ | i'
  · rfl
  · have h3 : true = false := congrArg (fun x : GSem nD τ sig × ℕ × Bool => x.2.2) h
    exact absurd h3 (by decide)
  · have h3 : false = true := congrArg (fun x : GSem nD τ sig × ℕ × Bool => x.2.2) h
    exact absurd h3 (by decide)
  · have h3 : kcell (c, i) = kcell (c, i') := congrArg (fun x : GSem nD τ sig × ℕ × Bool => x.1) h
    have h4 := kcell_injective h3
    cases h4; rfl

def ourToks : Finset (GSem nD τ sig × ℕ × Bool) := Finset.univ.map ⟨tokOf, tokOf_injective⟩

def u₀ : UU :=
  (initOf (Pipeline.cells cfgs cellOf_inj) (Pipeline.launchToks cfgs cellOf_inj), initOf ourCells ourToks)

/-- The duty tokens of device `c`'s own cells. -/
def toks (c : Dev nD) : sProp 𝕄 :=
  iprop(dutyTok ER (barC c) 0 true ∗ bigSep Finset.univ fun i : CI => dutyTok ER (kcell (c, i)) 0 false)

/-- What the launch element deals device `c`. -/
def G (c : Dev nD) : sProp 𝕄 :=
  iprop((bigSep Finset.univ fun i : CI => roundState ER (Rd m ρ) (kcell (c, i)) 0)
    ∗ (bigSep Finset.univ fun i : CI => iprop(atPos ER (kcell (c, i)) 0 ∅ 0 ∗ reached ER (kcell (c, i)) 0)) ∗ toks c)

/-- What the global step makes of it. -/
def G' (c : Dev nD) : sProp 𝕄 := iprop(∃ K, ghost m ρ K c)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_sum' {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

omit [FloatOps F] in
/-- A device's 33 cells, kind by kind. -/
theorem bigSep_CI (Y : CI → sProp 𝕄) : bigSep Finset.univ Y
    = iprop(Y (.inl ()) ∗ (bigSep Finset.univ fun k : Fin 8 => Y (.inr (0, k))) ∗ (bigSep Finset.univ fun k : Fin 8 => Y (.inr (1, k)))
        ∗ (bigSep Finset.univ fun k : Fin 8 => Y (.inr (2, k))) ∗ (bigSep Finset.univ fun k : Fin 8 => Y (.inr (3, k)))) := by
  rw [bigSep_sum', bigSep_univ_of_subsingleton (), bigSep_univ_prod, bigSep_fin4]

omit [FloatOps F] in
theorem bigSep_cells (X : GSem nD τ sig → sProp 𝕄) (c : Dev nD) : (bigSep Finset.univ fun i : CI => X (kcell (c, i)))
    = iprop(X (barC c) ∗ (bigSep Finset.univ fun k : Fin 8 => X (s1C c k)) ∗ (bigSep Finset.univ fun k : Fin 8 => X (r1C c k))
        ∗ (bigSep Finset.univ fun k : Fin 8 => X (s2C c k)) ∗ (bigSep Finset.univ fun k : Fin 8 => X (r2C c k))) := by
  have e0 : (fun k : Fin 8 => X (kcell (c, .inr (0, k)))) = fun k => X (s1C c k) := funext fun k => by rw [kcell_s1]
  have e1 : (fun k : Fin 8 => X (kcell (c, .inr (1, k)))) = fun k => X (r1C c k) := funext fun k => by rw [kcell_r1]
  have e2 : (fun k : Fin 8 => X (kcell (c, .inr (2, k)))) = fun k => X (s2C c k) := funext fun k => by rw [kcell_s2]
  have e3 : (fun k : Fin 8 => X (kcell (c, .inr (3, k)))) = fun k => X (r2C c k) := funext fun k => by rw [kcell_r2]
  rw [bigSep_CI, e0, e1, e2, e3]

theorem fund_ours : BI.own (ER (initOf ourCells ourToks)) ⊢ (|==> bigSep Finset.univ (G m ρ) : sProp 𝕄) := by
  have hX (Φ : GSem nD τ sig → sProp 𝕄) : bigSep ourCells Φ = bigSep Finset.univ fun c : Dev nD => bigSep Finset.univ fun i : CI => Φ (kcell (c, i)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks; rw [bigSep_map, bigSep_univ_prod]
    exact bigSep_congr fun c _ => by unfold toks; rw [bigSep_sum', bigSep_univ_of_subsingleton ()]; rfl
  iintro HX
  imod (Rounds.fund ER (Rd m ρ) ourCells ourToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The 32 transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun ak : Fin 4 × Fin 8 => semVal (kcell (c, .inr ak)) 0 := rfl
omit [FloatOps F] in
/-- the barrier semaphore the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, bigSep_sum', bigSep_univ_of_subsingleton ()]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd m ρ) (kcell (c, i)) 0)
      ⊢ (|={Set.univ}=> bigSep Finset.univ fun i : CI => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop(dutyTok ER (barC (xn c)) 0 true ∗ dutyTok ER (barC (yn c)) 0 false
    ∗ (bigSep Finset.univ fun k : Fin 8 => dutyTok ER (s1C c k) 0 false) ∗ (bigSep Finset.univ fun k : Fin 8 => dutyTok ER (r1C (yn c) k) 0 false)
    ∗ (bigSep Finset.univ fun k : Fin 8 => dutyTok ER (s2C c k) 0 false) ∗ (bigSep Finset.univ fun k : Fin 8 => dutyTok ER (r2C (xn c) k) 0 false))

/-- What stays with device `c`: its positions, and the tokens of the duties it pays. -/
def linear (c : Dev nD) : sProp 𝕄 :=
  iprop((bigSep Finset.univ fun i : CI => atPos ER (kcell (c, i)) 0 ∅ 0) ∗ payToks c)

theorem ghost_intro (K : Dev nD × CI → ℕ) (c : Dev nD) : iprop(records m ρ K ∗ linear c) ⊢ G' m ρ c := by
  unfold linear payToks G' ghost lin
  rw [bigSep_cells (fun g => atPos ER g 0 ∅ 0) c]
  simp only [chunkLin, bigSep_sep']
  iintro ⟨#HR, ⟨HaB, Ha1, Ha2, Ha3, Ha4⟩, HtT, HtF, H1, HR1, H2, HR2⟩
  iexists K
  isplitr; · iexact HR
  isplitl [HaB]; · iexact HaB
  isplitl [HtF]; · iexact HtF
  isplitl [HtT]; · iexact HtT
  isplitl [Ha1]; · iexact Ha1
  isplitl [Ha2]; · iexact Ha2
  isplitl [Ha3]; · iexact Ha3
  isplitl [Ha4]; · iexact Ha4
  isplitl [H1]; · iexact H1
  isplitl [HR1]; · iexact HR1
  isplitl [H2]; · iexact H2
  iexact HR2

omit [FloatOps F] in
/-- The tokens dealt to their payers: a barrier cell's `true` token to the row mate, its `false` token to the
    column mate; a column-receive cell's token to the column mate, a row-receive cell's to the row mate. -/
theorem toks_around : (bigSep Finset.univ fun c : Dev nD => (toks c : sProp 𝕄)) ⊢ bigSep Finset.univ fun c : Dev nD => payToks c := by
  have ht (c : Dev nD) : (toks c : sProp 𝕄) = iprop(dutyTok ER (barC c) 0 true ∗ dutyTok ER (barC c) 0 false
      ∗ (bigSep Finset.univ fun k : Fin 8 => dutyTok ER (s1C c k) 0 false) ∗ (bigSep Finset.univ fun k : Fin 8 => dutyTok ER (r1C c k) 0 false)
      ∗ (bigSep Finset.univ fun k : Fin 8 => dutyTok ER (s2C c k) 0 false) ∗ (bigSep Finset.univ fun k : Fin 8 => dutyTok ER (r2C c k) 0 false)) := by
    unfold toks; rw [bigSep_cells (fun g => dutyTok ER g 0 false) c]
  rw [bigSep_congr (s := Finset.univ) fun c _ => ht c]
  unfold payToks
  simp only [bigSep_sep']
  rw [bigSep_univ_equiv xnE (fun c : Dev nD => (dutyTok ER (barC c) 0 true : sProp 𝕄)),
    bigSep_univ_equiv ynE (fun c : Dev nD => (dutyTok ER (barC c) 0 false : sProp 𝕄)),
    bigSep_univ_equiv ynE (fun c : Dev nD => (bigSep Finset.univ fun k : Fin 8 => dutyTok ER (r1C c k) 0 false : sProp 𝕄)),
    bigSep_univ_equiv xnE (fun c : Dev nD => (bigSep Finset.univ fun k : Fin 8 => dutyTok ER (r2C c k) 0 false : sProp 𝕄))]
  iintro ⟨HT, HF, H1, HR1, H2, HR2⟩
  isplitl [HT]; · iexact HT
  isplitl [HF]; · iexact HF
  isplitl [H1]; · iexact H1
  isplitl [HR1]; · iexact HR1
  isplitl [H2]; · iexact H2
  iexact HR2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun i : CI => (atPos ER (kcell (c, i)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_inj {a b : Dev nD} (h : barC a = barC b) : a = b := Fin.ext (congrArg (fun g : GSem nD τ sig => g.1.1.val) h)

theorem cell_kind {a b : Dev nD} {p q : Fin 4} {j k : Fin 8} (h : kcell (a, .inr (p, j)) = kcell (b, .inr (q, k))) : a = b ∧ p = q ∧ j = k := by
  have h' := kcell_injective h
  simp only [Prod.mk.injEq, Sum.inr.injEq] at h'
  exact h'

theorem r1C_inj {a b : Dev nD} {j k : Fin 8} (h : r1C a j = r1C b k) : a = b ∧ j = k := by
  have := cell_kind ((kcell_r1 a j).trans (h.trans (kcell_r1 b k).symm))
  exact ⟨this.1, this.2.2⟩
theorem r2C_inj {a b : Dev nD} {j k : Fin 8} (h : r2C a j = r2C b k) : a = b ∧ j = k := by
  have := cell_kind ((kcell_r2 a j).trans (h.trans (kcell_r2 b k).symm))
  exact ⟨this.1, this.2.2⟩
theorem r1C_ne_r2C (a b : Dev nD) (j k : Fin 8) : r1C a j ≠ r2C b k := fun h => by
  have := cell_kind ((kcell_r1 a j).trans (h.trans (kcell_r2 b k).symm))
  exact absurd this.2.1 (by decide)
theorem bar_ne_r1 (a b : Dev nD) (k : Fin 8) : barC a ≠ r1C b k := fun h => by
  have h2 : (SemLoc.reg barS : SemLoc sig) = .dma (semk cc0_scratch5 k) := congrArg Prod.snd h
  cases h2
theorem bar_ne_r2 (a b : Dev nD) (k : Fin 8) : barC a ≠ r2C b k := fun h => by
  have h2 : (SemLoc.reg barS : SemLoc sig) = .dma (semk cc0_scratch7 k) := congrArg Prod.snd h
  cases h2

theorem T1_r1 (d c : Dev nD) (j k : Fin 8) : T1 d j (r1C c k) () = if d = yn c ∧ j.val = k.val then NN else 0 := by
  unfold T1; rw [tallyAt_apply]
  by_cases h : d = yn c ∧ j.val = k.val
  · obtain ⟨rfl, hjk⟩ := h
    have hjk' : j = k := Fin.ext hjk
    subst hjk'
    rw [yn_yn, if_pos ⟨rfl, rfl⟩, if_pos ⟨rfl, rfl⟩]
  · rw [if_neg h, if_neg]
    rintro ⟨h1, -⟩
    obtain ⟨rfl, rfl⟩ := r1C_inj h1
    exact h ⟨(yn_yn d).symm, rfl⟩

theorem T2_r2 (d c : Dev nD) (j k : Fin 8) : T2 d j (r2C c k) () = if d = xn c ∧ j.val = k.val then NN else 0 := by
  unfold T2; rw [tallyAt_apply]
  by_cases h : d = xn c ∧ j.val = k.val
  · obtain ⟨rfl, hjk⟩ := h
    have hjk' : j = k := Fin.ext hjk
    subst hjk'
    rw [xn_xn, if_pos ⟨rfl, rfl⟩, if_pos ⟨rfl, rfl⟩]
  · rw [if_neg h, if_neg]
    rintro ⟨h1, -⟩
    obtain ⟨rfl, rfl⟩ := r2C_inj h1
    exact h ⟨(xn_xn d).symm, rfl⟩

theorem T1_r2 (d c : Dev nD) (j k : Fin 8) : T1 d j (r2C c k) () = 0 := by
  unfold T1; rw [tallyAt_ne_cell (fun h => r1C_ne_r2C _ _ _ _ h.symm)]; rfl

/-- The row debt with the last `n` chunks unpaid, at a row-receive cell. -/
theorem own2_r2 (d c : Dev nD) (k : Fin 8) : ∀ n, n ≤ 8 → own2 d n (r2C c k) () = if d = xn c ∧ 8 ≤ k.val + n then NN else 0
  | 0, _ => by rw [if_neg (fun h => by have := k.isLt; omega)]; rfl
  | n + 1, hn => by
    have hI := own2_r2 d c k n (by omega)
    have hT := T2_r2 d c ⟨7 - n, by omega⟩ k
    have hk := k.isLt
    show (own2 d n + T2 d ⟨7 - n, by omega⟩) (r2C c k) () = _
    rw [Pi.add_apply, Finsupp.add_apply, hI, hT]
    by_cases hd : d = xn c
    · subst hd
      simp only [eq_self_iff_true, true_and, Fin.val_mk]
      split_ifs <;> omega
    · rw [if_neg (fun h => hd h.1), if_neg (fun h => hd h.1), if_neg (fun h => hd h.1)]

theorem own2_r1 (d c : Dev nD) (k : Fin 8) (n : ℕ) : own2 d n (r1C c k) () = 0 :=
  Nat.eq_zero_of_not_pos fun h => by
    obtain ⟨k', hk⟩ := own2_pos d n h
    exact r1C_ne_r2C _ _ _ _ hk

/-- The column debt with the last `n` chunks unpaid, at a column-receive cell. -/
theorem own1_r1 (d c : Dev nD) (k : Fin 8) : ∀ n, n ≤ 8 → own1 d n (r1C c k) () = if d = yn c ∧ 8 ≤ k.val + n then NN else 0
  | 0, _ => by
    rw [if_neg (fun h => by have := k.isLt; omega)]
    exact own2_r1 d c k 8
  | n + 1, hn => by
    have hI := own1_r1 d c k n (by omega)
    have hT := T1_r1 d c ⟨7 - n, by omega⟩ k
    have hk := k.isLt
    show (own1 d n + T1 d ⟨7 - n, by omega⟩) (r1C c k) () = _
    rw [Pi.add_apply, Finsupp.add_apply, hI, hT]
    by_cases hd : d = yn c
    · subst hd
      simp only [eq_self_iff_true, true_and, Fin.val_mk]
      split_ifs <;> omega
    · rw [if_neg (fun h => hd h.1), if_neg (fun h => hd h.1), if_neg (fun h => hd h.1)]

theorem own1_r2 (d c : Dev nD) (k : Fin 8) : ∀ n, own1 d n (r2C c k) () = if d = xn c then NN else 0
  | 0 => by
    show own2 d 8 (r2C c k) () = _
    rw [own2_r2 d c k 8 le_rfl]
    by_cases hd : d = xn c
    · rw [if_pos ⟨hd, by omega⟩, if_pos hd]
    · rw [if_neg (fun h => hd h.1), if_neg hd]
  | n + 1 => by
    show (own1 d n + T1 d ⟨7 - n, by omega⟩) (r2C c k) () = _
    rw [Pi.add_apply, Finsupp.add_apply, own1_r2 d c k n, T1_r2, Nat.add_zero]

theorem own1_bar (d c : Dev nD) (n : ℕ) : own1 d n (barC c) () = 0 :=
  Nat.eq_zero_of_not_pos fun h => by
    rcases own1_pos d n h with ⟨k, hk⟩ | ⟨k, hk⟩
    · exact bar_ne_r1 _ _ _ hk
    · exact bar_ne_r2 _ _ _ hk

omit [FloatOps F] in
theorem tally_bar (e : Dev nD → Dev nD) (he : ∀ c, e (e c) = c) (d c : Dev nD) :
    (tallyAt (barC (e d)) () 1 : CellTallies nD τ sig Unit) (barC c) () = if d = e c then 1 else 0 := by
  rw [tallyAt_apply]
  by_cases h : d = e c
  · subst h; rw [he, if_pos ⟨rfl, rfl⟩, if_pos rfl]
  · rw [if_neg h, if_neg]
    rintro ⟨h1, -⟩
    exact h (by rw [bar_inj h1, he])

/-- What device `d` owes device `c`'s barrier cell: a unit if it is the row mate, a unit if it is the column mate. -/
theorem owed_bar (d c : Dev nD) : O₀ d (barC c) () = (if d = xn c then 1 else 0) + (if d = yn c then 1 else 0) := by
  unfold O₀ O₁
  rw [Pi.add_apply, Finsupp.add_apply, Pi.add_apply, Finsupp.add_apply, own1_bar, Nat.zero_add, tally_bar xn xn_xn, tally_bar yn yn_yn]

theorem owed_r1 (d c : Dev nD) (k : Fin 8) : O₀ d (r1C c k) () = if d = yn c then NN else 0 := by
  unfold O₀ O₁
  rw [Pi.add_apply, Finsupp.add_apply, Pi.add_apply, Finsupp.add_apply, own1_r1 d c k 8 le_rfl,
    tallyAt_ne_cell (fun h => bar_ne_r1 _ _ _ h.symm), tallyAt_ne_cell (fun h => bar_ne_r1 _ _ _ h.symm), Finsupp.zero_apply, Nat.add_zero, Nat.add_zero]
  by_cases hd : d = yn c
  · rw [if_pos ⟨hd, by omega⟩, if_pos hd]
  · rw [if_neg (fun h => hd h.1), if_neg hd]

theorem owed_r2 (d c : Dev nD) (k : Fin 8) : O₀ d (r2C c k) () = if d = xn c then NN else 0 := by
  unfold O₀ O₁
  rw [Pi.add_apply, Finsupp.add_apply, Pi.add_apply, Finsupp.add_apply, own1_r2 d c k 8,
    tallyAt_ne_cell (fun h => bar_ne_r2 _ _ _ h.symm), tallyAt_ne_cell (fun h => bar_ne_r2 _ _ _ h.symm), Finsupp.zero_apply, Nat.add_zero, Nat.add_zero]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yn c) fun _ => 1, if_pos (Finset.mem_univ _), if_pos (Finset.mem_univ _)]

theorem launch_r1 (c : Dev nD) (k : Fin 8) :
    tallyOn (r1C c k) (launchCredit (Pipeline.owing O₀) 0 (r1C c k)) = (tallyAt (r1C c k) () NN : CellTallies nD τ sig Unit) := by
  unfold tallyAt; refine congrArg _ (Finsupp.ext fun u => ?_); cases u
  rw [Pipeline.launchCredit_owing, Finsupp.single_eq_same, Finset.sum_congr rfl fun d _ => owed_r1 d c k, Finset.sum_ite_eq' Finset.univ (yn c) fun _ => NN,
    if_pos (Finset.mem_univ _)]

theorem launch_r2 (c : Dev nD) (k : Fin 8) :
    tallyOn (r2C c k) (launchCredit (Pipeline.owing O₀) 0 (r2C c k)) = (tallyAt (r2C c k) () NN : CellTallies nD τ sig Unit) := by
  unfold tallyAt; refine congrArg _ (Finsupp.ext fun u => ?_); cases u
  rw [Pipeline.launchCredit_owing, Finsupp.single_eq_same, Finset.sum_congr rfl fun d _ => owed_r2 d c k, Finset.sum_ite_eq' Finset.univ (xn c) fun _ => NN,
    if_pos (Finset.mem_univ _)]

omit [FloatOps F] in
theorem launchCred_cells (c : Dev nD) : (Pipeline.launchCred O₀ c : sProp 𝕄)
    ⊢ bigSep Finset.univ fun i : CI => cred (tallyOn (kcell (c, i)) (launchCredit (Pipeline.owing O₀) 0 (kcell (c, i)))) := by
  unfold Pipeline.launchCred
  refine (bigSep_subset (t := Finset.univ.map ⟨csem, csem_injective⟩) (Finset.subset_univ _)).trans ?_
  rw [bigSep_map]
  exact Entails.refl _

omit [FloatOps F] in
theorem creds (c : Dev nD) :
    (Pipeline.launchCred O₀ c : sProp 𝕄) ⊢ iprop(cred (tallyAt (barC c) () 2) ∗ bigSep Finset.univ (chunkCred c)) := by
  refine (launchCred_cells (F := F) c).trans ?_
  rw [bigSep_cells (fun g => cred (tallyOn g (launchCredit (Pipeline.owing O₀) 0 g))) c]
  simp only [launch_bar, launch_r1, launch_r2]
  show _ ⊢ iprop(_ ∗ bigSep Finset.univ fun k : Fin 8 => iprop(cred (tallyAt (r1C c k) () NN) ∗ cred (tallyAt (r2C c k) () NN)))
  rw [bigSep_sep']
  iintro ⟨HB, -, H1, -, H2⟩
  isplitl [HB]; · iexact HB
  isplitl [H1]; · iexact H1
  iexact H2

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1, H2, H3⟩
  isplitl [Hs]; · iexact Hs
  isplitl [H0]; · iexact H0
  isplitl [H1]; · iexact H1
  isplitl [H2]; · iexact H2
  iexact H3

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨H0, H1, H2, H3⟩, Hz⟩
  isplitr; · iempintro
  isplitl [Hz]; · iexact Hz
  isplitl [H0]; · iexact H0
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Each window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From the body's obligation on every device: every weakly fair execution of the four devices terminates
    without fault, each window's array ending at the proof data's final contents. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ours m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array ends as it was. -/
theorem finalA_x (c : Dev nD) : finalA m ρ c (0 : Fin 2) = (s₀ m ρ).mem (win0_0.arr.view.loc (c : Thread nD τ)) :=
  (dats (F := F) m ρ 0 c).arrAt_in (0 : Fin 2) rfl _

omit [FloatOps F] in
/-- The result window's one block is the whole array: read through it, a buffer is itself. -/
theorem blk1_read (G : (main_v1 : Ref sig .tc).ty.Contents (Elt F)) : ((cfg0.win (1 : Fin 2)).blk t₀).view.read (Elt F) G = G :=
  Memref.read_access_unit_zero (Elt F) main_v1
    (show (fun a => (cfg0.win (1 : Fin 2)).index t₀ a * (cfg0.win (1 : Fin 2)).size a) = fun _ => 0 from funext fun a => Nat.zero_mul _) _ G

section
attribute [local irreducible] outAt
/-- What the one write-back writes: all of what the body left in the result's staging buffer. -/
theorem flushed1 (c : Dev nD) : (dats m ρ 0 c).flushed (1 : Fin 2) t₀ = outAt m ρ c := rfl
end

/-- The result array ends at the sixteen stores. -/
theorem finalA_out (c : Dev nD) : (finalA m ρ c (1 : Fin 2) : S1024x512.Idx → Elt F .bf16) = outAt m ρ c := by
  unfold finalA
  rw [show cfg0.N = (t₀ : Fin cfg0.N).val + 1 from rfl, Dat.arrAt_succ, flush0_1, if_pos rfl, flushed1]
  exact (blk1_read _).symm.trans (View.read_write_univ _ _)

/-- info: 'Cert.KernelProof.finalA_out' depends on axioms: [propext, Classical.choice, Quot.sound] -/
#guard_msgs in #print axioms finalA_out

/-- info: 'Cert.KernelProof.run_main' depends on axioms: [propext, Classical.choice, Quot.sound] -/
#guard_msgs in #print axioms run_main

end Cert.KernelProof

end
-- ==== Proof.K.Value.lean ====
import proofs.«900138_g7700000000000139_dist_ar_v7x_xy2x2_y_m1024_n512_bf16_1_alg».proof.Proof.K.Proto
import Idealize.ShloMosaic.Shape
import Idealize.ShloMosaic.Signature.View
import Idealize.ShloMosaic.Signature.Memref
import Idealize.ShloMosaic.PureOps.ShapeOps
import Idealize.ShloMosaic.Lib.Writes
import Idealize.ShloMosaic.Lib.Pipeline.Value
import Idealize.ShloMosaic.Lib.ValueIdx
import Idealize.ShloMosaic.PureOps.Ideal.Laws

/-! The value of the result's staging buffer: the sixteen chunk stores cover it, so it does not depend on
what it held before; and at the ideal instance row `r` of it is the sum of row `r` of two devices' blocks:
the device's own and its column mate's on the device's own half of the rows, its row mate's and that
device's column mate's on the other half. -/

noncomputable section

namespace Cert.KernelProof

open Cert.Kernel Cert.Kernel.Gen

open Idealize.ShloMosaic
open Idealize.ShloMosaic.TcCoe
open Idealize.SL Idealize.SL.Sem

variable {F : FTy → Type} [FloatOps F]

namespace ValueAux

/-! ## One chunk stored and read back; a chunk landed through the squeezed slice and read back -/

omit [FloatOps F] in
/-- The argument block as staged is the argument block: the launch's one block is the whole array. -/
theorem xstg_eq (m : (ℓ : Loc nD τ sig) → Buf (Elt F) ℓ) (ρ : Dev nD → PrngReg) (c : Dev nD) :
    xstg m ρ c = m ((c : Thread nD τ).loc main_arg0) :=
  Memref.read_access_unit_zero (Elt F) main_arg0 (funext fun a => Nat.zero_mul _) _ _

omit [FloatOps F] in
/-- A chunk stored through its rectangle reads back as stored. -/
theorem readAt_store (M : Memref sig .tc .vmem S8x64x512 .bf16) (k : Fin 8) (f : M.view.ty.Contents (Elt F)) (v : Vec F S1x64x512 .bf16) :
    M.view.readAt (Elt F) (rk k).toLoadRect ((M.access (rk k)).write (Elt F) f v Finset.univ) = v :=
  View.read_write_univ (v := M.access (rk k)) f v

omit [FloatOps F] in
/-- A 64 × 512 block landed through the squeezed chunk reads back, through the chunk's rectangle, as the block with a
    leading unit axis. -/
theorem readAt_land (M : Memref sig .tc .vmem S8x64x512 .bf16) (k : Fin 8) (f : M.view.ty.Contents (Elt F)) (w : Vec F S64x512 .bf16) :
    M.view.readAt (Elt F) (rk k).toLoadRect ((sl M k).view.write (Elt F) f w Finset.univ)
      = shapeCast S1x64x512 w shapeCasts_S64x512_S1x64x512 := by
  refine (congrArg (M.view.readAt (Elt F) (rk k).toLoadRect)
    (View.write_reshape_univ (M.view.slice (rk k)) squeezes_S1x64x512_S64x512.numel_eq f w)).trans ?_
  refine (View.read_write_univ (v := M.view.slice (rk k)) f _).trans ?_
  funext x
  unfold shapeCast
  rw [Shape.reshapeEquiv_symm]

omit [FloatOps F] in
/-- The squeezed chunk reads what the chunk's rectangle reads, without the unit axis. -/
theorem read_sl (M : Memref sig .tc .vmem S8x64x512 .bf16) (k : Fin 8) (g : M.view.ty.Contents (Elt F)) :
    (sl M k).view.read (Elt F) g = shapeCast S64x512 (M.view.readAt (Elt F) (rk k).toLoadRect g) shapeCasts_S1x64x512_S64x512 := rfl

omit [FloatOps F] in
/-- A chunk stored, sent through the squeezed slices and landed reads back as stored. -/
theorem readAt_land_store (M M' : Memref sig .tc .vmem S8x64x512 .bf16) (k : Fin 8) (f : M.view.ty.Contents (Elt F))
    (f' : M'.view.ty.Contents (Elt F)) (v : Vec F S1x64x512 .bf16) :
    M.view.readAt (Elt F) (rk k).toLoadRect
        ((sl M k).view.write (Elt F) f ((sl M' k).view.read (Elt F) ((M'.access (rk k)).write (Elt F) f' v Finset.univ)) Finset.univ) = v :=
  (readAt_land M k f _).trans <|
    (congrArg (fun u => shapeCast S1x64x512 (shapeCast S64x512 u shapeCasts_S1x64x512_S64x512) shapeCasts_S64x512_S1x64x512)
      (readAt_store M' k f' v)).trans (shapeCast_shapeCast v _ _)

/-! ## The chain of contents, chunk by chunk -/

section Chain

variable (m : (ℓ : Loc nD τ sig) → Buf (Elt F) ℓ) (ρ : Dev nD → PrngReg)

/-- Rows `64 k ..` of the device's own half of its block, as loaded. -/
def X1 (c : Dev nD) (k : Fin 8) : Vec F S64x512 .f32 := xM.view.readAt (Elt F) (rx1 c k).toLoadRect (xstg m ρ c)

theorem readA1 (c : Dev nD) (k : Fin 8) : aM.view.readAt (Elt F) (rk k).toLoadRect (A1 m ρ c k) = a1 m ρ c k :=
  readAt_store aM k _ _

theorem readB1 (c : Dev nD) (k : Fin 8) : bM.view.readAt (Elt F) (rk k).toLoadRect (B1 m ρ c k) = a1 m ρ (yn c) k :=
  readAt_land_store bM aM k _ _ _

theorem a2_eq (c : Dev nD) (k : Fin 8) : a2 m ρ c k = k0_pay10 (a1 m ρ c k) (a1 m ρ (yn c) k) := by
  unfold a2; rw [readA1, readB1]

theorem readP1 (c : Dev nD) (k : Fin 8) : pM.view.readAt (Elt F) (rk k).toLoadRect (P1 m ρ c k) = a2 m ρ c k :=
  readAt_store pM k _ _

theorem readQ1 (c : Dev nD) (k : Fin 8) : qM.view.readAt (Elt F) (rk k).toLoadRect (Q1 m ρ c k) = a2 m ρ (xn c) k :=
  readAt_land_store qM pM k _ _ _

theorem o1_eq (c : Dev nD) (k : Fin 8) : o1 m ρ c k = k0_pay11 (a2 m ρ c k) := by
  unfold o1; rw [readP1]

/-- What a device stores into the other half is what its row mate stores into its own. -/
theorem o2_eq (c : Dev nD) (k : Fin 8) : o2 m ρ c k = o1 m ρ (xn c) k := by
  unfold o2; rw [readQ1, o1_eq]

/-- A device's column sum of chunk `k`: the two devices' rows, each rounded, added. -/
theorem o1_closed (c : Dev nD) (k : Fin 8) :
    o1 m ρ c k = addf (truncf .bf16 (X1 m ρ c k) bitsLt_bf16_f32) (truncf .bf16 (X1 m ρ (yn c) k) bitsLt_bf16_f32) := by
  rw [o1_eq, a2_eq]
  unfold k0_pay11 k0_pay10 a1 k0_pay1 X1
  dsimp only
  simp only [shapeCast_shapeCast, shapeCast_self]

end Chain

/-! ## Where the sixteen pieces lie -/

theorem half_le : ∀ c : Dev nD, c.val / 2 ≤ 1 := by decide
theorem yn_half : ∀ c : Dev nD, (yn c).val / 2 = c.val / 2 := by decide
theorem xn_half : ∀ c : Dev nD, (xn c).val / 2 = 1 - c.val / 2 := by decide

theorem rx1_emb0 (c : Dev nD) (k : Fin 8) (x : S64x512.Idx) :
    ((rx1 c k).emb x 0).val = 512 * (c.val / 2) + 64 * k.val + (x 0).val := by
  rw [Rect.emb_apply]
  show k0_off1 c (BitVec.ofNat 32 (64 * k.val)) 0 + 1 * (x 0).val = _
  rw [k0_off1_eq, Nat.one_mul]; rfl

theorem rx1_emb1 (c : Dev nD) (k : Fin 8) (x : S64x512.Idx) : ((rx1 c k).emb x 1).val = (x 1).val := by
  rw [Rect.emb_apply]
  show k0_off1 c (BitVec.ofNat 32 (64 * k.val)) 1 + 1 * (x 1).val = _
  rw [k0_off1_eq, Nat.one_mul]; exact Nat.zero_add _

theorem rx2_emb0 (c : Dev nD) (k : Fin 8) (x : S64x512.Idx) :
    ((rx2 c k).emb x 0).val = (64 * k.val + 512) - 512 * (c.val / 2) + (x 0).val := by
  rw [Rect.emb_apply]
  show k0_off2 c (BitVec.ofNat 32 (64 * k.val)) 0 + 1 * (x 0).val = _
  rw [k0_off2_eq, Nat.one_mul]; rfl

theorem rx2_emb1 (c : Dev nD) (k : Fin 8) (x : S64x512.Idx) : ((rx2 c k).emb x 1).val = (x 1).val := by
  rw [Rect.emb_apply]
  show k0_off2 c (BitVec.ofNat 32 (64 * k.val)) 1 + 1 * (x 1).val = _
  rw [k0_off2_eq, Nat.one_mul]; exact Nat.zero_add _

/-- Devices in one row of the mesh cut their own half at the same rows. -/
theorem rx1_emb_congr (c c' : Dev nD) (h : c'.val / 2 = c.val / 2) (k : Fin 8) (x : S64x512.Idx) :
    (rx1 c' k).emb x = (rx1 c k).emb x :=
  Shape.idx_ext₂ (by rw [rx1_emb0, rx1_emb0, h]) (by rw [rx1_emb1, rx1_emb1])

/-- A device's other half is its row mate's own half. -/
theorem rx2_emb_eq (c : Dev nD) (k : Fin 8) (x : S64x512.Idx) : (rx2 c k).emb x = (rx1 (xn c) k).emb x :=
  Shape.idx_ext₂ (by rw [rx2_emb0, rx1_emb0, xn_half]; have := half_le c; omega) (by rw [rx2_emb1, rx1_emb1])

section Cover

variable (m : (ℓ : Loc nD τ sig) → Buf (Elt F) ℓ) (ρ : Dev nD → PrngReg)

/-- The sixteen pieces cover the result's shape: a row lies in chunk `(r % 512) / 64` of its half. -/
theorem cover (c : Dev nD) (y : S1024x512.Idx) : ∃ p ∈ outPieces m ρ c, y ∈ p.1.set := by
  have h0 : (y 0).val < 1024 := (y 0).isLt
  have h1 : (y 1).val < 512 := (y 1).isLt
  have hc := half_le c
  have hk : (y 0).val % 512 / 64 < 8 := by omega
  by_cases h : (y 0).val / 512 = c.val / 2
  · refine ⟨⟨rx1 c ⟨_, hk⟩, o1 m ρ c ⟨_, hk⟩⟩, ?_, ?_⟩
    · unfold outPieces
      exact List.mem_append_right _ (List.mem_reverse.mpr (List.mem_map.mpr ⟨_, List.mem_finRange _, rfl⟩))
    · refine (Rect.mem_set_unit (inb := k0_off1_inb c ⟨_, hk⟩)).mpr fun a => ?_
      rw [k0_off1_eq]
      match a with
      | ⟨0, _⟩ =>
        show 512 * (c.val / 2) + 64 * ((y 0).val % 512 / 64) ≤ (y 0).val
          ∧ (y 0).val < 512 * (c.val / 2) + 64 * ((y 0).val % 512 / 64) + 64
        omega
      | ⟨1, _⟩ => show 0 ≤ (y 1).val ∧ (y 1).val < 0 + 512; omega
  · refine ⟨⟨rx2 c ⟨_, hk⟩, o2 m ρ c ⟨_, hk⟩⟩, ?_, ?_⟩
    · unfold outPieces
      exact List.mem_append_left _ (List.mem_reverse.mpr (List.mem_map.mpr ⟨_, List.mem_finRange _, rfl⟩))
    · refine (Rect.mem_set_unit (inb := k0_off2_inb c ⟨_, hk⟩)).mpr fun a => ?_
      rw [k0_off2_eq]
      match a with
      | ⟨0, _⟩ =>
        show (64 * ((y 0).val % 512 / 64) + 512) - 512 * (c.val / 2) ≤ (y 0).val
          ∧ (y 0).val < (64 * ((y 0).val % 512 / 64) + 512) - 512 * (c.val / 2) + 64
        omega
      | ⟨1, _⟩ => show 0 ≤ (y 1).val ∧ (y 1).val < 0 + 512; omega

end Cover

/-! ## Writes through a whole buffer -/

omit [FloatOps F] in
/-- Writes that cover a whole buffer leave contents that do not depend on what it held. -/
theorem writes_whole_eq_of_cover {κ : Kind} (b : Ref sig κ) (f f' : b.ty.Contents (Elt F))
    (L : List (View.Piece (Elt F) b.ty.shape b.ty.elt)) (h : ∀ y, ∃ p ∈ L, y ∈ p.1.set) :
    (View.whole b).writes (Elt F) f L = (View.whole b).writes (Elt F) f' L :=
  funext fun y => View.read_writes_apply_eq (View.whole b) f (View.whole b) f' y L (h y)

omit [FloatOps F] in
/-- After writes whose pieces all agree with one function of the index, a whole buffer holds that function wherever a
    piece covers. -/
theorem writes_whole_apply_of_pieces {κ : Kind} (b : Ref sig κ) (f : b.ty.Contents (Elt F)) (G : b.ty.shape.Idx → Elt F b.ty.elt)
    (L : List (View.Piece (Elt F) b.ty.shape b.ty.elt)) (hG : ∀ p ∈ L, ∀ x : p.1.shape.Idx, p.2 x = G (p.1.emb x))
    (y : b.ty.shape.Idx) (hc : ∃ p ∈ L, y ∈ p.1.set) : (View.whole b).writes (Elt F) f L y = G y :=
  View.read_writes_apply_of_pieces (View.whole b) f G L hG y hc

omit [FloatOps F] in
/-- Pieces listed by a family: each agrees with a function of the index if every member of the family does. -/
theorem forall_mem_pieces {s : Shape} {e : EltTy} (G : s.Idx → Elt F e) {ι : Type} (l : List ι) (r : ι → Rect s)
    (w : (i : ι) → (r i).shape.Idx → Elt F e) (h : ∀ i, ∀ x, w i x = G ((r i).emb x)) :
    ∀ p ∈ (l.map fun i => (⟨r i, w i⟩ : View.Piece (Elt F) s e)).reverse, ∀ x : p.1.shape.Idx, p.2 x = G (p.1.emb x) := by
  intro p hp
  obtain ⟨i, -, rfl⟩ := List.mem_map.mp (List.mem_reverse.mp hp)
  exact h i

/-! ## The ideal instance -/

section Ideal

/-- A device's argument block, as a function of the row and the column. -/
abbrev blk (m : (ℓ : Loc nD τ sig) → Buf (Elt Ideal) ℓ) (c : Dev nD) : S1024x512.Idx → EReal :=
  m ((c : Thread nD τ).loc main_arg0)

variable (m : (ℓ : Loc nD τ sig) → Buf (Elt Ideal) ℓ) (ρ : Dev nD → PrngReg)

/-- The rows a device loads are its argument block's. -/
theorem X1_apply (c : Dev nD) (k : Fin 8) (x : S64x512.Idx) :
    (X1 (F := Ideal) m ρ c k x : EReal) = blk m c ((rx1 c k).emb x) :=
  congrFun (xstg_eq m ρ c) ((rx1 c k).emb x)

/-- At the ideal instance rounding is the identity: a device's column sum of chunk `k` is the sum of the two blocks' rows. -/
theorem o1_apply (c : Dev nD) (k : Fin 8) (x : S64x512.Idx) :
    (o1 (F := Ideal) m ρ c k x : EReal)
      = blk m c ((rx1 c k).emb x) + blk m (yn c) ((rx1 c k).emb x) := by
  rw [o1_closed]
  show (X1 m ρ c k x : EReal) + (X1 m ρ (yn c) k x : EReal) = _
  rw [X1_apply, X1_apply, rx1_emb_congr c (yn c) (yn_half c)]

/-- The result, row by row: own and column mate on the own half, row mate and its column mate on the other. -/
def G (c : Dev nD) (y : S1024x512.Idx) : EReal :=
  if (y 0).val / 512 = c.val / 2
  then blk m c y + blk m (yn c) y
  else blk m (xn c) y + blk m (yn (xn c)) y

theorem piece1 (c : Dev nD) (k : Fin 8) (x : S64x512.Idx) : (o1 (F := Ideal) m ρ c k x : EReal) = G m c ((rx1 c k).emb x) := by
  have hc := half_le c
  have hx : (x 0).val < 64 := (x 0).isLt
  refine (o1_apply m ρ c k x).trans ?_
  unfold G
  rw [if_pos (by rw [rx1_emb0]; omega)]

theorem piece2 (c : Dev nD) (k : Fin 8) (x : S64x512.Idx) : (o2 (F := Ideal) m ρ c k x : EReal) = G m c ((rx2 c k).emb x) := by
  have hc := half_le c
  have hx : (x 0).val < 64 := (x 0).isLt
  rw [o2_eq]
  refine (o1_apply m ρ (xn c) k x).trans ?_
  rw [← rx2_emb_eq]
  unfold G
  rw [if_neg (by rw [rx2_emb0]; omega)]

/-- Every piece holds the row-by-row result on its rows. -/
theorem pieces_G (c : Dev nD) :
    ∀ p ∈ outPieces (F := Ideal) m ρ c, ∀ x : p.1.shape.Idx, p.2 x = G m c (p.1.emb x) := by
  intro p hp
  rcases List.mem_append.mp hp with hp | hp
  · exact forall_mem_pieces (G m c) (List.finRange 8) (fun k => rx2 c k) (fun k => o2 m ρ c k)
      (fun k x => piece2 m ρ c k x) p hp
  · exact forall_mem_pieces (G m c) (List.finRange 8) (fun k => rx1 c k) (fun k => o1 m ρ c k)
      (fun k x => piece1 m ρ c k x) p hp

end Ideal

end ValueAux

open ValueAux

variable (m : (ℓ : Loc nD τ sig) → Buf (Elt F) ℓ) (ρ : Dev nD → PrngReg)

/-- The sixteen stores cover the staging buffer: over any prior contents they leave the same. -/
theorem outAt_base (c : Dev nD) (f : (cc0_stg1_0 : Ref sig .tc).ty.Contents (Elt F)) :
    oM.view.writes (Elt F) f (outPieces m ρ c) = outAt m ρ c :=
  writes_whole_eq_of_cover cc0_stg1_0 f _ (outPieces m ρ c) (cover m ρ c)

/-- Device `c`'s argument block, as a function of the row and the column. -/
abbrev mx (m : (ℓ : Loc nD τ sig) → Buf (Elt Ideal) ℓ) (c : Dev nD) : S1024x512.Idx → EReal :=
  m ((c : Thread nD τ).loc main_arg0)

/-- Row `r` of the result on device `c`, at the ideal instance. -/
theorem out_value (m : (ℓ : Loc nD τ sig) → Buf (Elt Ideal) ℓ) (ρ : Dev nD → PrngReg) (c : Dev nD) (r : Fin 1024) (j : Fin 512) :
    (outAt (F := Ideal) m ρ c (ValueIdx.ix2 r j) : EReal)
      = if r.val / 512 = c.val / 2 then mx m c (ValueIdx.ix2 r j) + mx m (yn c) (ValueIdx.ix2 r j)
        else mx m (xn c) (ValueIdx.ix2 r j) + mx m (yn (xn c)) (ValueIdx.ix2 r j) := by
  unfold outAt
  refine (writes_whole_apply_of_pieces cc0_stg1_0 _ (G m c) (outPieces m ρ c) (pieces_G m ρ c) (ValueIdx.ix2 r j)
    (cover m ρ c (ValueIdx.ix2 r j))).trans ?_
  rfl

end Cert.KernelProof

end

/-- info: 'Cert.KernelProof.outAt_base' depends on axioms: [propext, Classical.choice, Quot.sound] -/
#guard_msgs in #print axioms Cert.KernelProof.outAt_base

/-- info: 'Cert.KernelProof.out_value' depends on axioms: [propext, Classical.choice, Quot.sound] -/
#guard_msgs in #print axioms Cert.KernelProof.out_value
-- ==== Proof.lean ====
/- The proof of `Cert.Claim`: the three frames, `preserves` (the ideal pass rewrote nothing) and `algebraic`.
   The kernel is an all-reduce over a 2 × 2 mesh: every device ends with the sum, over the two row blocks of
   the whole array, of the block's rows.  Both instances of the kernel run by the same protocol argument; at
   the ideal instance the result is read at an index and is the reference's sum. -/
import proofs.«900138_g7700000000000139_dist_ar_v7x_xy2x2_y_m1024_n512_bf16_1_alg».proof.Defs
import proofs.«900138_g7700000000000139_dist_ar_v7x_xy2x2_y_m1024_n512_bf16_1_alg».proof.Proof.Gen.Kernel
import proofs.«900138_g7700000000000139_dist_ar_v7x_xy2x2_y_m1024_n512_bf16_1_alg».proof.Proof.Gen.Kernel.Skeleton
import proofs.«900138_g7700000000000139_dist_ar_v7x_xy2x2_y_m1024_n512_bf16_1_alg».proof.Proof.Gen.Kernel.Launch
import proofs.«900138_g7700000000000139_dist_ar_v7x_xy2x2_y_m1024_n512_bf16_1_alg».proof.Proof.Gen.Kernel.Points
import proofs.«900138_g7700000000000139_dist_ar_v7x_xy2x2_y_m1024_n512_bf16_1_alg».proof.Proof.Gen.Kernel.Frame
import proofs.«900138_g7700000000000139_dist_ar_v7x_xy2x2_y_m1024_n512_bf16_1_alg».proof.Proof.Gen.KernelIdeal
import proofs.«900138_g7700000000000139_dist_ar_v7x_xy2x2_y_m1024_n512_bf16_1_alg».proof.Proof.Gen.KernelIdeal.Skeleton
import proofs.«900138_g7700000000000139_dist_ar_v7x_xy2x2_y_m1024_n512_bf16_1_alg».proof.Proof.Gen.KernelIdeal.Launch
import proofs.«900138_g7700000000000139_dist_ar_v7x_xy2x2_y_m1024_n512_bf16_1_alg».proof.Proof.Gen.KernelIdeal.Points
import proofs.«900138_g7700000000000139_dist_ar_v7x_xy2x2_y_m1024_n512_bf16_1_alg».proof.Proof.Gen.KernelIdeal.Frame
import proofs.«900138_g7700000000000139_dist_ar_v7x_xy2x2_y_m1024_n512_bf16_1_alg».proof.Proof.Gen.ReferenceIdeal
import proofs.«900138_g7700000000000139_dist_ar_v7x_xy2x2_y_m1024_n512_bf16_1_alg».proof.Proof.Gen.Pre_finite_inputs_Kernel
import proofs.«900138_g7700000000000139_dist_ar_v7x_xy2x2_y_m1024_n512_bf16_1_alg».proof.Proof.Gen.Pre_finite_inputs_ReferenceIdeal
import proofs.«900138_g7700000000000139_dist_ar_v7x_xy2x2_y_m1024_n512_bf16_1_alg».proof.Proof.Gen.ReferenceIdeal.Run
import proofs.«900138_g7700000000000139_dist_ar_v7x_xy2x2_y_m1024_n512_bf16_1_alg».proof.Proof.Gen.ReferenceIdeal.Read
import proofs.«900138_g7700000000000139_dist_ar_v7x_xy2x2_y_m1024_n512_bf16_1_alg».proof.Proof.Body
import proofs.«900138_g7700000000000139_dist_ar_v7x_xy2x2_y_m1024_n512_bf16_1_alg».proof.Proof.Launch
import proofs.«900138_g7700000000000139_dist_ar_v7x_xy2x2_y_m1024_n512_bf16_1_alg».proof.Proof.Value
import proofs.«900138_g7700000000000139_dist_ar_v7x_xy2x2_y_m1024_n512_bf16_1_alg».proof.Proof.Bridge
import proofs.«900138_g7700000000000139_dist_ar_v7x_xy2x2_y_m1024_n512_bf16_1_alg».proof.Proof.K.Body
import proofs.«900138_g7700000000000139_dist_ar_v7x_xy2x2_y_m1024_n512_bf16_1_alg».proof.Proof.K.Launch
import proofs.«900138_g7700000000000139_dist_ar_v7x_xy2x2_y_m1024_n512_bf16_1_alg».proof.Proof.K.Value
import Idealize.ShloMosaic.Adequacy
import Idealize.ShloMosaic.Init

noncomputable section

namespace Cert.Proof

open Idealize.ShloMosaic Idealize.SL.Sem

/-- The word-level kernel runs and leaves its argument blocks unchanged. -/
theorem frame_Kernel : @Cert.frame_Kernel Cert.Kernel.Gen.facts Cert.Pre_finite_inputs_Kernel.Gen.facts := fun m g _ =>
  (θ_run (Cert.Kernel.defs (F := Bits)) _ _).mono
    (fun _ h c => (h c 0).trans (Cert.KernelProof.finalA_x m g c))
    (Cert.KernelProof.run_main m g (Cert.KernelProof.body_obligation m g (Cert.KernelProof.outAt_base m g)))

/-- The idealized kernel runs and leaves its argument blocks unchanged. -/
theorem frame_KernelIdeal : @Cert.frame_KernelIdeal Cert.KernelIdeal.Gen.facts Cert.Pre_finite_inputs_Kernel.Gen.facts := fun m g _ =>
  (θ_run (Cert.KernelIdeal.defs (F := Ideal)) _ _).mono
    (fun _ h c => (h c 0).trans (Cert.KernelIdealProof.finalA_x m g c))
    (Cert.KernelIdealProof.run_main m g (Cert.KernelIdealProof.body_obligation m g (Cert.KernelIdealProof.outAt_base m g)))

/-- The reference runs and leaves its argument unchanged. -/
theorem frame_ReferenceIdeal : @Cert.frame_ReferenceIdeal Cert.ReferenceIdeal.Gen.facts Cert.Pre_finite_inputs_ReferenceIdeal.Gen.facts := fun m g _ =>
  (θ_run (Cert.ReferenceIdeal.defs (F := Ideal)) _ _).mono (fun _ h c => (h c).2) (Cert.ReferenceIdeal.Value.run (F := Ideal) m g)

/-- Every device's result is the reference's: the sum of the two row blocks, whichever block the device holds. -/
theorem algebraic : @Cert.algebraic_KernelIdeal_ReferenceIdeal Cert.KernelIdeal.Gen.facts Cert.ReferenceIdeal.Gen.facts Cert.Pre_finite_inputs_Kernel.Gen.facts :=
  fun m g m' g' _ hagree =>
    ⟨Cert.ReferenceIdeal.Read.val_main_v2 (F := Ideal) (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun _ h c => ⟨((h c 1).trans (Cert.KernelIdealProof.finalA_out m g c)).trans
            (Cert.KernelIdealProof.out_eq_ref m g _ hagree c),
          (h c 0).trans (Cert.KernelIdealProof.finalA_x m g c)⟩)
        (Cert.KernelIdealProof.run_main m g (Cert.KernelIdealProof.body_obligation m g (Cert.KernelIdealProof.outAt_base m g))),
      (θ_run (Cert.ReferenceIdeal.defs (F := Ideal)) _ _).mono
        (fun _ h => ⟨((h 0).1).trans (Cert.ReferenceIdeal.Read.val_main_v2_eq _), (h 0).2⟩)
        (Cert.ReferenceIdeal.Value.run (F := Ideal) m' g')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

end Cert.Proof

end
